-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S2 : Shape := ⟨1, ![2]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024x1024 .f32) (main_arg5 : FVec F S1024x1024 .f32) (main_arg6 : FVec F S1024x1024 .f32) (main_arg7 : IVec S2 32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S2 : Shape := ⟨1, ![2]⟩
abbrev S1024x16x64 : Shape := ⟨3, ![1024, 16, 64]⟩
abbrev S16x1024x64 : Shape := ⟨3, ![16, 1024, 64]⟩
abbrev S16x64x1024 : Shape := ⟨3, ![16, 64, 1024]⟩
abbrev S4096x1024 : Shape := ⟨2, ![4096, 1024]⟩
abbrev S32x2048x64 : Shape := ⟨3, ![32, 2048, 64]⟩
abbrev S2048x1024 : Shape := ⟨2, ![2048, 1024]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S2x16 : Shape := ⟨2, ![2, 16]⟩
abbrev S32 : Shape := ⟨1, ![32]⟩
abbrev S1024x2048 : Shape := ⟨2, ![1024, 2048]⟩
abbrev S1 : Shape := ⟨1, ![1]⟩
abbrev S1024 : Shape := ⟨1, ![1024]⟩
abbrev S1024x1 : Shape := ⟨2, ![1024, 1]⟩
abbrev S1x64x1024 : Shape := ⟨3, ![1, 64, 1024]⟩
abbrev S64x1024 : Shape := ⟨2, ![64, 1024]⟩

abbrev nBuf : Space → Nat
  | .hbm => 29
  | .vmem => 29
  | .smem => 1
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2, .i32⟩
  | .hbm, ⟨8, _⟩ => ⟨S1024x16x64, .f32⟩
  | .hbm, ⟨9, _⟩ => ⟨S16x1024x64, .f32⟩
  | .hbm, ⟨10, _⟩ => ⟨S16x1024x64, .bf16⟩
  | .hbm, ⟨11, _⟩ => ⟨S1024x16x64, .f32⟩
  | .hbm, ⟨12, _⟩ => ⟨S16x1024x64, .f32⟩
  | .hbm, ⟨13, _⟩ => ⟨S16x1024x64, .bf16⟩
  | .hbm, ⟨14, _⟩ => ⟨S1024x16x64, .f32⟩
  | .hbm, ⟨15, _⟩ => ⟨S16x1024x64, .f32⟩
  | .hbm, ⟨16, _⟩ => ⟨S16x1024x64, .bf16⟩
  | .hbm, ⟨17, _⟩ => ⟨S16x64x1024, .f32⟩
  | .hbm, ⟨18, _⟩ => ⟨S16x64x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S32x2048x64, .bf16⟩
  | .hbm, ⟨23, _⟩ => ⟨S32x2048x64, .bf16⟩
  | .hbm, ⟨24, _⟩ => ⟨S32x2048x64, .bf16⟩
  | .hbm, ⟨25, _⟩ => ⟨S2x16, .i32⟩
  | .hbm, ⟨26, _⟩ => ⟨S32x2048x64, .bf16⟩
  | .hbm, ⟨27, _⟩ => ⟨S4096x1024, .f32⟩
  | .hbm, ⟨28, _⟩ => ⟨S2x2048x1024, .f32⟩
  | .local _ .vmem, ⟨0, _⟩ => ⟨S2048x1024, .f32⟩
  | .local _ .vmem, ⟨1, _⟩ => ⟨S1x1024x64, .bf16⟩
  | .local _ .vmem, ⟨2, _⟩ => ⟨S1x1024x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S2048x1024, .f32⟩
  | .local _ .vmem, ⟨6, _⟩ => ⟨S1x1024x64, .bf16⟩
  | .local _ .vmem, ⟨7, _⟩ => ⟨S1x1024x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S2048x1024, .f32⟩
  | .local _ .vmem, ⟨11, _⟩ => ⟨S1x1024x64, .bf16⟩
  | .local _ .vmem, ⟨12, _⟩ => ⟨S1x1024x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S1x1024x64, .bf16⟩
  | .local _ .vmem, ⟨22, _⟩ => ⟨S1x1024x64, .bf16⟩
  | .local _ .vmem, ⟨23, _⟩ => ⟨S1x2048x64, .bf16⟩
  | .local _ .vmem, ⟨24, _⟩ => ⟨S1x2048x64, .bf16⟩
  | .local _ .vmem, ⟨25, _⟩ => ⟨S1x64x1024, .bf16⟩
  | .local _ .vmem, ⟨26, _⟩ => ⟨S1x64x1024, .bf16⟩
  | .local _ .vmem, ⟨27, _⟩ => ⟨S2048x1024, .f32⟩
  | .local _ .vmem, ⟨28, _⟩ => ⟨S2048x1024, .f32⟩
  | .local _ .smem, ⟨0, _⟩ => ⟨S32, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v18 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_scratch0 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![32, 2], ![false, false]⟩

abbrev pre3 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v10 : Index := Scalar.indexCast arg0
  ![v10.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 16], ![false, false]⟩

def k4_cond2 (i : grid4.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_10 : BitVec 32 := 0#32
  let v15 : BitVec 1 := Scalar.cmpi .ne v14 c0_i32_10
  v15

def cc4_transform_0 (i : grid4.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x2048x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x64x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

class Facts₀ : Prop where
  shapeCasts_S1024x1024_S1024x16x64 : S1024x1024.ShapeCasts S1024x16x64
  transposes_S1024x16x64_S16x1024x64_1_0_2 : S1024x16x64.Transposes [1, 0, 2] S16x1024x64
  bitsLt_bf16_f32 : FTy.bits .bf16 < FTy.bits .f32
  shapeCasts_S1024x1024_S16x64x1024 : S1024x1024.ShapeCasts S16x64x1024
  shapeCasts_S2x2048x1024_S4096x1024 : S2x2048x1024.ShapeCasts S4096x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  bcast_S2_S2x16_0 : S2.BroadcastsInDim S2x16 (![0] : Fin 1 → Fin S2x16.rank)
  shapeCasts_S2x16_S32 : S2x16.ShapeCasts S32
  iota_S1024x2048_d1_w32 : S1024x2048.Iotas .tc 32 [1]
  numel1_S1 : S1.numel = 1
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S4096x1024_S2x2048x1024 : S4096x1024.ShapeCasts S2x2048x1024
  dot_S2048x1024_S1024x64_S2048x64_1_0_0_1_n_n_wf : DotDims.WF S2048x1024 S1024x64 S2048x64 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .bf16 = 32 ∨ (Rect.block (s := S16x1024x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x1024.size a
  hwx1_0 : ∀ i : grid1.Coords, EltTy.bits .f32 = 32 ∨ (Rect.block (s := S4096x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S16x1024x64.size a
  hwx1_1 : ∀ i : grid1.Coords, EltTy.bits .bf16 = 32 ∨ (Rect.block (s := S16x1024x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x1024.size a
  hwx2_0 : ∀ i : grid2.Coords, EltTy.bits .f32 = 32 ∨ (Rect.block (s := S4096x1024) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S16x1024x64.size a
  hwx2_1 : ∀ i : grid2.Coords, EltTy.bits .bf16 = 32 ∨ (Rect.block (s := S16x1024x64) S1x1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x64.size a ≤ S32x2048x64.size a
  hwx2_2 : ∀ i : grid2.Coords, EltTy.bits .bf16 = 32 ∨ (Rect.block (s := S32x2048x64) S1x2048x64.size (cc2_transform_2 i) (hinb2_2 i)).WholeWords (EltTy.packing .bf16)
  hrank3 : 0 < grid3.rank
  k3_off1_inb : ∀ i : grid3.Coords, ∀ a, (k3_off1 i) a + S1.size a ≤ S32.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x64.size a ≤ S32x2048x64.size a
  hwx3_0 : ∀ i : grid3.Coords, EltTy.bits .bf16 = 32 ∨ (Rect.block (s := S32x2048x64) S1x1024x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .bf16 = 32 ∨ (Rect.block (s := S32x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x64.size a ≤ S32x2048x64.size a
  hwx3_3 : ∀ i : grid3.Coords, EltTy.bits .bf16 = 32 ∨ (Rect.block (s := S32x2048x64) S1x1024x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048x64.size a ≤ S32x2048x64.size a
  hwx4_0 : ∀ i : grid4.Coords, EltTy.bits .bf16 = 32 ∨ (Rect.block (s := S32x2048x64) S1x2048x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x1024.size a ≤ S16x64x1024.size a
  hwx4_1 : ∀ i : grid4.Coords, EltTy.bits .bf16 = 32 ∨ (Rect.block (s := S16x64x1024) S1x64x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x1024.size a ≤ S4096x1024.size a
  hwx4_2 : ∀ i : grid4.Coords, EltTy.bits .f32 = 32 ∨ (Rect.block (s := S4096x1024) S2048x1024.size (cc4_transform_2 i) (hinb4_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_v11) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S2048x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S2048x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev spec3_0 : Pipeline.WinSpec sig grid3.rank :=
  Pipeline.WinSpec.ofSpec (Memref.whole main_v14) S1x1024x64.size reads3_0 false false 2 stage3_0 sem3_0 nbuf3_0 hstage3_0

abbrev spec3_1 : Pipeline.WinSpec sig grid3.rank :=
  Pipeline.WinSpec.ofSpec (Memref.whole main_v15) S1x2048x64.size reads3_1 false false 2 stage3_1 sem3_1 nbuf3_1 hstage3_1

abbrev spec3_2 : Pipeline.WinSpec sig grid3.rank :=
  Pipeline.WinSpec.ofSpec (Memref.whole main_v16) S1x2048x64.size reads3_2 false false 2 stage3_2 sem3_2 nbuf3_2 hstage3_2

abbrev spec3_3 : Pipeline.WinSpec sig grid3.rank :=
  Pipeline.WinSpec.ofSpec (Memref.whole main_v19) S1x1024x64.size reads3_3 true false 2 stage3_3 sem3_3 nbuf3_3 hstage3_3

abbrev spec3 : Fin 4 → Pipeline.WinSpec sig grid3.rank := fun | 0 => spec3_0 | 1 => spec3_1 | 2 => spec3_2 | 3 => spec3_3 | ⟨_ + 4, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | ⟨_ + 4, h⟩ => absurd h (Nat.not_lt.2 (Nat.le_add_left _ _))
abbrev ix3 (pf : pre3.Contents (Elt F)) : (w : Fin 4) → grid3.Coords → Fin (spec3 w).shape.rank → Nat := fun | 0 => cc3_transform_0 | 1 => cc3_transform_1 | 2 => cc3_transform_2 | 3 => cc3_transform_3 | ⟨_ + 4, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | 3 => hreads3_3 | ⟨_ + 4, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | 3 => hinb3_3 | ⟨_ + 4, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | 3 => hwx3_3 | ⟨_ + 4, h⟩ => absurd h (Nat.not_lt.2 (Nat.le_add_left _ _))
abbrev win4_0 : Pipeline.Window sig grid4 :=
  Pipeline.Window.ofSpec (Memref.whole main_v19) S1x2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S1x64x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S2048x1024.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where
  harr3 : ∀ w, (spec3 w).arr.IsWhole

variable [Facts]
-- ==== ReferenceIdeal.lean ====
abbrev S2x2048x1024 : Shape := ⟨3, ![2, 2048, 1024]⟩
abbrev S1024x1024 : Shape := ⟨2, ![1024, 1024]⟩
abbrev S2 : Shape := ⟨1, ![2]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S1x1x1x2048 : Shape := ⟨4, ![1, 1, 1, 2048]⟩
abbrev S2x1x1x1 : Shape := ⟨4, ![2, 1, 1, 1]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2, .i32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S2048, .i32⟩
  | .hbm, ⟨23, _⟩ => ⟨S1x1x1x2048, .i32⟩
  | .hbm, ⟨24, _⟩ => ⟨S2x1x1x1, .i32⟩
  | .hbm, ⟨25, _⟩ => ⟨S2x1x1x2048, .i32⟩
  | .hbm, ⟨26, _⟩ => ⟨S2x1x1x2048, .i32⟩
  | .hbm, ⟨27, _⟩ => ⟨S2x1x1x2048, .i1⟩
  | .hbm, ⟨28, _⟩ => ⟨S_, .f32⟩
  | .hbm, ⟨29, _⟩ => ⟨S_, .f32⟩
  | .hbm, ⟨30, _⟩ => ⟨S2x16x2048x2048, .i1⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2048_S1x1x1x2048_3 : S2048.BroadcastsInDim S1x1x1x2048 (![3] : Fin 1 → Fin S1x1x1x2048.rank)
  bcast_S2_S2x1x1x1_0 : S2.BroadcastsInDim S2x1x1x1 (![0] : Fin 1 → Fin S2x1x1x1.rank)
  bcast_S1x1x1x2048_S2x1x1x2048_0_1_2_3 : S1x1x1x2048.BroadcastsInDim S2x1x1x2048 (![0, 1, 2, 3] : Fin 4 → Fin S2x1x1x2048.rank)
  bcast_S2x1x1x1_S2x1x1x2048_0_1_2_3 : S2x1x1x1.BroadcastsInDim S2x1x1x2048 (![0, 1, 2, 3] : Fin 4 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.WordProjRegion0.lean ====
/-
  The first projection launch: for each batch b and head h, the f32 block of 2048 positions by 1024 model
  coordinates of batch b, narrowed to bf16, is multiplied by head h's 1024 by 64 slice of the head-major weight,
  and the 2048 by 64 product is stored as block 16 b + h of the head-major result.

  Stated at any contents V of the core's buffers when the launch is entered: the blocks each grid point is handed,
  what the body leaves in the result's staging buffer (its one store over the payload of the two loaded blocks),
  the body's triple, and the pipeline's proof data with its body obligation at every point. Nothing is carried
  between points; the invariant is the untouched rest of the scoped memory and the generator register.
-/
import proofs.«418068_j5952824673153_2_alg».proof.Proof.Gen.Kernel.Launch
import proofs.«418068_j5952824673153_2_alg».proof.Proof.Gen.Kernel.Skeleton
import proofs.«418068_j5952824673153_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point, fetched there or not: between two
    fetches the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole activation block, the whole weight block, the whole result block: the body's three accesses. -/
abbrev rx0 : Rect S2048x1024 := Rect.unit (s := S2048x1024) ![0, 0] S2048x1024.size inb_S2048x1024_S2048x1024_0_0
abbrev rw0 : Rect S1x1024x64 := Rect.unit (s := S1x1024x64) ![0, 0, 0] S1x1024x64.size inb_S1x1024x64_S1x1024x64_0_0_0
abbrev ro0 : Rect S1x2048x64 := Rect.unit (s := S1x2048x64) ![0, 0, 0] S1x2048x64.size inb_S1x2048x64_S1x2048x64_0_0_0

/-- The result's staging buffer after the body: its one whole-block store of the product of the two loaded blocks. -/
def out0_2 (x0 : Vec F S2048x1024 .f32) (x1 : Vec F S1x1024x64 .bf16) : Vec F S1x2048x64 .bf16 :=
  View.canon [⟨ro0, k0_pay1 (View.ld x0 rx0) (View.ld x1 rw0)⟩]

/-- The one store covers the buffer. -/
theorem cover0_2 (p0 : Vec F S1x2048x64 .bf16) (y : S1x2048x64.Idx) :
    ∃ pc ∈ ([⟨ro0, p0⟩] : List (View.Piece (Elt F) S1x2048x64 .bf16)), y ∈ pc.1.set :=
  View.cover_of_tiled [⟨ro0, p0⟩] S1x2048x64.size (by rfl) y

set_option maxHeartbeats 1000000 in
/-- The body on whole staging memrefs, the two inputs' at contents x0 and x1 and the result's at anything, runs to the
    continuation holding the inputs' as they were and the result's at the product of the inputs. -/
theorem sound_kernel0 (c : Dev nD) (E : Set ℕ) (i : grid0.Coords) (arg2 : Memref sig .tc .vmem S2048x1024 .f32) (harg2 : arg2.IsWhole)
    (arg3 : Memref sig .tc .vmem S1x1024x64 .bf16) (harg3 : arg3.IsWhole) (arg4 : Memref sig .tc .vmem S1x2048x64 .bf16) (harg4 : arg4.IsWhole)
    (x0 : Vec F S2048x1024 .f32) (x1 : Vec F S1x1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this launch on core c: the arrays as the launch finds them; after the body at point t each
    input's buffer at its block and the result's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Region

end
-- ==== Proof.WordProjRegion1.lean ====
/-
  The second projection launch: for each batch b and head h, the f32 block of 2048 positions by 1024 model
  coordinates of batch b, narrowed to bf16, is multiplied by head h's 1024 by 64 slice of the head-major weight,
  and the 2048 by 64 product is stored as block 16 b + h of the head-major result.

  Stated at any contents V of the core's buffers when the launch is entered: the blocks each grid point is handed,
  what the body leaves in the result's staging buffer (its one store over the payload of the two loaded blocks),
  the body's triple, and the pipeline's proof data with its body obligation at every point. Nothing is carried
  between points; the invariant is the untouched rest of the scoped memory and the generator register.
-/
import proofs.«418068_j5952824673153_2_alg».proof.Proof.Gen.Kernel.Launch
import proofs.«418068_j5952824673153_2_alg».proof.Proof.Gen.Kernel.Skeleton
import proofs.«418068_j5952824673153_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point, fetched there or not: between two
    fetches the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole activation block, the whole weight block, the whole result block: the body's three accesses. -/
abbrev rx1 : Rect S2048x1024 := Rect.unit (s := S2048x1024) ![0, 0] S2048x1024.size inb_S2048x1024_S2048x1024_0_0
abbrev rw1 : Rect S1x1024x64 := Rect.unit (s := S1x1024x64) ![0, 0, 0] S1x1024x64.size inb_S1x1024x64_S1x1024x64_0_0_0
abbrev ro1 : Rect S1x2048x64 := Rect.unit (s := S1x2048x64) ![0, 0, 0] S1x2048x64.size inb_S1x2048x64_S1x2048x64_0_0_0

/-- The result's staging buffer after the body: its one whole-block store of the product of the two loaded blocks. -/
def out1_2 (x0 : Vec F S2048x1024 .f32) (x1 : Vec F S1x1024x64 .bf16) : Vec F S1x2048x64 .bf16 :=
  View.canon [⟨ro1, k1_pay1 (View.ld x0 rx1) (View.ld x1 rw1)⟩]

/-- The one store covers the buffer. -/
theorem cover1_2 (p0 : Vec F S1x2048x64 .bf16) (y : S1x2048x64.Idx) :
    ∃ pc ∈ ([⟨ro1, p0⟩] : List (View.Piece (Elt F) S1x2048x64 .bf16)), y ∈ pc.1.set :=
  View.cover_of_tiled [⟨ro1, p0⟩] S1x2048x64.size (by rfl) y

set_option maxHeartbeats 1000000 in
/-- The body on whole staging memrefs, the two inputs' at contents x0 and x1 and the result's at anything, runs to the
    continuation holding the inputs' as they were and the result's at the product of the inputs. -/
theorem sound_kernel1 (c : Dev nD) (E : Set ℕ) (i : grid1.Coords) (arg2 : Memref sig .tc .vmem S2048x1024 .f32) (harg2 : arg2.IsWhole)
    (arg3 : Memref sig .tc .vmem S1x1024x64 .bf16) (harg3 : arg3.IsWhole) (arg4 : Memref sig .tc .vmem S1x2048x64 .bf16) (harg4 : arg4.IsWhole)
    (x0 : Vec F S2048x1024 .f32) (x1 : Vec F S1x1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this launch on core c: the arrays as the launch finds them; after the body at point t each
    input's buffer at its block and the result's at the product of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Region

end
-- ==== Proof.WordProjRegion2.lean ====
/-
  The third projection launch: for each batch b and head h, the f32 block of 2048 positions by 1024 model
  coordinates of batch b, narrowed to bf16, is multiplied by head h's 1024 by 64 slice of the head-major weight,
  and the 2048 by 64 product is stored as block 16 b + h of the head-major result.

  Stated at any contents V of the core's buffers when the launch is entered: the blocks each grid point is handed,
  what the body leaves in the result's staging buffer (its one store over the payload of the two loaded blocks),
  the body's triple, and the pipeline's proof data with its body obligation at every point. Nothing is carried
  between points; the invariant is the untouched rest of the scoped memory and the generator register.
-/
import proofs.«418068_j5952824673153_2_alg».proof.Proof.Gen.Kernel.Launch
import proofs.«418068_j5952824673153_2_alg».proof.Proof.Gen.Kernel.Skeleton
import proofs.«418068_j5952824673153_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's staging buffer holds its block at every point, fetched there or not: between two
    fetches the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole activation block, the whole weight block, the whole result block: the body's three accesses. -/
abbrev rx2 : Rect S2048x1024 := Rect.unit (s := S2048x1024) ![0, 0] S2048x1024.size inb_S2048x1024_S2048x1024_0_0
abbrev rw2 : Rect S1x1024x64 := Rect.unit (s := S1x1024x64) ![0, 0, 0] S1x1024x64.size inb_S1x1024x64_S1x1024x64_0_0_0
abbrev ro2 : Rect S1x2048x64 := Rect.unit (s := S1x2048x64) ![0, 0, 0] S1x2048x64.size inb_S1x2048x64_S1x2048x64_0_0_0

/-- The result's staging buffer after the body: its one whole-block store of the product of the two loaded blocks. -/
def out2_2 (x0 : Vec F S2048x1024 .f32) (x1 : Vec F S1x1024x64 .bf16) : Vec F S1x2048x64 .bf16 :=
  View.canon [⟨ro2, k2_pay1 (View.ld x0 rx2) (View.ld x1 rw2)⟩]

/-- The one store covers the buffer. -/
theorem cover2_2 (p0 : Vec F S1x2048x64 .bf16) (y : S1x2048x64.Idx) :
    ∃ pc ∈ ([⟨ro2, p0⟩] : List (View.Piece (Elt F) S1x2048x64 .bf16)), y ∈ pc.1.set :=
  View.cover_of_tiled [⟨ro2, p0⟩] S1x2048x64.size (by rfl) y

set_option maxHeartbeats 1000000 in
/-- The body on whole staging memrefs, the two inputs' at contents x0 and x1 and the result's at anything, runs to the
    continuation holding the inputs' as they were and the result's at the product of the inputs. -/
theorem sound_kernel2 (c : Dev nD) (E : Set ℕ) (i : grid2.Coords) (arg2 : Memref sig .tc .vmem S2048x1024 .f32) (harg2 : arg2.IsWhole)
    (arg3 : Memref sig .tc .vmem S1x1024x64 .bf16) (harg3 : arg3.IsWhole) (arg4 : Memref sig .tc .vmem S1x2048x64 .bf16) (harg4 : arg4.IsWhole)
    (x0 : Vec F S2048x1024 .f32) (x1 : Vec F S1x1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__proj_kernel i arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this launch on core c: the arrays as the launch finds them; after the body at point t each
    input's buffer at its block and the result's at the product of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Region

end
-- ==== Proof.WordAttnRegion.lean ====
/-
  The attention launch: for each head-batch index n = 16 b + h and each half of the 2048 query positions, the
  1024 by 64 block of queries, the head's 2048 by 64 keys and values, and the valid length the table holds for
  index n give the 1024 by 64 block of the result: scores scaled by 1/8, key positions at or past the valid length
  replaced by -10^6, exp of the score minus the row maximum, the contraction with the values divided by the row sum.

  The launch reads one table of 32 words (the valid lengths by head-batch index) that the pipeline holds while it
  runs; the body loads word n. Stated at any admissible contents of the table and any contents V of the core's
  buffers when the launch is entered.
-/
import proofs.«418068_j5952824673153_2_alg».proof.Proof.Gen.Kernel.Launch
import proofs.«418068_j5952824673153_2_alg».proof.Proof.Gen.Kernel.Skeleton
import proofs.«418068_j5952824673153_2_alg».proof.Proof.Gen.Kernel.Points
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a3 : (pcfg3 (F := F)).Adm)
variable (V : (c : Dev nD) → (b : Ref sig .tc) → Buf (Elt F) ((c : Thread nD τ).loc b))

/-- Window w's block at point t, read off its array as the launch finds it. -/
def iblk3 (c : Dev nD) (w : Fin (cfg3 a3).W) (t : Fin (cfg3 a3).N) :
    (((cfg3 a3).win w).xblock ((cfg3 a3).grid.coords t)).Idx → Elt F ((cfg3 a3).win w).elt :=
  (((cfg3 a3).win w).blk t).view.read (Elt F) (V c (Pipeline.arrRef spec3 w))

/-- The table's word for head-batch index n: the valid length of the batch it belongs to. -/
def tword (n : Fin 32) : Elt F .i32 := a3.1 0 (ValueIdx.ix1 n)

/-- The head-batch index of grid point t (the grid's first coordinate). -/
def headOf (t : Fin (cfg3 a3).N) : Fin 32 := ⟨(grid3.coords t 0).val, (grid3.coords t 0).isLt⟩

/-- The whole query block, the whole key or value block: the body's accesses (the result block is the query block's shape). -/
abbrev rq3 : Rect S1x1024x64 := Rect.unit (s := S1x1024x64) ![0, 0, 0] S1x1024x64.size inb_S1x1024x64_S1x1024x64_0_0_0
abbrev rk3 : Rect S1x2048x64 := Rect.unit (s := S1x2048x64) ![0, 0, 0] S1x2048x64.size inb_S1x2048x64_S1x2048x64_0_0_0

/-- The result's staging buffer after the body: its one whole-block store of the attention payload of the three loaded
    blocks and the loaded valid length. -/
def out3_3 (x0 : Vec F S1x1024x64 .bf16) (x1 x2 : Vec F S1x2048x64 .bf16) (v : Elt F .i32) : Vec F S1x1024x64 .bf16 :=
  View.canon [⟨rq3, k3_pay1 (View.ld x0 rq3) (View.ld x1 rk3) (View.ld x2 rk3) v⟩]

/-- The proof data of this launch on core c: the arrays as the launch finds them; after the body at point t each
    input's buffer at its block and the result's at the attention payload of the blocks and the point's valid length;
    the invariant is the untouched rest of the scoped memory, the generator register, and the table held whole;
    nothing owed; full shares. -/
def dat3 (c : Dev nD) : Dat τ (Elt F) Unit ℕ (UR sig nD τ) ℕ (cfg3 a3) c where
  A w := V c (Pipeline.arrRef spec3 w)
  after w t := match w with
    | ⟨0, _⟩ => iblk3 a3 V c 0 t
    | ⟨1, _⟩ => iblk3 a3 V c 1 t
    | ⟨2, _⟩ => iblk3 a3 V c 2 t
    | ⟨3, _⟩ => out3_3 (iblk3 a3 V c 0 t) (iblk3 a3 V c 1 t) (iblk3 a3 V c 2 t) (tword a3 (headOf a3 t))
  Φ _ := iprop(Pipeline.ΦA spec3 c ∗ Pipeline.prefHeld (Ix := Unit) (Name := ℕ) (U := UR sig nD τ) (Lvl := ℕ) pre3 c (fun _ => fullShare) a3.1)
  q _ := fullShare
  owed _ := 0

theorem A_eq3 (c : Dev nD) (w : Fin (cfg3 a3).W) : (dat3 a3 V c).A w = V c (Pipeline.arrRef spec3 w) := by
  dsimp only [dat3]

theorem after3_3 (c : Dev nD) (t : Fin (cfg3 a3).N) :
    (dat3 a3 V c).after 3 t = out3_3 (iblk3 a3 V c 0 t) (iblk3 a3 V c 1 t) (iblk3 a3 V c 2 t) (tword a3 (headOf a3 t)) := by
  dsimp only [dat3]; rfl

theorem Phi3 (c : Dev nD) (t : Fin ((cfg3 a3).N + 1)) :
    (dat3 a3 V c).Φ t = iprop(Pipeline.ΦA spec3 c ∗ Pipeline.prefHeld (Ix := Unit) (Name := ℕ) (U := UR sig nD τ) (Lvl := ℕ) pre3 c (fun _ => fullShare) a3.1) := rfl

/-- The query window's staging buffer holds its block at every point. -/
theorem before3_0_of {c : Dev nD} (dat : Dat τ (Elt F) Unit ℕ (UR sig nD τ) ℕ (cfg3 a3) c) (hA : dat.A 0 = V c (Pipeline.arrRef spec3 0))
    (hafter : ∀ t, dat.after 0 t = iblk3 a3 V c 0 t) (t : Fin (cfg3 a3).N) (d) : dat.before 0 t d = iblk3 a3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key window's staging buffer holds its block at every point, fetched there or not: between two
    fetches the head-batch index has not moved. -/
theorem before3_1_of {c : Dev nD} (dat : Dat τ (Elt F) Unit ℕ (UR sig nD τ) ℕ (cfg3 a3) c) (hA : dat.A 1 = V c (Pipeline.arrRef spec3 1))
    (hafter : ∀ t, dat.after 1 t = iblk3 a3 V c 1 t) (t : Fin (cfg3 a3).N) (d) : dat.before 1 t d = iblk3 a3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The value window's staging buffer holds its block at every point. -/
theorem before3_2_of {c : Dev nD} (dat : Dat τ (Elt F) Unit ℕ (UR sig nD τ) ℕ (cfg3 a3) c) (hA : dat.A 2 = V c (Pipeline.arrRef spec3 2))
    (hafter : ∀ t, dat.after 2 t = iblk3 a3 V c 2 t) (t : Fin (cfg3 a3).N) (d) : dat.before 2 t d = iblk3 a3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem after3_0 (c : Dev nD) (t : Fin (cfg3 a3).N) : (dat3 a3 V c).after 0 t = iblk3 a3 V c 0 t := by dsimp only [dat3]; rfl
theorem after3_1 (c : Dev nD) (t : Fin (cfg3 a3).N) : (dat3 a3 V c).after 1 t = iblk3 a3 V c 1 t := by dsimp only [dat3]; rfl
theorem after3_2 (c : Dev nD) (t : Fin (cfg3 a3).N) : (dat3 a3 V c).after 2 t = iblk3 a3 V c 2 t := by dsimp only [dat3]; rfl

theorem before3_0 (c : Dev nD) (t : Fin (cfg3 a3).N) (d) : (dat3 a3 V c).before 0 t d = iblk3 a3 V c 0 t :=
  before3_0_of a3 V (dat3 a3 V c) (A_eq3 a3 V c 0) (after3_0 a3 V c) t d
theorem before3_1 (c : Dev nD) (t : Fin (cfg3 a3).N) (d) : (dat3 a3 V c).before 1 t d = iblk3 a3 V c 1 t :=
  before3_1_of a3 V (dat3 a3 V c) (A_eq3 a3 V c 1) (after3_1 a3 V c) t d
theorem before3_2 (c : Dev nD) (t : Fin (cfg3 a3).N) (d) : (dat3 a3 V c).before 2 t d = iblk3 a3 V c 2 t :=
  before3_2_of a3 V (dat3 a3 V c) (A_eq3 a3 V c 2) (after3_2 a3 V c) t d

/-- The current staging memref of each window at point t. -/
abbrev st3_0 (t : Fin (cfg3 a3).N) := ((cfg3 a3).win 0).stage ((cfg3 a3).slots t 0)
abbrev st3_1 (t : Fin (cfg3 a3).N) := ((cfg3 a3).win 1).stage ((cfg3 a3).slots t 1)
abbrev st3_2 (t : Fin (cfg3 a3).N) := ((cfg3 a3).win 2).stage ((cfg3 a3).slots t 2)
abbrev st3_3 (t : Fin (cfg3 a3).N) := ((cfg3 a3).win 3).stage ((cfg3 a3).slots t 3)

/-- The table as the body is handed it: its whole buffer as a memref. -/
abbrev tbM3 : Memref sig .tc .smem S32 .i32 := Memref.whole main_v18
abbrev htbM3 : tbM3.IsWhole := Memref.isWhole_whole _

/-- The table's buffer on core c: its contents type, and it held whole at f. -/
abbrev TbBuf3 (c : Dev nD) : Type := Buf (Elt F) (tbM3.view.loc (c : Thread nD τ))
abbrev tbPt3 (c : Dev nD) (f : TbBuf3 (F := F) c) : sProp 𝕄 := tbM3.view.loc (c : Thread nD τ) ↦{fullShare} f

/-- The kernel body at point t, on what the pipeline calls it with. -/
abbrev bodyAt3 (t : Fin (cfg3 a3).N) : Prog (TpuEff nD τ sig (Elt F) Λ₀ .tc) PUnit :=
  cc3__attn_kernel (grid3.coords t) tbM3 htbM3 (spec3_0.stage ((cfg3 a3).slots t 0)) (hstage3_0 (((cfg3 a3).slots t 0).cast nbuf3_0))
    (spec3_1.stage ((cfg3 a3).slots t 1)) (hstage3_1 (((cfg3 a3).slots t 1).cast nbuf3_1))
    (spec3_2.stage ((cfg3 a3).slots t 2)) (hstage3_2 (((cfg3 a3).slots t 2).cast nbuf3_2))
    (spec3_3.stage ((cfg3 a3).slots t 3)) (hstage3_3 (((cfg3 a3).slots t 3).cast nbuf3_3))

/-- The table held whole is the one points-to of its buffer. -/
theorem prefHeld3_eq (c : Dev nD) :
    (Pipeline.prefHeld (Ix := Unit) (Name := ℕ) (U := UR sig nD τ) (Lvl := ℕ) pre3 c (fun _ => fullShare) a3.1 : sProp 𝕄) = tbPt3 c (a3.1 0) := by
  unfold Pipeline.prefHeld
  rw [show (Finset.univ : Finset (Fin pre3.K)) = {0} from rfl, bigSep_singleton]
  rfl

/-- The one store covers the buffer. -/
theorem cover3_3 (p0 : Vec F S1x1024x64 .bf16) (y : S1x1024x64.Idx) :
    ∃ pc ∈ ([⟨rq3, p0⟩] : List (View.Piece (Elt F) S1x1024x64 .bf16)), y ∈ pc.1.set :=
  View.cover_of_tiled [⟨rq3, p0⟩] S1x1024x64.size (by rfl) y

/-- The word the body's scalar load reads off table contents xt at grid coordinates i: the table's one element under
    the load's unit rectangle. -/
def word3 (c : Dev nD) (i : grid3.Coords) (xt : TbBuf3 (F := F) c) : Elt F .i32 :=
  tbM3.view.readAt (Elt F) (Rect.unit (s := S32) (k3_off1 i) S1.size (k3_off1_inb i)).toLoadRect xt (Shape.Idx.first (numel1_S1.symm ▸ Nat.one_pos))

/-- The loaded word is the table's element at the head-batch index: the load's rectangle starts at the grid's first
    coordinate, which is below 32 and so unchanged by the passage through a 32-bit word. -/
theorem word3_eq_tword (c : Dev nD) (t : Fin (cfg3 a3).N) :
    word3 c (grid3.coords t) (a3.1 0) = tword a3 (headOf a3 t) := by
  unfold word3 tword headOf
  show (a3.1 0) ((Rect.unit (s := S32) (k3_off1 (grid3.coords t)) S1.size (k3_off1_inb (grid3.coords t))).emb _) = _
  refine congrArg (a3.1 0) ?_
  funext a
  apply Fin.ext
  rw [Rect.emb_apply]
  match a with
  | ⟨0, _⟩ =>
    show k3_off1 (grid3.coords t) 0 + 1 * 0 = (grid3.coords t 0).val
    rw [k3_off1_eq]; rfl

set_option maxHeartbeats 1000000 in
/-- The body on whole staging memrefs, the three inputs' at contents x0, x1, x2 and the result's at anything, the table
    held at xt, runs to the continuation holding the inputs' and the table as they were and the result's at the
    attention payload of the inputs and the loaded word. -/
theorem sound_kernel3 (c : Dev nD) (E : Set ℕ) (i : grid3.Coords)
    (arg3 : Memref sig .tc .vmem S1x1024x64 .bf16) (harg3 : arg3.IsWhole) (arg4 : Memref sig .tc .vmem S1x2048x64 .bf16) (harg4 : arg4.IsWhole)
    (arg5 : Memref sig .tc .vmem S1x2048x64 .bf16) (harg5 : arg5.IsWhole) (arg6 : Memref sig .tc .vmem S1x1024x64 .bf16) (harg6 : arg6.IsWhole)
    (x0 : Vec F S1x1024x64 .bf16) (x1 x2 : Vec F S1x2048x64 .bf16) (xt : TbBuf3 (F := F) c) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tbPt3 c xt
        ∗ (iprop(owns (c : Thread nD τ) arg3 fullShare x0 ∗ owns (c : Thread nD τ) arg4 fullShare x1 ∗ owns (c : Thread nD τ) arg5 fullShare x2
            ∗ owns (c : Thread nD τ) arg6 fullShare (out3_3 x0 x1 x2 (word3 c i xt)) ∗ tbPt3 c xt) -∗ K ⟨⟩))
      ⊢ wp frame (wpE (defs₀ (F := F)) Variants.none c none) E (cc3__attn_kernel i tbM3 htbM3 arg3 harg3 arg4 harg4 arg5 harg5 arg6 harg6) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, HT, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexact HT

/-- What the body is called with at point t, the windows one by one, -/
def bodyPre3 (c : Dev nD) (t : Fin (cfg3 a3).N) : sProp 𝕄 :=
  iprop((dat3 a3 V c).Φ t.castSucc ∗ (dat3 a3 V c).owesAt () t.castSucc
    ∗ (∃ d, owns (c : Thread nD τ) (st3_0 a3 t) fullShare ((dat3 a3 V c).before 0 t d))
    ∗ (∃ d, owns (c : Thread nD τ) (st3_1 a3 t) fullShare ((dat3 a3 V c).before 1 t d))
    ∗ (∃ d, owns (c : Thread nD τ) (st3_2 a3 t) fullShare ((dat3 a3 V c).before 2 t d))
    ∗ (∃ d, owns (c : Thread nD τ) (st3_3 a3 t) fullShare ((dat3 a3 V c).before 3 t d)))

/-- and what it returns. -/
def bodyPost3 (c : Dev nD) (t : Fin (cfg3 a3).N) : sProp 𝕄 :=
  iprop((dat3 a3 V c).Φ t.succ ∗ (dat3 a3 V c).owesAt () t.succ
    ∗ owns (c : Thread nD τ) (st3_0 a3 t) fullShare ((dat3 a3 V c).after 0 t)
    ∗ owns (c : Thread nD τ) (st3_1 a3 t) fullShare ((dat3 a3 V c).after 1 t)
    ∗ owns (c : Thread nD τ) (st3_2 a3 t) fullShare ((dat3 a3 V c).after 2 t)
    ∗ owns (c : Thread nD τ) (st3_3 a3 t) fullShare ((dat3 a3 V c).after 3 t))

/-- The body at any point: the inputs' memrefs hold their blocks and the invariant holds the table, so the body's triple
    applies; the word it loads is the table's at the point's head-batch index; the rest of the invariant and the core's
    dues pass through unread. -/
theorem sound_body3 (c : Dev nD) (t : Fin (cfg3 a3).N) :
    bodyPre3 a3 V c t ⊢ wp frame (wpE (defs₀ (F := F)) Variants.none c none) Set.univ (bodyAt3 a3 t) (fun _ => bodyPost3 a3 V c t) := by
  unfold bodyPre3 bodyPost3 bodyAt3
  simp only [before3_0, before3_1, before3_2]
  rw [show (dat3 a3 V c).owesAt () t.succ = (dat3 a3 V c).owesAt () t.castSucc from rfl,
    Phi3, Phi3, after3_0, after3_1, after3_2, after3_3, prefHeld3_eq, ← word3_eq_tword a3 c t]
  iintro ⟨⟨HΦ, HT⟩, Ho, ⟨%d0, H0⟩, ⟨%d1, H1⟩, ⟨%d2, H2⟩, ⟨%d3, H3⟩⟩
  iapply (sound_kernel3 c Set.univ _ _ _ _ _ _ _ _ _ (iblk3 a3 V c 0 t) (iblk3 a3 V c 1 t) (iblk3 a3 V c 2 t) (a3.1 0) _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) a3 V c) (defs₀ (F := F)) Variants.none () Set.univ := fun t => by
  rw [bigSep_W3, bigSep_W3]
  exact sound_body3 a3 V c t

end

end Cert.Kernel.Region

end
-- ==== Proof.WordOutRegion.lean ====
/-
  The output-projection launch: for each batch b the grid walks the 16 heads h in order; at head h the 2048 by 64
  block of head-batch 16 b + h of the attention result is multiplied by head h's 64 by 1024 slice of the output
  weight and ADDED into a 2048 by 1024 f32 accumulator that lives in scratch memory across the grid points: the
  accumulator is reset to zero at head 0, and at head 15 it is copied into the result's staging buffer, which is
  written back as block b of the [4096, 1024] result only then.

  Stated at any contents V of the core's buffers when the launch is entered: the accumulator after each grid point
  by recursion on the point, the proof data (the result window's buffer after a point is the accumulator; the window
  is idle except at head 15), the invariant (before the first point the scoped memory at anything; afterwards the
  accumulator at the previous point's value), and the body obligation.
-/
import proofs.«418068_j5952824673153_2_alg».proof.Proof.Gen.Kernel.Launch
import proofs.«418068_j5952824673153_2_alg».proof.Proof.Gen.Kernel.Skeleton
import proofs.«418068_j5952824673153_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator's reset value, -/
def zero4 : Vec F S2048x1024 .f32 := k4_pay1 (F := F)
/-- and one head's update of it: the accumulator plus the product of the head's two blocks. -/
def step4 (x0 : Vec F S1x2048x64 .bf16) (x1 : Vec F S1x64x1024 .bf16) (a : Vec F S2048x1024 .f32) : Vec F S2048x1024 .f32 :=
  k4_pay2 x0 x1 a

/-- The accumulator after grid position n: at a head-0 position (n divisible by 16) the update of zero, otherwise the
    update of what the position before left. -/
def acc4 (c : Dev nD) : (n : ℕ) → n < cfg4.N → Vec F S2048x1024 .f32
  | 0, h => step4 (iblk4 V c 0 ⟨0, h⟩) (iblk4 V c 1 ⟨0, h⟩) zero4
  | n + 1, h =>
    if (n + 1) % 16 = 0 then step4 (iblk4 V c 0 ⟨n + 1, h⟩) (iblk4 V c 1 ⟨n + 1, h⟩) zero4
    else step4 (iblk4 V c 0 ⟨n + 1, h⟩) (iblk4 V c 1 ⟨n + 1, h⟩) (acc4 c n (Nat.lt_of_succ_lt h))

theorem acc4_reset (c : Dev nD) (t : Fin cfg4.N) (h : t.val % 16 = 0) :
    acc4 V c t.val t.isLt = step4 (iblk4 V c 0 t) (iblk4 V c 1 t) zero4 := by
  obtain ⟨n, hn⟩ := t
  cases n with
  | zero => rfl
  | succ n => exact if_pos h

theorem acc4_step (c : Dev nD) (t : Fin cfg4.N) (h : ¬ t.val % 16 = 0) :
    acc4 V c t.val t.isLt = step4 (iblk4 V c 0 t) (iblk4 V c 1 t) (acc4 V c (t.val - 1) (Nat.lt_of_le_of_lt (Nat.sub_le _ _) t.isLt)) := by
  obtain ⟨n, hn⟩ := t
  cases n with
  | zero => exact absurd (Nat.zero_mod _) h
  | succ n => exact if_neg h

/-- The accumulator's scratch buffer as a memref. -/
abbrev scM4 : Memref sig .tc .vmem S2048x1024 .f32 := Memref.whole cc4_scratch0

/-- The scoped buffers that are neither a staging buffer of this launch nor the accumulator, each whole at some contents. -/
def rest4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg3_1), ((c : Thread nD τ).loc cc3_stg3_1) ↦{fullShare} f))

/-- The invariant before grid position n: before the first point the scoped memory at anything; afterwards the
    other scoped buffers at anything, the accumulator at what position n - 1 left, and the generator register. -/
def PhiS4 (c : Dev nD) : (n : ℕ) → n ≤ cfg4.N → sProp 𝕄
  | 0, _ => Pipeline.ΦA spec4 c
  | n + 1, hn => iprop(rest4 (F := F) c ∗ owns (c : Thread nD τ) scM4 fullShare (acc4 V c n hn) ∗ (∃ r, prngReg c r))

/-- The proof data of this launch on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-- The body's first branch condition, from the grid coordinates: the head coordinate is 0. -/
abbrev cond4_0 (i : grid4.Coords) : Prop := (Scalar.cmpi .ne (Scalar.extui (Scalar.cmpi .eq (BitVec.ofNat 32 (i 1).val) 0#32)) 0#32) = 1#1
/-- It holds at the grid positions divisible by 16. -/
theorem hcond4_0 : ∀ t : Fin cfg4.N, cond4_0 (grid4.coords t) ↔ t.val % 16 = 0 :=
  (by decide +kernel : ∀ t : Fin grid4.N, cond4_0 (grid4.coords t) ↔ t.val % 16 = 0)
/-- The body's second branch condition: the head coordinate is 15. -/
abbrev cond4_1 (i : grid4.Coords) : Prop := k4_cond2 i = 1#1
/-- It holds at the grid positions that are 15 modulo 16. -/
theorem hcond4_1 : ∀ t : Fin cfg4.N, cond4_1 (grid4.coords t) ↔ t.val % 16 = 15 :=
  (by decide +kernel : ∀ t : Fin grid4.N, cond4_1 (grid4.coords t) ↔ t.val % 16 = 15)
/-- The two input windows are idle nowhere. -/
theorem liveAt4_0 : ∀ t : Fin cfg4.N, cfg4.idle 0 (grid4.coords t) = false := by decide +kernel
theorem liveAt4_1 : ∀ t : Fin cfg4.N, cfg4.idle 1 (grid4.coords t) = false := by decide +kernel
/-- Off head 15 the result window is idle -/
theorem idleAt4_2 : ∀ t : Fin cfg4.N, ¬ t.val % 16 = 15 → cfg4.idle 2 (grid4.coords t) = true := by decide +kernel
/-- and its block is not written back; -/
theorem noFlush4_2 : ∀ t : Fin cfg4.N, ¬ t.val % 16 = 15 → (cfg4.win 2).flush t = false := by decide +kernel
/-- at head 15 it is live. -/
theorem liveAt4_2 : ∀ t : Fin cfg4.N, t.val % 16 = 15 → cfg4.idle 2 (grid4.coords t) = false := by decide +kernel

/-- The offsets of the whole-block accesses are zero. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer of the accumulator's shape whose LAST store went through the whole block reads back that store's payload,
    whatever it held and whatever was stored before. -/
private theorem read_last_whole {κ : Kind} {sp : Space} (v : View sig κ sp S2048x1024 .f32) (f : v.ty.Contents (Elt F))
    (w : Vec F S2048x1024 .f32) (L : List (View.Piece (Elt F) S2048x1024 .f32)) :
    v.read (Elt F) (v.writes (Elt F) f (⟨Rect.unit (s := S2048x1024) ![0, 0] S2048x1024.size inb_S2048x1024_S2048x1024_0_0, w⟩ :: L)) = w := by
  refine (View.read_writes_eq_canon v f _ ?_).trans (View.canon_cons_unit_zero (S := S2048x1024) hz2 inb_S2048x1024_S2048x1024_0_0 w L)
  intro y
  exact ⟨⟨Rect.unit (s := S2048x1024) ![0, 0] S2048x1024.size inb_S2048x1024_S2048x1024_0_0, w⟩, List.mem_cons_self,
    View.mem_set_unit_zero (S := S2048x1024) hz2 inb_S2048x1024_S2048x1024_0_0 y⟩

/-- The body at a head-0 point that is not a head-15 point, on whole memrefs: the two inputs' at x0 and x1, the result's
    at xi, the accumulator's at anything. It resets the accumulator and adds the head's product: the accumulator ends at
    the update of zero, the rest as it was. -/
theorem sound_kernel4_reset (c : Dev nD) (E : Set ℕ) (i : grid4.Coords) (arg2 : Memref sig .tc .vmem S1x2048x64 .bf16) (harg2 : arg2.IsWhole)
    (arg3 : Memref sig .tc .vmem S1x64x1024 .bf16) (harg3 : arg3.IsWhole) (arg4 : Memref sig .tc .vmem S2048x1024 .f32) (harg4 : arg4.IsWhole)
    (arg5 : Memref sig .tc .vmem S2048x1024 .f32) (harg5 : arg5.IsWhole) (hc0 : cond4_0 i) (hc1 : ¬ cond4_1 i)
    (x0 : Vec F S1x2048x64 .bf16) (x1 : Vec F S1x64x1024 .bf16) (xi : Vec F S2048x1024 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (step4 x0 x1 zero4)) -∗ K ⟨⟩))
      ⊢ wp frame (wpE (defs₀ (F := F)) Variants.none c none) E (cc4__outproj_kernel i arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%f2, %hf2, H2⟩, ⟨%d5, %f5, -, H5⟩, Hk⟩
  subst hf0
  subst hf1
  subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_run_names
  rw [read_last_whole]
  unfold step4 zero4
  simp only [View.readAt_eq_ld, View.ld_unit_zero (S := S1x2048x64) hz3, View.ld_unit_zero (S := S1x64x1024) hz3,
    View.readCov_unit_zero (S := S2048x1024) _ hz2]

/-- The body at a point that is neither a head-0 nor a head-15 point: the accumulator, at a, ends at the update of a. -/
theorem sound_kernel4_mid (c : Dev nD) (E : Set ℕ) (i : grid4.Coords) (arg2 : Memref sig .tc .vmem S1x2048x64 .bf16) (harg2 : arg2.IsWhole)
    (arg3 : Memref sig .tc .vmem S1x64x1024 .bf16) (harg3 : arg3.IsWhole) (arg4 : Memref sig .tc .vmem S2048x1024 .f32) (harg4 : arg4.IsWhole)
    (arg5 : Memref sig .tc .vmem S2048x1024 .f32) (harg5 : arg5.IsWhole) (hc0 : ¬ cond4_0 i) (hc1 : ¬ cond4_1 i)
    (x0 : Vec F S1x2048x64 .bf16) (x1 : Vec F S1x64x1024 .bf16) (xi : Vec F S2048x1024 .f32) (a : Vec F S2048x1024 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare a
        ∗ (iprop(owns (c : Thread nD τ) arg2 fullShare x0 ∗ owns (c : Thread nD τ) arg3 fullShare x1 ∗ owns (c : Thread nD τ) arg4 fullShare xi
            ∗ owns (c : Thread nD τ) arg5 fullShare (step4 x0 x1 a)) -∗ K ⟨⟩))
      ⊢ wp frame (wpE (defs₀ (F := F)) Variants.none c none) E (cc4__outproj_kernel i arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%f2, %hf2, H2⟩, ⟨%f5, %hf5, H5⟩, Hk⟩
  subst hf0
  subst hf1
  subst hf2
  subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_run_names
  rw [read_last_whole]
  unfold step4
  simp only [View.readAt_eq_ld, View.ld_unit_zero (S := S1x2048x64) hz3, View.ld_unit_zero (S := S1x64x1024) hz3,
    View.ld_unit_zero (S := S2048x1024) hz2]

/-- The body at a head-15 point that is not a head-0 point: the accumulator, at a, ends at the update of a, and the
    result's buffer, at anything, ends at the same. -/
theorem sound_kernel4_last (c : Dev nD) (E : Set ℕ) (i : grid4.Coords) (arg2 : Memref sig .tc .vmem S1x2048x64 .bf16) (harg2 : arg2.IsWhole)
    (arg3 : Memref sig .tc .vmem S1x64x1024 .bf16) (harg3 : arg3.IsWhole) (arg4 : Memref sig .tc .vmem S2048x1024 .f32) (harg4 : arg4.IsWhole)
    (arg5 : Memref sig .tc .vmem S2048x1024 .f32) (harg5 : arg5.IsWhole) (hc0 : ¬ cond4_0 i) (hc1 : cond4_1 i)
    (x0 : Vec F S1x2048x64 .bf16) (x1 : Vec F S1x64x1024 .bf16) (a : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1
            ∗ owns (c : Thread nD τ) arg4 fullShare (step4 x0 x1 a)
            ∗ owns (c : Thread nD τ) arg5 fullShare (step4 x0 x1 a)) -∗ K ⟨⟩))
      ⊢ wp frame (wpE (defs₀ (F := F)) Variants.none c none) E (cc4__outproj_kernel i arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%d2, %f2, -, H2⟩, ⟨%f5, %hf5, H5⟩, Hk⟩
  subst hf0
  subst hf1
  subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_last_whole]
    unfold step4
    simp only [View.readAt_eq_ld, View.ld_unit_zero (S := S1x2048x64) hz3, View.ld_unit_zero (S := S1x64x1024) hz3,
      View.ld_unit_zero (S := S2048x1024) hz2, View.readCov_unit_zero (S := S2048x1024) _ hz2]
  iexists _; isplitr
  swap; · iexact H5
  ipureintro
  sl_unfold_run_names
  rw [read_last_whole]
  unfold step4
  simp only [View.readAt_eq_ld, View.ld_unit_zero (S := S1x2048x64) hz3, View.ld_unit_zero (S := S1x64x1024) hz3,
    View.ld_unit_zero (S := S2048x1024) hz2]

/-- The activation window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant after position n: the accumulator at that position's value. -/
theorem PhiS4_succ (c : Dev nD) (n : ℕ) (hn : n < cfg4.N) :
    PhiS4 V c (n + 1) hn = iprop(rest4 (F := F) c ∗ owns (c : Thread nD τ) scM4 fullShare (acc4 V c n hn) ∗ (∃ r, prngReg c r)) := rfl

/-- Before a position that is not the first: the accumulator at what the position before left. -/
theorem PhiS4_pos (c : Dev nD) (n : ℕ) (h : n ≤ cfg4.N) (hz : n ≠ 0) :
    PhiS4 V c n h = iprop(rest4 (F := F) c ∗ owns (c : Thread nD τ) scM4 fullShare (acc4 V c (n - 1) (by omega)) ∗ (∃ r, prngReg c r)) := by
  cases n with
  | zero => exact absurd rfl hz
  | succ n => rfl

/-- The invariant at a point's start, restated at the point's position. -/
theorem PhiS4_castSucc (c : Dev nD) (t : Fin cfg4.N) :
    (dat4 V c).Φ t.castSucc = PhiS4 V c t.val (Nat.le_of_lt t.isLt) := rfl

/-- The scoped memory at anything, split into the accumulator's buffer, the other 23 buffers and the generator register. -/
theorem PhiA4_split (c : Dev nD) :
    (Pipeline.ΦA spec4 c : sProp 𝕄) ⊢ iprop(rest4 (F := F) c ∗ (∃ d, owns (c : Thread nD τ) scM4 fullShare d) ∗ (∃ r, prngReg c r)) := by
  unfold Pipeline.ΦA rest4; rw [scopedRest4_eq]; simp only [scM4, owns_whole]
  iintro ⟨⟨B1, B2, B3, B4, B5, B6, B7, B8, B9, B10, B11, B12, B13, B14, B15, B16, B17, B18, B19, B20, B21, B22, B23, B24⟩, Hg⟩
  isplitl [B1 B2 B3 B4 B5 B6 B7 B8 B9 B10 B11 B12 B13 B14 B15 B16 B17 B18 B19 B20 B21 B22 B23]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    isplitl [B20]; · iexact B20
    isplitl [B21]; · iexact B21
    isplitl [B22]; · iexact B22
    iexact B23
  isplitl [B24]; · iexact B24
  iexact Hg

/-- The three parts put back, the accumulator's value forgotten. -/
theorem PhiA4_join (c : Dev nD) (a : Vec F S2048x1024 .f32) :
    iprop(rest4 (F := F) c ∗ owns (c : Thread nD τ) scM4 fullShare a ∗ (∃ r, prngReg c r)) ⊢ (Pipeline.ΦA spec4 c : sProp 𝕄) := by
  unfold Pipeline.ΦA rest4; rw [scopedRest4_eq]; simp only [scM4, owns_whole]
  iintro ⟨⟨B1, B2, B3, B4, B5, B6, B7, B8, B9, B10, B11, B12, B13, B14, B15, B16, B17, B18, B19, B20, B21, B22, B23⟩, HS, Hg⟩
  isplitr [Hg]
  swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [B21]; · iexact B21
  isplitl [B22]; · iexact B22
  isplitl [B23]; · iexact B23
  iexists _; iexact HS

/-- Before any position the invariant holds the accumulator at SOME contents. -/
theorem PhiS4_any (c : Dev nD) (n : ℕ) (h : n ≤ cfg4.N) :
    PhiS4 V c n h ⊢ iprop(rest4 (F := F) c ∗ (∃ d, owns (c : Thread nD τ) scM4 fullShare d) ∗ (∃ r, prngReg c r)) := by
  cases n with
  | zero => exact PhiA4_split c
  | succ n =>
    rw [PhiS4_succ]
    iintro ⟨HR, HS, Hg⟩
    isplitl [HR]; · iexact HR
    isplitl [HS]; · iexists _; iexact HS
    iexact Hg

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the result's buffer untouched where its window is idle. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The body at any point. The inputs' memrefs hold their blocks. By the head of the point: at head 0 the invariant
    gives the accumulator at some contents, the body resets and updates it, and the result's buffer goes back as it
    came; at heads 1 to 14 the accumulator comes at the previous point's value and leaves at its update; at head 15
    the same, and the result's buffer takes the accumulator's new value. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [PhiS4_castSucc]
  have hN : t.val < 32 := lt_of_lt_of_eq t.isLt (show cfg4.N = 32 from N_4)
  by_cases h1 : t.val % 16 = 15
  · have h0 : ¬ t.val % 16 = 0 := by omega
    have hz : t.val ≠ 0 := by omega
    rw [show (dat4 V c).leavesExact 2 t = owns (c : Thread nD τ) (st4_2 t) fullShare ((dat4 V c).after 2 t) from by
      unfold Dat.leavesExact; rw [liveAt4_2 t h1], after4_2]
    rw [acc4_step V c t h0, PhiS4_pos V c _ _ hz]
    iintro ⟨⟨HR, HS, Hg⟩, Ho, ⟨%d0, H0⟩, ⟨%d1, H1⟩, ⟨%d2, H2⟩⟩
    iapply (sound_kernel4_last c Set.univ (grid4.coords t) _ _ _ _ _ _ _ _ (fun h => h0 ((hcond4_0 t).mp h)) ((hcond4_1 t).mpr h1)
      (iblk4 V c 0 t) (iblk4 V c 1 t) _ _)
    isplitl [H0]; · iexact H0
    isplitl [H1]; · iexact H1
    isplitl [H2]; · iexists _; iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2
  · rw [Dat.leavesExact_idle (dat4 V c) 2 t (idleAt4_2 t h1) (noFlush4_2 t h1)]
    by_cases h0 : t.val % 16 = 0
    · rw [acc4_reset V c t h0]
      refine (Laws.sep_mono_left (PhiS4_any V c _ _)).trans ?_
      iintro ⟨⟨HR, ⟨%a, HS⟩, Hg⟩, Ho, ⟨%d0, H0⟩, ⟨%d1, H1⟩, ⟨%d2, H2⟩⟩
      iapply (sound_kernel4_reset c Set.univ (grid4.coords t) _ _ _ _ _ _ _ _ ((hcond4_0 t).mpr h0) (fun h => h1 ((hcond4_1 t).mp h))
        (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2
    · have hz : t.val ≠ 0 := fun h => h0 (by rw [h])
      rw [acc4_step V c t h0, PhiS4_pos V c _ _ hz]
      iintro ⟨⟨HR, HS, Hg⟩, Ho, ⟨%d0, H0⟩, ⟨%d1, H1⟩, ⟨%d2, H2⟩⟩
      iapply (sound_kernel4_mid c Set.univ (grid4.coords t) _ _ _ _ _ _ _ _ (fun h => h0 ((hcond4_0 t).mp h)) (fun h => h1 ((hcond4_1 t).mp h))
        (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- What the launch is handed (the scoped memory at anything) is the invariant before the first point. -/
theorem hin4 (c : Dev nD) : Pipeline.ΦA spec4 c ⊢ (dat4 V c).Φ 0 :=
  Idealize.SL.BI.Entails.refl _

/-- After the last point the invariant gives the scoped memory back, the accumulator's value forgotten. -/
theorem hout4 (c : Dev nD) : (dat4 V c).Φ (Fin.last cfg4.N) ⊢ Pipeline.ΦA spec4 c := by
  have hN : cfg4.N = 32 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega)]
  exact PhiA4_join c _

/-- The body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.Region

end
-- ==== Proof.WordRun.lean ====
/-
  The run of the program from the launches' proof data.

  The valuations between the program's items: the launch contents; the host stretch that re-lays the weights and
  flattens the activations; each projection launch's result array at what its write-backs leave; the host stretch that
  repeats the valid lengths per head; the attention launch's result; the output projection's result; the final
  reshape. The table the attention launch reads is the repeated valid lengths as that stretch leaves them. Each
  launch's proof data is taken at the valuation it is entered from, and each launch is a segment record between the
  thread states "every unscoped buffer at the valuation, the generator register at some state, nothing owed".
-/
import proofs.«418068_j5952824673153_2_alg».proof.Proof.WordRunCond
import proofs.«418068_j5952824673153_2_alg».proof.Proof.WordProjRegion0
import proofs.«418068_j5952824673153_2_alg».proof.Proof.WordProjRegion1
import proofs.«418068_j5952824673153_2_alg».proof.Proof.WordProjRegion2
import proofs.«418068_j5952824673153_2_alg».proof.Proof.WordAttnRegion
import proofs.«418068_j5952824673153_2_alg».proof.Proof.WordOutRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the items -/

/-- A valuation read at the TensorCore's references: what a launch's proof data takes. -/
abbrev atTc (W : Dev nD → Valuation τ sig (Elt F)) : (c : Dev nD) → (b : Ref sig .tc) → Buf (Elt F) ((c : Thread nD τ).loc b) :=
  fun c b => W c b

/-- After the first host stretch (the first projection's entry). -/
abbrev W1 (c : Dev nD) : Valuation τ sig (Elt F) := V1 m c
/-- After the first projection: its result array at what the launch leaves. -/
abbrev W2 (c : Dev nD) : Valuation τ sig (Elt F) :=
  Function.update (W1 m c) main_v14 ((dat0 (atTc (W1 m)) c).arrAt 2 cfg0.N)
/-- After the second projection. -/
abbrev W3 (c : Dev nD) : Valuation τ sig (Elt F) :=
  Function.update (W2 m c) main_v15 ((dat1 (atTc (W2 m)) c).arrAt 2 cfg1.N)
/-- After the third projection. -/
abbrev W4 (c : Dev nD) : Valuation τ sig (Elt F) :=
  Function.update (W3 m c) main_v16 ((dat2 (atTc (W3 m)) c).arrAt 2 cfg2.N)
/-- After the second host stretch (the valid lengths repeated per head). -/
abbrev W5 (c : Dev nD) : Valuation τ sig (Elt F) := StableHlo.after hostOps3 (W4 m c)

/-- The table the attention launch reads: the repeated valid lengths (there is one device). -/
def tbl3 : pre3.Contents (Elt F) := fun j => W5 m (0 : Dev nD) (pre3.ref j)
/-- Any contents are admissible: no index map reads the table. -/
abbrev a3 : (pcfg3 (F := F)).Adm := ⟨tbl3 m, trivial⟩

/-- After the attention launch. -/
abbrev W6 (c : Dev nD) : Valuation τ sig (Elt F) :=
  Function.update (W5 m c) main_v19 ((dat3 (a3 m) (atTc (W5 m)) c).arrAt 3 (cfg3 (a3 m)).N)
/-- After the output projection. -/
abbrev W7 (c : Dev nD) : Valuation τ sig (Elt F) :=
  Function.update (W6 m c) main_v20 ((dat4 (atTc (W6 m)) c).arrAt 2 cfg4.N)
/-- After the last host stretch (the result reshaped). -/
abbrev W8 (c : Dev nD) : Valuation τ sig (Elt F) := StableHlo.after hostOps5 (W7 m c)

/-- What the launches leave, as the unknowns the generated valuations are written over. -/
def outs : Outs (F := F) := fun J r c =>
  match J with
  | 2 => W2 m c r
  | 3 => W3 m c r
  | 4 => W4 m c r
  | 6 => W6 m c r
  | 7 => W7 m c r
  | _ => W1 m c r

theorem V2_eq (c : Dev nD) : V2 m (outs m) c = W2 m c := by
  show Function.update (V1 m c) main_v14 (W2 m c main_v14) = W2 m c
  rw [show W2 m c main_v14 = (dat0 (atTc (W1 m)) c).arrAt 2 cfg0.N from Function.update_self ..]
theorem V3_eq (c : Dev nD) : V3 m (outs m) c = W3 m c := by
  show Function.update (V2 m (outs m) c) main_v15 (W3 m c main_v15) = W3 m c
  rw [V2_eq, show W3 m c main_v15 = (dat1 (atTc (W2 m)) c).arrAt 2 cfg1.N from Function.update_self ..]
theorem V4_eq (c : Dev nD) : V4 m (outs m) c = W4 m c := by
  show Function.update (V3 m (outs m) c) main_v16 (W4 m c main_v16) = W4 m c
  rw [V3_eq, show W4 m c main_v16 = (dat2 (atTc (W3 m)) c).arrAt 2 cfg2.N from Function.update_self ..]
theorem V5_eq (c : Dev nD) : V5 m (outs m) c = W5 m c := by
  show StableHlo.after hostOps3 (V4 m (outs m) c) = W5 m c
  rw [V4_eq]
theorem V6_eq (c : Dev nD) : V6 m (outs m) c = W6 m c := by
  show Function.update (V5 m (outs m) c) main_v19 (W6 m c main_v19) = W6 m c
  rw [V5_eq, show W6 m c main_v19 = (dat3 (a3 m) (atTc (W5 m)) c).arrAt 3 (cfg3 (a3 m)).N from Function.update_self ..]
theorem V7_eq (c : Dev nD) : V7 m (outs m) c = W7 m c := by
  show Function.update (V6 m (outs m) c) main_v20 (W7 m c main_v20) = W7 m c
  rw [V6_eq, show W7 m c main_v20 = (dat4 (atTc (W6 m)) c).arrAt 2 cfg4.N from Function.update_self ..]
theorem V8_eq (c : Dev nD) : V8 m (outs m) c = W8 m c := by
  show StableHlo.after hostOps5 (V7 m (outs m) c) = W8 m c
  rw [V7_eq]

/-! ## The proof data family -/

/-- The admissible table contents of every pipeline: only the attention launch has a table. -/
def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3 m
  | ⟨4, _⟩ => cfg4.toPCfg_adm

/-- Every pipeline's proof data, each at its launch's entry valuation. -/
def pdats : (p : Fin 5) → (c : Dev nD) → Dat τ (Elt F) Unit ℕ (UR sig nD τ) ℕ (Pipeline.pin (pcfgs (F := F)) (adm m) p) c
  | ⟨0, _⟩ => fun c => dat0 (atTc (W1 m)) c
  | ⟨1, _⟩ => fun c => dat1 (atTc (W2 m)) c
  | ⟨2, _⟩ => fun c => dat2 (atTc (W3 m)) c
  | ⟨3, _⟩ => fun c => dat3 (a3 m) (atTc (W5 m)) c
  | ⟨4, _⟩ => fun c => dat4 (atTc (W6 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev Rst (c : Dev nD) : sProp 𝕄 := iprop((∃ r, prngReg c r) ∗ ∃ W, owes (c : Thread nD τ) (0 : CellTallies nD τ sig Unit) W)

/-! ## Launch 0 as a segment -/

theorem W2_out (c : Dev nD) : W2 m c main_v14 = (dat0 (atTc (W1 m)) c).arrAt 2 cfg0.N := Function.update_self ..
theorem W2_of_ne (c : Dev nD) (b : Ref sig .tc) (h : b ≠ main_v14) : W2 m c b = W1 m c b :=
  Function.update_of_ne (StableHlo.devRef_ne_of_ne h) ..
/-- At the launch's exit each of its arrays holds what the pipeline leaves, -/
theorem hF0 (c : Dev nD) (w : Fin cfg0.W) : (dat0 (atTc (W1 m)) c).arrAt w cfg0.N = atTc (W2 m) c (Pipeline.arrRef spec0 w) := by
  match w with
  | ⟨0, _⟩ => exact ((dat0 (atTc (W1 m)) c).arrAt_in 0 rfl _).trans ((A_eq0 _ c 0).trans (W2_of_ne m c _ (by decide)).symm)
  | ⟨1, _⟩ => exact ((dat0 (atTc (W1 m)) c).arrAt_in 1 rfl _).trans ((A_eq0 _ c 1).trans (W2_of_ne m c _ (by decide)).symm)
  | ⟨2, _⟩ => exact (W2_out m c).symm
/-- and every other buffer what it held at entry. -/
theorem hrest0 (c : Dev nD) : ∀ b, b ∉ Finset.univ.image (Pipeline.arrRef spec0) → atTc (W2 m) c b = atTc (W1 m) c b :=
  fun b hb => W2_of_ne m c b fun e => hb (Finset.mem_image.mpr ⟨2, Finset.mem_univ _, e.symm⟩)

set_option backward.isDefEq.respectTransparency.types false in
/-- Launch 0 between its two thread states: its arrays split out of the unscoped buffers at entry and put back at the
    exit contents; the generator register into the launch's invariant and out; nothing owed; no semaphore of its own. -/
def reg0 : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 1 as a segment -/

theorem W3_out (c : Dev nD) : W3 m c main_v15 = (dat1 (atTc (W2 m)) c).arrAt 2 cfg1.N := Function.update_self ..
theorem W3_of_ne (c : Dev nD) (b : Ref sig .tc) (h : b ≠ main_v15) : W3 m c b = W2 m c b :=
  Function.update_of_ne (StableHlo.devRef_ne_of_ne h) ..
/-- At the launch's exit each of its arrays holds what the pipeline leaves, -/
theorem hF1 (c : Dev nD) (w : Fin cfg1.W) : (dat1 (atTc (W2 m)) c).arrAt w cfg1.N = atTc (W3 m) c (Pipeline.arrRef spec1 w) := by
  match w with
  | ⟨0, _⟩ => exact ((dat1 (atTc (W2 m)) c).arrAt_in 0 rfl _).trans ((A_eq1 _ c 0).trans (W3_of_ne m c _ (by decide)).symm)
  | ⟨1, _⟩ => exact ((dat1 (atTc (W2 m)) c).arrAt_in 1 rfl _).trans ((A_eq1 _ c 1).trans (W3_of_ne m c _ (by decide)).symm)
  | ⟨2, _⟩ => exact (W3_out m c).symm
/-- and every other buffer what it held at entry. -/
theorem hrest1 (c : Dev nD) : ∀ b, b ∉ Finset.univ.image (Pipeline.arrRef spec1) → atTc (W3 m) c b = atTc (W2 m) c b :=
  fun b hb => W3_of_ne m c b fun e => hb (Finset.mem_image.mpr ⟨2, Finset.mem_univ _, e.symm⟩)

set_option backward.isDefEq.respectTransparency.types false in
/-- Launch 1 between its two thread states: its arrays split out of the unscoped buffers at entry and put back at the
    exit contents; the generator register into the launch's invariant and out; nothing owed; no semaphore of its own. -/
def reg1 : RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atTc (W2 m)) c).loose
  hwaits := Pipeline.hwaits_of_owed_zero _ _ _ _ L lv 1 fun _ _ => rfl
  pre c := iprop(StableHlo.held (c : Thread nD τ) (Pipeline.ucRefs τ sig) (V2 m (outs m) c) ∗ Rst c)
  post c := iprop(StableHlo.held (c : Thread nD τ) (Pipeline.ucRefs τ sig) (V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [V2_eq, Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (atTc (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V3_eq]
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (atTc (W2 m) c) (atTc (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 2 as a segment -/

theorem W4_out (c : Dev nD) : W4 m c main_v16 = (dat2 (atTc (W3 m)) c).arrAt 2 cfg2.N := Function.update_self ..
theorem W4_of_ne (c : Dev nD) (b : Ref sig .tc) (h : b ≠ main_v16) : W4 m c b = W3 m c b :=
  Function.update_of_ne (StableHlo.devRef_ne_of_ne h) ..
/-- At the launch's exit each of its arrays holds what the pipeline leaves, -/
theorem hF2 (c : Dev nD) (w : Fin cfg2.W) : (dat2 (atTc (W3 m)) c).arrAt w cfg2.N = atTc (W4 m) c (Pipeline.arrRef spec2 w) := by
  match w with
  | ⟨0, _⟩ => exact ((dat2 (atTc (W3 m)) c).arrAt_in 0 rfl _).trans ((A_eq2 _ c 0).trans (W4_of_ne m c _ (by decide)).symm)
  | ⟨1, _⟩ => exact ((dat2 (atTc (W3 m)) c).arrAt_in 1 rfl _).trans ((A_eq2 _ c 1).trans (W4_of_ne m c _ (by decide)).symm)
  | ⟨2, _⟩ => exact (W4_out m c).symm
/-- and every other buffer what it held at entry. -/
theorem hrest2 (c : Dev nD) : ∀ b, b ∉ Finset.univ.image (Pipeline.arrRef spec2) → atTc (W4 m) c b = atTc (W3 m) c b :=
  fun b hb => W4_of_ne m c b fun e => hb (Finset.mem_image.mpr ⟨2, Finset.mem_univ _, e.symm⟩)

set_option backward.isDefEq.respectTransparency.types false in
/-- Launch 2 between its two thread states: its arrays split out of the unscoped buffers at entry and put back at the
    exit contents; the generator register into the launch's invariant and out; nothing owed; no semaphore of its own. -/
def reg2 : RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atTc (W3 m)) c).loose
  hwaits := Pipeline.hwaits_of_owed_zero _ _ _ _ L lv 2 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (W3 m) c)
  hentry c := by
    rw [V3_eq, Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m) ((pdats m 2 c).share_full fun _ => rfl)
      (atTc (W3 m) c) (atTc (W4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 3 (attention) as a segment -/

theorem W6_out (c : Dev nD) : W6 m c main_v19 = (dat3 (a3 m) (atTc (W5 m)) c).arrAt 3 (cfg3 (a3 m)).N := Function.update_self ..
theorem W6_of_ne (c : Dev nD) (b : Ref sig .tc) (h : b ≠ main_v19) : W6 m c b = W5 m c b :=
  Function.update_of_ne (StableHlo.devRef_ne_of_ne h) ..
theorem hF3 (c : Dev nD) (w : Fin (cfg3 (a3 m)).W) :
    (dat3 (a3 m) (atTc (W5 m)) c).arrAt w (cfg3 (a3 m)).N = atTc (W6 m) c (Pipeline.arrRef spec3 w) := by
  match w with
  | ⟨0, _⟩ => exact ((dat3 (a3 m) (atTc (W5 m)) c).arrAt_in 0 rfl _).trans ((A_eq3 _ _ c 0).trans (W6_of_ne m c main_v14 (by decide)).symm)
  | ⟨1, _⟩ => exact ((dat3 (a3 m) (atTc (W5 m)) c).arrAt_in 1 rfl _).trans ((A_eq3 _ _ c 1).trans (W6_of_ne m c main_v15 (by decide)).symm)
  | ⟨2, _⟩ => exact ((dat3 (a3 m) (atTc (W5 m)) c).arrAt_in 2 rfl _).trans ((A_eq3 _ _ c 2).trans (W6_of_ne m c main_v16 (by decide)).symm)
  | ⟨3, _⟩ => exact (W6_out m c).symm
theorem hrest3 (c : Dev nD) : ∀ b, b ∉ Finset.univ.image (Pipeline.arrRef spec3) → atTc (W6 m) c b = atTc (W5 m) c b :=
  fun b hb => W6_of_ne m c b fun e => hb (Finset.mem_image.mpr ⟨3, Finset.mem_univ _, e.symm⟩)
/-- On the one device, the table under the entry valuation is the admissible contents the pipeline runs at. -/
theorem tbl3_eq (c : Dev nD) : (fun k => atTc (W5 m) c (pre3.ref k)) = (a3 m).1 := by
  obtain rfl : c = 0 := Subsingleton.elim _ _
  rfl

set_option backward.isDefEq.respectTransparency.types false in
/-- The attention launch between its two thread states: as a projection launch, and the table split out of the
    unscoped buffers at entry, held whole in the launch's invariant, and put back at the exit. -/
def reg3 : RegionSeg (pcfgs (F := F)) (adm m) (pdats m) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (a3 m) (atTc (W5 m)) c).loose
  hwaits := Pipeline.hwaits_of_owed_zero _ _ _ _ L lv 3 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop((∃ r, prngReg c r) ∗ Pipeline.prefHeld (Ix := Unit) (Name := ℕ) (U := UR sig nD τ) (Lvl := ℕ) pre3 c (fun _ => fullShare) (a3 m).1)
  Z c := Pipeline.unscopedRestP (Ix := Unit) (Name := ℕ) (U := UR sig nD τ) (Lvl := ℕ) pre3 spec3 c (atTc (W5 m) c)
  hentry c := by
    rw [V5_eq, Pipeline.ownSems0_none]
    have hsplit := Pipeline.arrays_of_unscopedBufs (p := 3) (pcfgs (F := F)) (adm m) (pdats m) (launch3 (F := F)).win (launch3 (F := F)).arr_whole c
      ((pdats m 3 c).share_full fun _ => rfl) (atTc (W5 m) c) fun _ => rfl
    rw [Pipeline.unscopedBufs_held] at hsplit
    have hpf := Pipeline.unscopedRest_split (Ix := Unit) (Name := ℕ) (U := UR sig nD τ) (Lvl := ℕ) preFacts3 c (atTc (W5 m) c)
    rw [tbl3_eq] at hpf
    have hpf1 : (Pipeline.unscopedRest (Ix := Unit) (Name := ℕ) (U := UR sig nD τ) (Lvl := ℕ) spec3 c (atTc (W5 m) c) : sProp 𝕄)
        ⊢ iprop(Pipeline.prefHeld pre3 c (fun _ => fullShare) (a3 m).1 ∗ Pipeline.unscopedRestP pre3 spec3 c (atTc (W5 m) c)) := by
      rw [hpf]
    iintro ⟨⟨Hub, Hp, HO⟩, -, -⟩
    ihave H := hsplit $$ Hub
    icases H with ⟨Ha, Hrest⟩
    ihave Hrest := hpf1 $$ Hrest
    icases Hrest with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = iprop(Pipeline.ΦA spec3 c ∗ Pipeline.prefHeld (Ix := Unit) (Name := ℕ) (U := UR sig nD τ) (Lvl := ℕ) pre3 c (fun _ => fullShare) (a3 m).1) from rfl]
    unfold Pipeline.ΦA
    iintro ⟨Hp, Hpf, Hr⟩
    isplitl [Hp Hr]
    · isplitl [Hr]; · iexact Hr
      iexact Hp
    iexact Hpf
  hout c := by
    rw [Pipeline.ownSems0_none, show (pdats m 3 c).Φ (Fin.last _) = iprop(Pipeline.ΦA spec3 c ∗ Pipeline.prefHeld (Ix := Unit) (Name := ℕ) (U := UR sig nD τ) (Lvl := ℕ) pre3 c (fun _ => fullShare) (a3 m).1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [V6_eq]
    have hjoin := Pipeline.unscopedBufs_of_arrays (p := 3) (pcfgs (F := F)) (adm m) (Ix := Unit) (Name := ℕ) (U := UR sig nD τ) (Lvl := ℕ)
      (launch3 (F := F)).win (launch3 (F := F)).arr_whole c (pdats m) ((pdats m 3 c).share_full fun _ => rfl)
      (atTc (W5 m) c) (atTc (W6 m) c) ((pdats m 3 c).arrAt · (cfg3 (a3 m)).N) (hF3 m c) (hrest3 m c)
    rw [Pipeline.unscopedBufs_held] at hjoin
    have hpf := Pipeline.unscopedRest_split (Ix := Unit) (Name := ℕ) (U := UR sig nD τ) (Lvl := ℕ) preFacts3 c (atTc (W5 m) c)
    rw [tbl3_eq] at hpf
    have hpf2 : iprop(Pipeline.prefHeld pre3 c (fun _ => fullShare) (a3 m).1 ∗ Pipeline.unscopedRestP pre3 spec3 c (atTc (W5 m) c))
        ⊢ (Pipeline.unscopedRest (Ix := Unit) (Name := ℕ) (U := UR sig nD τ) (Lvl := ℕ) spec3 c (atTc (W5 m) c) : sProp 𝕄) := by
      rw [hpf]
    iintro ⟨Ha, HO, ⟨Hp, Hpf⟩, Hrest⟩
    ihave Hrest := hpf2 $$ [Hpf Hrest]
    · isplitl [Hpf]; · iexact Hpf
      iexact Hrest
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Launch 4 (output projection) as a segment -/

theorem W7_out (c : Dev nD) : W7 m c main_v20 = (dat4 (atTc (W6 m)) c).arrAt 2 cfg4.N := Function.update_self ..
theorem W7_of_ne (c : Dev nD) (b : Ref sig .tc) (h : b ≠ main_v20) : W7 m c b = W6 m c b :=
  Function.update_of_ne (StableHlo.devRef_ne_of_ne h) ..
theorem hF4 (c : Dev nD) (w : Fin cfg4.W) : (dat4 (atTc (W6 m)) c).arrAt w cfg4.N = atTc (W7 m) c (Pipeline.arrRef spec4 w) := by
  match w with
  | ⟨0, _⟩ => exact ((dat4 (atTc (W6 m)) c).arrAt_in 0 rfl _).trans ((A_eq4 _ c 0).trans (W7_of_ne m c _ (by decide)).symm)
  | ⟨1, _⟩ => exact ((dat4 (atTc (W6 m)) c).arrAt_in 1 rfl _).trans ((A_eq4 _ c 1).trans (W7_of_ne m c _ (by decide)).symm)
  | ⟨2, _⟩ => exact (W7_out m c).symm
theorem hrest4 (c : Dev nD) : ∀ b, b ∉ Finset.univ.image (Pipeline.arrRef spec4) → atTc (W7 m) c b = atTc (W6 m) c b :=
  fun b hb => W7_of_ne m c b fun e => hb (Finset.mem_image.mpr ⟨2, Finset.mem_univ _, e.symm⟩)

set_option backward.isDefEq.respectTransparency.types false in
/-- The output-projection launch between its two thread states: as a projection launch, its invariant the one that
    tracks the accumulator, entered from the scoped memory at anything and giving it back at the end. -/
def reg4 : RegionSeg (pcfgs (F := F)) (adm m) (pdats m) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (atTc (W6 m)) c).loose
  hwaits := Pipeline.hwaits_of_owed_zero _ _ _ _ L lv 4 fun _ _ => rfl
  pre c := iprop(StableHlo.held (c : Thread nD τ) (Pipeline.ucRefs τ sig) (V6 m (outs m) c) ∗ Rst c)
  post c := iprop(StableHlo.held (c : Thread nD τ) (Pipeline.ucRefs τ sig) (V7 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atTc (W6 m) c)
  hentry c := by
    rw [V6_eq, Pipeline.ownSems0_none]
    have hsplit := Pipeline.arrays_of_unscopedBufs (p := 4) (pcfgs (F := F)) (adm m) (pdats m) (launch4 (F := F)).win (launch4 (F := F)).arr_whole c
      ((pdats m 4 c).share_full fun _ => rfl) (atTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h4 := hin4 (atTc (W6 m)) c
    unfold Pipeline.ΦA at h4
    rw [show (pdats m 4 c).Φ 0 = (dat4 (atTc (W6 m)) c).Φ 0 from rfl]
    iintro ⟨Hp, -, Hr⟩
    iapply h4
    isplitl [Hr]; · iexact Hr
    iexact Hp
  hout c := by
    have h4 := hout4 (atTc (W6 m)) c
    unfold Pipeline.ΦA at h4
    rw [Pipeline.ownSems0_none, show (pdats m 4 c).Φ (Fin.last _) = (dat4 (atTc (W6 m)) c).Φ (Fin.last cfg4.N) from rfl]
    iintro H
    ihave H' := h4 $$ H
    icases H' with ⟨Hr, Hp⟩
    isplitl [Hp]; · iexact Hp
    isplitr; · iempintro
    iexact Hr
  hexit c := by
    rw [V7_eq]
    have hjoin := Pipeline.unscopedBufs_of_arrays (p := 4) (pcfgs (F := F)) (adm m) (Ix := Unit) (Name := ℕ) (U := UR sig nD τ) (Lvl := ℕ)
      (launch4 (F := F)).win (launch4 (F := F)).arr_whole c (pdats m) ((pdats m 4 c).share_full fun _ => rfl)
      (atTc (W6 m) c) (atTc (W7 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch deals a core — its unscoped semaphores at zero, nothing owed, its launch credit, its generator
    register — is the rest every segment carries. -/
theorem init_rest (c : Dev nD) :
    iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))
      ⊢ (Rst c : sProp 𝕄) := by
  iintro ⟨-, HO, -, Hp, -⟩
  isplitl [Hp]; · iexists _; iexact Hp
  iexists ∅; iexact HO

set_option backward.isDefEq.respectTransparency.types false in
/-- Every weakly fair execution of the program from memory m with zero counters terminates, nothing faulting; the
    result buffer ends at the reshape of what the output projection leaves, and every argument as launched. -/
theorem run_main : θ_run defs (onTc (τ := τ) (main (F := F))) ⟨m, fun _ => 0, ρ⟩ (fun r => ∀ c : Dev nD,
      r.2.mem ((c.tc : Thread nD τ).loc main_v21) = W8 m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := run_cond m (emb₁ (sig := sig) (nD := nD) (τ := τ)) () 𝒱₀ L lv (fun _ _ => rfl) ρ (outs m) (adm m) (pdats m)
    (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => (Rst c : sProp 𝕄))) := bigSep_mono fun c _ => init_rest ρ c
      iintro ⟨H, -⟩
      imodintro
      ihave H' := hm $$ H
      iexact H')
    (hE5 := fun c => by iintro ⟨-, H⟩; iexact H)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
  refine (θ_run defs _ _).mono (fun r hr c => ?_) h
  have := hr c
  rw [V8_eq] at this
  exact this

/-- The frame: the program runs and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.Kernel.Region

end
-- ==== Proof.ProjRegion0.lean ====
/-
  The first projection launch: for each batch b and head h, the f32 block of 2048 positions by 1024 model
  coordinates of batch b, narrowed to bf16, is multiplied by head h's 1024 by 64 slice of the head-major weight,
  and the 2048 by 64 product is stored as block 16 b + h of the head-major result.

  Stated at any contents V of the core's buffers when the launch is entered: the blocks each grid point is handed,
  what the body leaves in the result's staging buffer (its one store over the payload of the two loaded blocks),
  the body's triple, and the pipeline's proof data with its body obligation at every point. Nothing is carried
  between points; the invariant is the untouched rest of the scoped memory and the generator register.
-/
import proofs.«418068_j5952824673153_2_alg».proof.Proof.Gen.KernelIdeal.Launch
import proofs.«418068_j5952824673153_2_alg».proof.Proof.Gen.KernelIdeal.Skeleton
import proofs.«418068_j5952824673153_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point, fetched there or not: between two
    fetches the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole activation block, the whole weight block, the whole result block: the body's three accesses. -/
abbrev rx0 : Rect S2048x1024 := Rect.unit (s := S2048x1024) ![0, 0] S2048x1024.size inb_S2048x1024_S2048x1024_0_0
abbrev rw0 : Rect S1x1024x64 := Rect.unit (s := S1x1024x64) ![0, 0, 0] S1x1024x64.size inb_S1x1024x64_S1x1024x64_0_0_0
abbrev ro0 : Rect S1x2048x64 := Rect.unit (s := S1x2048x64) ![0, 0, 0] S1x2048x64.size inb_S1x2048x64_S1x2048x64_0_0_0

/-- The result's staging buffer after the body: its one whole-block store of the product of the two loaded blocks. -/
def out0_2 (x0 : Vec F S2048x1024 .f32) (x1 : Vec F S1x1024x64 .bf16) : Vec F S1x2048x64 .bf16 :=
  View.canon [⟨ro0, k0_pay1 (View.ld x0 rx0) (View.ld x1 rw0)⟩]

/-- The one store covers the buffer. -/
theorem cover0_2 (p0 : Vec F S1x2048x64 .bf16) (y : S1x2048x64.Idx) :
    ∃ pc ∈ ([⟨ro0, p0⟩] : List (View.Piece (Elt F) S1x2048x64 .bf16)), y ∈ pc.1.set :=
  View.cover_of_tiled [⟨ro0, p0⟩] S1x2048x64.size (by rfl) y

set_option maxHeartbeats 1000000 in
/-- The body on whole staging memrefs, the two inputs' at contents x0 and x1 and the result's at anything, runs to the
    continuation holding the inputs' as they were and the result's at the product of the inputs. -/
theorem sound_kernel0 (c : Dev nD) (E : Set ℕ) (i : grid0.Coords) (arg2 : Memref sig .tc .vmem S2048x1024 .f32) (harg2 : arg2.IsWhole)
    (arg3 : Memref sig .tc .vmem S1x1024x64 .bf16) (harg3 : arg3.IsWhole) (arg4 : Memref sig .tc .vmem S1x2048x64 .bf16) (harg4 : arg4.IsWhole)
    (x0 : Vec F S2048x1024 .f32) (x1 : Vec F S1x1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this launch on core c: the arrays as the launch finds them; after the body at point t each
    input's buffer at its block and the result's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Region

end
-- ==== Proof.ProjRegion1.lean ====
/-
  The second projection launch: for each batch b and head h, the f32 block of 2048 positions by 1024 model
  coordinates of batch b, narrowed to bf16, is multiplied by head h's 1024 by 64 slice of the head-major weight,
  and the 2048 by 64 product is stored as block 16 b + h of the head-major result.

  Stated at any contents V of the core's buffers when the launch is entered: the blocks each grid point is handed,
  what the body leaves in the result's staging buffer (its one store over the payload of the two loaded blocks),
  the body's triple, and the pipeline's proof data with its body obligation at every point. Nothing is carried
  between points; the invariant is the untouched rest of the scoped memory and the generator register.
-/
import proofs.«418068_j5952824673153_2_alg».proof.Proof.Gen.KernelIdeal.Launch
import proofs.«418068_j5952824673153_2_alg».proof.Proof.Gen.KernelIdeal.Skeleton
import proofs.«418068_j5952824673153_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point, fetched there or not: between two
    fetches the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole activation block, the whole weight block, the whole result block: the body's three accesses. -/
abbrev rx1 : Rect S2048x1024 := Rect.unit (s := S2048x1024) ![0, 0] S2048x1024.size inb_S2048x1024_S2048x1024_0_0
abbrev rw1 : Rect S1x1024x64 := Rect.unit (s := S1x1024x64) ![0, 0, 0] S1x1024x64.size inb_S1x1024x64_S1x1024x64_0_0_0
abbrev ro1 : Rect S1x2048x64 := Rect.unit (s := S1x2048x64) ![0, 0, 0] S1x2048x64.size inb_S1x2048x64_S1x2048x64_0_0_0

/-- The result's staging buffer after the body: its one whole-block store of the product of the two loaded blocks. -/
def out1_2 (x0 : Vec F S2048x1024 .f32) (x1 : Vec F S1x1024x64 .bf16) : Vec F S1x2048x64 .bf16 :=
  View.canon [⟨ro1, k1_pay1 (View.ld x0 rx1) (View.ld x1 rw1)⟩]

/-- The one store covers the buffer. -/
theorem cover1_2 (p0 : Vec F S1x2048x64 .bf16) (y : S1x2048x64.Idx) :
    ∃ pc ∈ ([⟨ro1, p0⟩] : List (View.Piece (Elt F) S1x2048x64 .bf16)), y ∈ pc.1.set :=
  View.cover_of_tiled [⟨ro1, p0⟩] S1x2048x64.size (by rfl) y

set_option maxHeartbeats 1000000 in
/-- The body on whole staging memrefs, the two inputs' at contents x0 and x1 and the result's at anything, runs to the
    continuation holding the inputs' as they were and the result's at the product of the inputs. -/
theorem sound_kernel1 (c : Dev nD) (E : Set ℕ) (i : grid1.Coords) (arg2 : Memref sig .tc .vmem S2048x1024 .f32) (harg2 : arg2.IsWhole)
    (arg3 : Memref sig .tc .vmem S1x1024x64 .bf16) (harg3 : arg3.IsWhole) (arg4 : Memref sig .tc .vmem S1x2048x64 .bf16) (harg4 : arg4.IsWhole)
    (x0 : Vec F S2048x1024 .f32) (x1 : Vec F S1x1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__proj_kernel i arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this launch on core c: the arrays as the launch finds them; after the body at point t each
    input's buffer at its block and the result's at the product of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Region

end
-- ==== Proof.ProjRegion2.lean ====
/-
  The third projection launch: for each batch b and head h, the f32 block of 2048 positions by 1024 model
  coordinates of batch b, narrowed to bf16, is multiplied by head h's 1024 by 64 slice of the head-major weight,
  and the 2048 by 64 product is stored as block 16 b + h of the head-major result.

  Stated at any contents V of the core's buffers when the launch is entered: the blocks each grid point is handed,
  what the body leaves in the result's staging buffer (its one store over the payload of the two loaded blocks),
  the body's triple, and the pipeline's proof data with its body obligation at every point. Nothing is carried
  between points; the invariant is the untouched rest of the scoped memory and the generator register.
-/
import proofs.«418068_j5952824673153_2_alg».proof.Proof.Gen.KernelIdeal.Launch
import proofs.«418068_j5952824673153_2_alg».proof.Proof.Gen.KernelIdeal.Skeleton
import proofs.«418068_j5952824673153_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's staging buffer holds its block at every point, fetched there or not: between two
    fetches the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole activation block, the whole weight block, the whole result block: the body's three accesses. -/
abbrev rx2 : Rect S2048x1024 := Rect.unit (s := S2048x1024) ![0, 0] S2048x1024.size inb_S2048x1024_S2048x1024_0_0
abbrev rw2 : Rect S1x1024x64 := Rect.unit (s := S1x1024x64) ![0, 0, 0] S1x1024x64.size inb_S1x1024x64_S1x1024x64_0_0_0
abbrev ro2 : Rect S1x2048x64 := Rect.unit (s := S1x2048x64) ![0, 0, 0] S1x2048x64.size inb_S1x2048x64_S1x2048x64_0_0_0

/-- The result's staging buffer after the body: its one whole-block store of the product of the two loaded blocks. -/
def out2_2 (x0 : Vec F S2048x1024 .f32) (x1 : Vec F S1x1024x64 .bf16) : Vec F S1x2048x64 .bf16 :=
  View.canon [⟨ro2, k2_pay1 (View.ld x0 rx2) (View.ld x1 rw2)⟩]

/-- The one store covers the buffer. -/
theorem cover2_2 (p0 : Vec F S1x2048x64 .bf16) (y : S1x2048x64.Idx) :
    ∃ pc ∈ ([⟨ro2, p0⟩] : List (View.Piece (Elt F) S1x2048x64 .bf16)), y ∈ pc.1.set :=
  View.cover_of_tiled [⟨ro2, p0⟩] S1x2048x64.size (by rfl) y

set_option maxHeartbeats 1000000 in
/-- The body on whole staging memrefs, the two inputs' at contents x0 and x1 and the result's at anything, runs to the
    continuation holding the inputs' as they were and the result's at the product of the inputs. -/
theorem sound_kernel2 (c : Dev nD) (E : Set ℕ) (i : grid2.Coords) (arg2 : Memref sig .tc .vmem S2048x1024 .f32) (harg2 : arg2.IsWhole)
    (arg3 : Memref sig .tc .vmem S1x1024x64 .bf16) (harg3 : arg3.IsWhole) (arg4 : Memref sig .tc .vmem S1x2048x64 .bf16) (harg4 : arg4.IsWhole)
    (x0 : Vec F S2048x1024 .f32) (x1 : Vec F S1x1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__proj_kernel i arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this launch on core c: the arrays as the launch finds them; after the body at point t each
    input's buffer at its block and the result's at the product of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Region

end
-- ==== Proof.AttnRegion.lean ====
/-
  The attention launch: for each head-batch index n = 16 b + h and each half of the 2048 query positions, the
  1024 by 64 block of queries, the head's 2048 by 64 keys and values, and the valid length the table holds for
  index n give the 1024 by 64 block of the result: scores scaled by 1/8, key positions at or past the valid length
  replaced by -10^6, exp of the score minus the row maximum, the contraction with the values divided by the row sum.

  The launch reads one table of 32 words (the valid lengths by head-batch index) that the pipeline holds while it
  runs; the body loads word n. Stated at any admissible contents of the table and any contents V of the core's
  buffers when the launch is entered.
-/
import proofs.«418068_j5952824673153_2_alg».proof.Proof.Gen.KernelIdeal.Launch
import proofs.«418068_j5952824673153_2_alg».proof.Proof.Gen.KernelIdeal.Skeleton
import proofs.«418068_j5952824673153_2_alg».proof.Proof.Gen.KernelIdeal.Points
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a3 : (pcfg3 (F := F)).Adm)
variable (V : (c : Dev nD) → (b : Ref sig .tc) → Buf (Elt F) ((c : Thread nD τ).loc b))

/-- Window w's block at point t, read off its array as the launch finds it. -/
def iblk3 (c : Dev nD) (w : Fin (cfg3 a3).W) (t : Fin (cfg3 a3).N) :
    (((cfg3 a3).win w).xblock ((cfg3 a3).grid.coords t)).Idx → Elt F ((cfg3 a3).win w).elt :=
  (((cfg3 a3).win w).blk t).view.read (Elt F) (V c (Pipeline.arrRef spec3 w))

/-- The table's word for head-batch index n: the valid length of the batch it belongs to. -/
def tword (n : Fin 32) : Elt F .i32 := a3.1 0 (ValueIdx.ix1 n)

/-- The head-batch index of grid point t (the grid's first coordinate). -/
def headOf (t : Fin (cfg3 a3).N) : Fin 32 := ⟨(grid3.coords t 0).val, (grid3.coords t 0).isLt⟩

/-- The whole query block, the whole key or value block: the body's accesses (the result block is the query block's shape). -/
abbrev rq3 : Rect S1x1024x64 := Rect.unit (s := S1x1024x64) ![0, 0, 0] S1x1024x64.size inb_S1x1024x64_S1x1024x64_0_0_0
abbrev rk3 : Rect S1x2048x64 := Rect.unit (s := S1x2048x64) ![0, 0, 0] S1x2048x64.size inb_S1x2048x64_S1x2048x64_0_0_0

/-- The result's staging buffer after the body: its one whole-block store of the attention payload of the three loaded
    blocks and the loaded valid length. -/
def out3_3 (x0 : Vec F S1x1024x64 .bf16) (x1 x2 : Vec F S1x2048x64 .bf16) (v : Elt F .i32) : Vec F S1x1024x64 .bf16 :=
  View.canon [⟨rq3, k3_pay1 (View.ld x0 rq3) (View.ld x1 rk3) (View.ld x2 rk3) v⟩]

/-- The proof data of this launch on core c: the arrays as the launch finds them; after the body at point t each
    input's buffer at its block and the result's at the attention payload of the blocks and the point's valid length;
    the invariant is the untouched rest of the scoped memory, the generator register, and the table held whole;
    nothing owed; full shares. -/
def dat3 (c : Dev nD) : Dat τ (Elt F) Unit ℕ (UR sig nD τ) ℕ (cfg3 a3) c where
  A w := V c (Pipeline.arrRef spec3 w)
  after w t := match w with
    | ⟨0, _⟩ => iblk3 a3 V c 0 t
    | ⟨1, _⟩ => iblk3 a3 V c 1 t
    | ⟨2, _⟩ => iblk3 a3 V c 2 t
    | ⟨3, _⟩ => out3_3 (iblk3 a3 V c 0 t) (iblk3 a3 V c 1 t) (iblk3 a3 V c 2 t) (tword a3 (headOf a3 t))
  Φ _ := iprop(Pipeline.ΦA spec3 c ∗ Pipeline.prefHeld (Ix := Unit) (Name := ℕ) (U := UR sig nD τ) (Lvl := ℕ) pre3 c (fun _ => fullShare) a3.1)
  q _ := fullShare
  owed _ := 0

theorem A_eq3 (c : Dev nD) (w : Fin (cfg3 a3).W) : (dat3 a3 V c).A w = V c (Pipeline.arrRef spec3 w) := by
  dsimp only [dat3]

theorem after3_3 (c : Dev nD) (t : Fin (cfg3 a3).N) :
    (dat3 a3 V c).after 3 t = out3_3 (iblk3 a3 V c 0 t) (iblk3 a3 V c 1 t) (iblk3 a3 V c 2 t) (tword a3 (headOf a3 t)) := by
  dsimp only [dat3]; rfl

theorem Phi3 (c : Dev nD) (t : Fin ((cfg3 a3).N + 1)) :
    (dat3 a3 V c).Φ t = iprop(Pipeline.ΦA spec3 c ∗ Pipeline.prefHeld (Ix := Unit) (Name := ℕ) (U := UR sig nD τ) (Lvl := ℕ) pre3 c (fun _ => fullShare) a3.1) := rfl

/-- The query window's staging buffer holds its block at every point. -/
theorem before3_0_of {c : Dev nD} (dat : Dat τ (Elt F) Unit ℕ (UR sig nD τ) ℕ (cfg3 a3) c) (hA : dat.A 0 = V c (Pipeline.arrRef spec3 0))
    (hafter : ∀ t, dat.after 0 t = iblk3 a3 V c 0 t) (t : Fin (cfg3 a3).N) (d) : dat.before 0 t d = iblk3 a3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key window's staging buffer holds its block at every point, fetched there or not: between two
    fetches the head-batch index has not moved. -/
theorem before3_1_of {c : Dev nD} (dat : Dat τ (Elt F) Unit ℕ (UR sig nD τ) ℕ (cfg3 a3) c) (hA : dat.A 1 = V c (Pipeline.arrRef spec3 1))
    (hafter : ∀ t, dat.after 1 t = iblk3 a3 V c 1 t) (t : Fin (cfg3 a3).N) (d) : dat.before 1 t d = iblk3 a3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The value window's staging buffer holds its block at every point. -/
theorem before3_2_of {c : Dev nD} (dat : Dat τ (Elt F) Unit ℕ (UR sig nD τ) ℕ (cfg3 a3) c) (hA : dat.A 2 = V c (Pipeline.arrRef spec3 2))
    (hafter : ∀ t, dat.after 2 t = iblk3 a3 V c 2 t) (t : Fin (cfg3 a3).N) (d) : dat.before 2 t d = iblk3 a3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem after3_0 (c : Dev nD) (t : Fin (cfg3 a3).N) : (dat3 a3 V c).after 0 t = iblk3 a3 V c 0 t := by dsimp only [dat3]; rfl
theorem after3_1 (c : Dev nD) (t : Fin (cfg3 a3).N) : (dat3 a3 V c).after 1 t = iblk3 a3 V c 1 t := by dsimp only [dat3]; rfl
theorem after3_2 (c : Dev nD) (t : Fin (cfg3 a3).N) : (dat3 a3 V c).after 2 t = iblk3 a3 V c 2 t := by dsimp only [dat3]; rfl

theorem before3_0 (c : Dev nD) (t : Fin (cfg3 a3).N) (d) : (dat3 a3 V c).before 0 t d = iblk3 a3 V c 0 t :=
  before3_0_of a3 V (dat3 a3 V c) (A_eq3 a3 V c 0) (after3_0 a3 V c) t d
theorem before3_1 (c : Dev nD) (t : Fin (cfg3 a3).N) (d) : (dat3 a3 V c).before 1 t d = iblk3 a3 V c 1 t :=
  before3_1_of a3 V (dat3 a3 V c) (A_eq3 a3 V c 1) (after3_1 a3 V c) t d
theorem before3_2 (c : Dev nD) (t : Fin (cfg3 a3).N) (d) : (dat3 a3 V c).before 2 t d = iblk3 a3 V c 2 t :=
  before3_2_of a3 V (dat3 a3 V c) (A_eq3 a3 V c 2) (after3_2 a3 V c) t d

/-- The current staging memref of each window at point t. -/
abbrev st3_0 (t : Fin (cfg3 a3).N) := ((cfg3 a3).win 0).stage ((cfg3 a3).slots t 0)
abbrev st3_1 (t : Fin (cfg3 a3).N) := ((cfg3 a3).win 1).stage ((cfg3 a3).slots t 1)
abbrev st3_2 (t : Fin (cfg3 a3).N) := ((cfg3 a3).win 2).stage ((cfg3 a3).slots t 2)
abbrev st3_3 (t : Fin (cfg3 a3).N) := ((cfg3 a3).win 3).stage ((cfg3 a3).slots t 3)

/-- The table as the body is handed it: its whole buffer as a memref. -/
abbrev tbM3 : Memref sig .tc .smem S32 .i32 := Memref.whole main_v18
abbrev htbM3 : tbM3.IsWhole := Memref.isWhole_whole _

/-- The table's buffer on core c: its contents type, and it held whole at f. -/
abbrev TbBuf3 (c : Dev nD) : Type := Buf (Elt F) (tbM3.view.loc (c : Thread nD τ))
abbrev tbPt3 (c : Dev nD) (f : TbBuf3 (F := F) c) : sProp 𝕄 := tbM3.view.loc (c : Thread nD τ) ↦{fullShare} f

/-- The kernel body at point t, on what the pipeline calls it with. -/
abbrev bodyAt3 (t : Fin (cfg3 a3).N) : Prog (TpuEff nD τ sig (Elt F) Λ₀ .tc) PUnit :=
  cc3__attn_kernel (grid3.coords t) tbM3 htbM3 (spec3_0.stage ((cfg3 a3).slots t 0)) (hstage3_0 (((cfg3 a3).slots t 0).cast nbuf3_0))
    (spec3_1.stage ((cfg3 a3).slots t 1)) (hstage3_1 (((cfg3 a3).slots t 1).cast nbuf3_1))
    (spec3_2.stage ((cfg3 a3).slots t 2)) (hstage3_2 (((cfg3 a3).slots t 2).cast nbuf3_2))
    (spec3_3.stage ((cfg3 a3).slots t 3)) (hstage3_3 (((cfg3 a3).slots t 3).cast nbuf3_3))

/-- The table held whole is the one points-to of its buffer. -/
theorem prefHeld3_eq (c : Dev nD) :
    (Pipeline.prefHeld (Ix := Unit) (Name := ℕ) (U := UR sig nD τ) (Lvl := ℕ) pre3 c (fun _ => fullShare) a3.1 : sProp 𝕄) = tbPt3 c (a3.1 0) := by
  unfold Pipeline.prefHeld
  rw [show (Finset.univ : Finset (Fin pre3.K)) = {0} from rfl, bigSep_singleton]
  rfl

/-- The one store covers the buffer. -/
theorem cover3_3 (p0 : Vec F S1x1024x64 .bf16) (y : S1x1024x64.Idx) :
    ∃ pc ∈ ([⟨rq3, p0⟩] : List (View.Piece (Elt F) S1x1024x64 .bf16)), y ∈ pc.1.set :=
  View.cover_of_tiled [⟨rq3, p0⟩] S1x1024x64.size (by rfl) y

/-- The word the body's scalar load reads off table contents xt at grid coordinates i: the table's one element under
    the load's unit rectangle. -/
def word3 (c : Dev nD) (i : grid3.Coords) (xt : TbBuf3 (F := F) c) : Elt F .i32 :=
  tbM3.view.readAt (Elt F) (Rect.unit (s := S32) (k3_off1 i) S1.size (k3_off1_inb i)).toLoadRect xt (Shape.Idx.first (numel1_S1.symm ▸ Nat.one_pos))

/-- The loaded word is the table's element at the head-batch index: the load's rectangle starts at the grid's first
    coordinate, which is below 32 and so unchanged by the passage through a 32-bit word. -/
theorem word3_eq_tword (c : Dev nD) (t : Fin (cfg3 a3).N) :
    word3 c (grid3.coords t) (a3.1 0) = tword a3 (headOf a3 t) := by
  unfold word3 tword headOf
  show (a3.1 0) ((Rect.unit (s := S32) (k3_off1 (grid3.coords t)) S1.size (k3_off1_inb (grid3.coords t))).emb _) = _
  refine congrArg (a3.1 0) ?_
  funext a
  apply Fin.ext
  rw [Rect.emb_apply]
  match a with
  | ⟨0, _⟩ =>
    show k3_off1 (grid3.coords t) 0 + 1 * 0 = (grid3.coords t 0).val
    rw [k3_off1_eq]; rfl

set_option maxHeartbeats 1000000 in
/-- The body on whole staging memrefs, the three inputs' at contents x0, x1, x2 and the result's at anything, the table
    held at xt, runs to the continuation holding the inputs' and the table as they were and the result's at the
    attention payload of the inputs and the loaded word. -/
theorem sound_kernel3 (c : Dev nD) (E : Set ℕ) (i : grid3.Coords)
    (arg3 : Memref sig .tc .vmem S1x1024x64 .bf16) (harg3 : arg3.IsWhole) (arg4 : Memref sig .tc .vmem S1x2048x64 .bf16) (harg4 : arg4.IsWhole)
    (arg5 : Memref sig .tc .vmem S1x2048x64 .bf16) (harg5 : arg5.IsWhole) (arg6 : Memref sig .tc .vmem S1x1024x64 .bf16) (harg6 : arg6.IsWhole)
    (x0 : Vec F S1x1024x64 .bf16) (x1 x2 : Vec F S1x2048x64 .bf16) (xt : TbBuf3 (F := F) c) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tbPt3 c xt
        ∗ (iprop(owns (c : Thread nD τ) arg3 fullShare x0 ∗ owns (c : Thread nD τ) arg4 fullShare x1 ∗ owns (c : Thread nD τ) arg5 fullShare x2
            ∗ owns (c : Thread nD τ) arg6 fullShare (out3_3 x0 x1 x2 (word3 c i xt)) ∗ tbPt3 c xt) -∗ K ⟨⟩))
      ⊢ wp frame (wpE (defs₀ (F := F)) Variants.none c none) E (cc3__attn_kernel i tbM3 htbM3 arg3 harg3 arg4 harg4 arg5 harg5 arg6 harg6) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, HT, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexact HT

/-- What the body is called with at point t, the windows one by one, -/
def bodyPre3 (c : Dev nD) (t : Fin (cfg3 a3).N) : sProp 𝕄 :=
  iprop((dat3 a3 V c).Φ t.castSucc ∗ (dat3 a3 V c).owesAt () t.castSucc
    ∗ (∃ d, owns (c : Thread nD τ) (st3_0 a3 t) fullShare ((dat3 a3 V c).before 0 t d))
    ∗ (∃ d, owns (c : Thread nD τ) (st3_1 a3 t) fullShare ((dat3 a3 V c).before 1 t d))
    ∗ (∃ d, owns (c : Thread nD τ) (st3_2 a3 t) fullShare ((dat3 a3 V c).before 2 t d))
    ∗ (∃ d, owns (c : Thread nD τ) (st3_3 a3 t) fullShare ((dat3 a3 V c).before 3 t d)))

/-- and what it returns. -/
def bodyPost3 (c : Dev nD) (t : Fin (cfg3 a3).N) : sProp 𝕄 :=
  iprop((dat3 a3 V c).Φ t.succ ∗ (dat3 a3 V c).owesAt () t.succ
    ∗ owns (c : Thread nD τ) (st3_0 a3 t) fullShare ((dat3 a3 V c).after 0 t)
    ∗ owns (c : Thread nD τ) (st3_1 a3 t) fullShare ((dat3 a3 V c).after 1 t)
    ∗ owns (c : Thread nD τ) (st3_2 a3 t) fullShare ((dat3 a3 V c).after 2 t)
    ∗ owns (c : Thread nD τ) (st3_3 a3 t) fullShare ((dat3 a3 V c).after 3 t))

/-- The body at any point: the inputs' memrefs hold their blocks and the invariant holds the table, so the body's triple
    applies; the word it loads is the table's at the point's head-batch index; the rest of the invariant and the core's
    dues pass through unread. -/
theorem sound_body3 (c : Dev nD) (t : Fin (cfg3 a3).N) :
    bodyPre3 a3 V c t ⊢ wp frame (wpE (defs₀ (F := F)) Variants.none c none) Set.univ (bodyAt3 a3 t) (fun _ => bodyPost3 a3 V c t) := by
  unfold bodyPre3 bodyPost3 bodyAt3
  simp only [before3_0, before3_1, before3_2]
  rw [show (dat3 a3 V c).owesAt () t.succ = (dat3 a3 V c).owesAt () t.castSucc from rfl,
    Phi3, Phi3, after3_0, after3_1, after3_2, after3_3, prefHeld3_eq, ← word3_eq_tword a3 c t]
  iintro ⟨⟨HΦ, HT⟩, Ho, ⟨%d0, H0⟩, ⟨%d1, H1⟩, ⟨%d2, H2⟩, ⟨%d3, H3⟩⟩
  iapply (sound_kernel3 c Set.univ _ _ _ _ _ _ _ _ _ (iblk3 a3 V c 0 t) (iblk3 a3 V c 1 t) (iblk3 a3 V c 2 t) (a3.1 0) _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) a3 V c) (defs₀ (F := F)) Variants.none () Set.univ := fun t => by
  rw [bigSep_W3, bigSep_W3]
  exact sound_body3 a3 V c t

end

end Cert.KernelIdeal.Region

end
-- ==== Proof.OutRegion.lean ====
/-
  The output-projection launch: for each batch b the grid walks the 16 heads h in order; at head h the 2048 by 64
  block of head-batch 16 b + h of the attention result is multiplied by head h's 64 by 1024 slice of the output
  weight and ADDED into a 2048 by 1024 f32 accumulator that lives in scratch memory across the grid points: the
  accumulator is reset to zero at head 0, and at head 15 it is copied into the result's staging buffer, which is
  written back as block b of the [4096, 1024] result only then.

  Stated at any contents V of the core's buffers when the launch is entered: the accumulator after each grid point
  by recursion on the point, the proof data (the result window's buffer after a point is the accumulator; the window
  is idle except at head 15), the invariant (before the first point the scoped memory at anything; afterwards the
  accumulator at the previous point's value), and the body obligation.
-/
import proofs.«418068_j5952824673153_2_alg».proof.Proof.Gen.KernelIdeal.Launch
import proofs.«418068_j5952824673153_2_alg».proof.Proof.Gen.KernelIdeal.Skeleton
import proofs.«418068_j5952824673153_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator's reset value, -/
def zero4 : Vec F S2048x1024 .f32 := k4_pay1 (F := F)
/-- and one head's update of it: the accumulator plus the product of the head's two blocks. -/
def step4 (x0 : Vec F S1x2048x64 .bf16) (x1 : Vec F S1x64x1024 .bf16) (a : Vec F S2048x1024 .f32) : Vec F S2048x1024 .f32 :=
  k4_pay2 x0 x1 a

/-- The accumulator after grid position n: at a head-0 position (n divisible by 16) the update of zero, otherwise the
    update of what the position before left. -/
def acc4 (c : Dev nD) : (n : ℕ) → n < cfg4.N → Vec F S2048x1024 .f32
  | 0, h => step4 (iblk4 V c 0 ⟨0, h⟩) (iblk4 V c 1 ⟨0, h⟩) zero4
  | n + 1, h =>
    if (n + 1) % 16 = 0 then step4 (iblk4 V c 0 ⟨n + 1, h⟩) (iblk4 V c 1 ⟨n + 1, h⟩) zero4
    else step4 (iblk4 V c 0 ⟨n + 1, h⟩) (iblk4 V c 1 ⟨n + 1, h⟩) (acc4 c n (Nat.lt_of_succ_lt h))

theorem acc4_reset (c : Dev nD) (t : Fin cfg4.N) (h : t.val % 16 = 0) :
    acc4 V c t.val t.isLt = step4 (iblk4 V c 0 t) (iblk4 V c 1 t) zero4 := by
  obtain ⟨n, hn⟩ := t
  cases n with
  | zero => rfl
  | succ n => exact if_pos h

theorem acc4_step (c : Dev nD) (t : Fin cfg4.N) (h : ¬ t.val % 16 = 0) :
    acc4 V c t.val t.isLt = step4 (iblk4 V c 0 t) (iblk4 V c 1 t) (acc4 V c (t.val - 1) (Nat.lt_of_le_of_lt (Nat.sub_le _ _) t.isLt)) := by
  obtain ⟨n, hn⟩ := t
  cases n with
  | zero => exact absurd (Nat.zero_mod _) h
  | succ n => exact if_neg h

/-- The accumulator's scratch buffer as a memref. -/
abbrev scM4 : Memref sig .tc .vmem S2048x1024 .f32 := Memref.whole cc4_scratch0

/-- The scoped buffers that are neither a staging buffer of this launch nor the accumulator, each whole at some contents. -/
def rest4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg3_1), ((c : Thread nD τ).loc cc3_stg3_1) ↦{fullShare} f))

/-- The invariant before grid position n: before the first point the scoped memory at anything; afterwards the
    other scoped buffers at anything, the accumulator at what position n - 1 left, and the generator register. -/
def PhiS4 (c : Dev nD) : (n : ℕ) → n ≤ cfg4.N → sProp 𝕄
  | 0, _ => Pipeline.ΦA spec4 c
  | n + 1, hn => iprop(rest4 (F := F) c ∗ owns (c : Thread nD τ) scM4 fullShare (acc4 V c n hn) ∗ (∃ r, prngReg c r))

/-- The proof data of this launch on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-- The body's first branch condition, from the grid coordinates: the head coordinate is 0. -/
abbrev cond4_0 (i : grid4.Coords) : Prop := (Scalar.cmpi .ne (Scalar.extui (Scalar.cmpi .eq (BitVec.ofNat 32 (i 1).val) 0#32)) 0#32) = 1#1
/-- It holds at the grid positions divisible by 16. -/
theorem hcond4_0 : ∀ t : Fin cfg4.N, cond4_0 (grid4.coords t) ↔ t.val % 16 = 0 :=
  (by decide +kernel : ∀ t : Fin grid4.N, cond4_0 (grid4.coords t) ↔ t.val % 16 = 0)
/-- The body's second branch condition: the head coordinate is 15. -/
abbrev cond4_1 (i : grid4.Coords) : Prop := k4_cond2 i = 1#1
/-- It holds at the grid positions that are 15 modulo 16. -/
theorem hcond4_1 : ∀ t : Fin cfg4.N, cond4_1 (grid4.coords t) ↔ t.val % 16 = 15 :=
  (by decide +kernel : ∀ t : Fin grid4.N, cond4_1 (grid4.coords t) ↔ t.val % 16 = 15)
/-- The two input windows are idle nowhere. -/
theorem liveAt4_0 : ∀ t : Fin cfg4.N, cfg4.idle 0 (grid4.coords t) = false := by decide +kernel
theorem liveAt4_1 : ∀ t : Fin cfg4.N, cfg4.idle 1 (grid4.coords t) = false := by decide +kernel
/-- Off head 15 the result window is idle -/
theorem idleAt4_2 : ∀ t : Fin cfg4.N, ¬ t.val % 16 = 15 → cfg4.idle 2 (grid4.coords t) = true := by decide +kernel
/-- and its block is not written back; -/
theorem noFlush4_2 : ∀ t : Fin cfg4.N, ¬ t.val % 16 = 15 → (cfg4.win 2).flush t = false := by decide +kernel
/-- at head 15 it is live. -/
theorem liveAt4_2 : ∀ t : Fin cfg4.N, t.val % 16 = 15 → cfg4.idle 2 (grid4.coords t) = false := by decide +kernel

/-- The offsets of the whole-block accesses are zero. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer of the accumulator's shape whose LAST store went through the whole block reads back that store's payload,
    whatever it held and whatever was stored before. -/
private theorem read_last_whole {κ : Kind} {sp : Space} (v : View sig κ sp S2048x1024 .f32) (f : v.ty.Contents (Elt F))
    (w : Vec F S2048x1024 .f32) (L : List (View.Piece (Elt F) S2048x1024 .f32)) :
    v.read (Elt F) (v.writes (Elt F) f (⟨Rect.unit (s := S2048x1024) ![0, 0] S2048x1024.size inb_S2048x1024_S2048x1024_0_0, w⟩ :: L)) = w := by
  refine (View.read_writes_eq_canon v f _ ?_).trans (View.canon_cons_unit_zero (S := S2048x1024) hz2 inb_S2048x1024_S2048x1024_0_0 w L)
  intro y
  exact ⟨⟨Rect.unit (s := S2048x1024) ![0, 0] S2048x1024.size inb_S2048x1024_S2048x1024_0_0, w⟩, List.mem_cons_self,
    View.mem_set_unit_zero (S := S2048x1024) hz2 inb_S2048x1024_S2048x1024_0_0 y⟩

/-- The body at a head-0 point that is not a head-15 point, on whole memrefs: the two inputs' at x0 and x1, the result's
    at xi, the accumulator's at anything. It resets the accumulator and adds the head's product: the accumulator ends at
    the update of zero, the rest as it was. -/
theorem sound_kernel4_reset (c : Dev nD) (E : Set ℕ) (i : grid4.Coords) (arg2 : Memref sig .tc .vmem S1x2048x64 .bf16) (harg2 : arg2.IsWhole)
    (arg3 : Memref sig .tc .vmem S1x64x1024 .bf16) (harg3 : arg3.IsWhole) (arg4 : Memref sig .tc .vmem S2048x1024 .f32) (harg4 : arg4.IsWhole)
    (arg5 : Memref sig .tc .vmem S2048x1024 .f32) (harg5 : arg5.IsWhole) (hc0 : cond4_0 i) (hc1 : ¬ cond4_1 i)
    (x0 : Vec F S1x2048x64 .bf16) (x1 : Vec F S1x64x1024 .bf16) (xi : Vec F S2048x1024 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (step4 x0 x1 zero4)) -∗ K ⟨⟩))
      ⊢ wp frame (wpE (defs₀ (F := F)) Variants.none c none) E (cc4__outproj_kernel i arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%f2, %hf2, H2⟩, ⟨%d5, %f5, -, H5⟩, Hk⟩
  subst hf0
  subst hf1
  subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_run_names
  rw [read_last_whole]
  unfold step4 zero4
  simp only [View.readAt_eq_ld, View.ld_unit_zero (S := S1x2048x64) hz3, View.ld_unit_zero (S := S1x64x1024) hz3,
    View.readCov_unit_zero (S := S2048x1024) _ hz2]

/-- The body at a point that is neither a head-0 nor a head-15 point: the accumulator, at a, ends at the update of a. -/
theorem sound_kernel4_mid (c : Dev nD) (E : Set ℕ) (i : grid4.Coords) (arg2 : Memref sig .tc .vmem S1x2048x64 .bf16) (harg2 : arg2.IsWhole)
    (arg3 : Memref sig .tc .vmem S1x64x1024 .bf16) (harg3 : arg3.IsWhole) (arg4 : Memref sig .tc .vmem S2048x1024 .f32) (harg4 : arg4.IsWhole)
    (arg5 : Memref sig .tc .vmem S2048x1024 .f32) (harg5 : arg5.IsWhole) (hc0 : ¬ cond4_0 i) (hc1 : ¬ cond4_1 i)
    (x0 : Vec F S1x2048x64 .bf16) (x1 : Vec F S1x64x1024 .bf16) (xi : Vec F S2048x1024 .f32) (a : Vec F S2048x1024 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare a
        ∗ (iprop(owns (c : Thread nD τ) arg2 fullShare x0 ∗ owns (c : Thread nD τ) arg3 fullShare x1 ∗ owns (c : Thread nD τ) arg4 fullShare xi
            ∗ owns (c : Thread nD τ) arg5 fullShare (step4 x0 x1 a)) -∗ K ⟨⟩))
      ⊢ wp frame (wpE (defs₀ (F := F)) Variants.none c none) E (cc4__outproj_kernel i arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%f2, %hf2, H2⟩, ⟨%f5, %hf5, H5⟩, Hk⟩
  subst hf0
  subst hf1
  subst hf2
  subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_run_names
  rw [read_last_whole]
  unfold step4
  simp only [View.readAt_eq_ld, View.ld_unit_zero (S := S1x2048x64) hz3, View.ld_unit_zero (S := S1x64x1024) hz3,
    View.ld_unit_zero (S := S2048x1024) hz2]

/-- The body at a head-15 point that is not a head-0 point: the accumulator, at a, ends at the update of a, and the
    result's buffer, at anything, ends at the same. -/
theorem sound_kernel4_last (c : Dev nD) (E : Set ℕ) (i : grid4.Coords) (arg2 : Memref sig .tc .vmem S1x2048x64 .bf16) (harg2 : arg2.IsWhole)
    (arg3 : Memref sig .tc .vmem S1x64x1024 .bf16) (harg3 : arg3.IsWhole) (arg4 : Memref sig .tc .vmem S2048x1024 .f32) (harg4 : arg4.IsWhole)
    (arg5 : Memref sig .tc .vmem S2048x1024 .f32) (harg5 : arg5.IsWhole) (hc0 : ¬ cond4_0 i) (hc1 : cond4_1 i)
    (x0 : Vec F S1x2048x64 .bf16) (x1 : Vec F S1x64x1024 .bf16) (a : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1
            ∗ owns (c : Thread nD τ) arg4 fullShare (step4 x0 x1 a)
            ∗ owns (c : Thread nD τ) arg5 fullShare (step4 x0 x1 a)) -∗ K ⟨⟩))
      ⊢ wp frame (wpE (defs₀ (F := F)) Variants.none c none) E (cc4__outproj_kernel i arg2 harg2 arg3 harg3 arg4 harg4 arg5 harg5) K := by
  simp only [cc4__outproj_kernel_eq_skeleton]; unfold cc4__outproj_kernel_skel
  unfold owns
  iintro ⟨⟨%f0, %hf0, H0⟩, ⟨%f1, %hf1, H1⟩, ⟨%d2, %f2, -, H2⟩, ⟨%f5, %hf5, H5⟩, Hk⟩
  subst hf0
  subst hf1
  subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_last_whole]
    unfold step4
    simp only [View.readAt_eq_ld, View.ld_unit_zero (S := S1x2048x64) hz3, View.ld_unit_zero (S := S1x64x1024) hz3,
      View.ld_unit_zero (S := S2048x1024) hz2, View.readCov_unit_zero (S := S2048x1024) _ hz2]
  iexists _; isplitr
  swap; · iexact H5
  ipureintro
  sl_unfold_run_names
  rw [read_last_whole]
  unfold step4
  simp only [View.readAt_eq_ld, View.ld_unit_zero (S := S1x2048x64) hz3, View.ld_unit_zero (S := S1x64x1024) hz3,
    View.ld_unit_zero (S := S2048x1024) hz2]

/-- The activation window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant after position n: the accumulator at that position's value. -/
theorem PhiS4_succ (c : Dev nD) (n : ℕ) (hn : n < cfg4.N) :
    PhiS4 V c (n + 1) hn = iprop(rest4 (F := F) c ∗ owns (c : Thread nD τ) scM4 fullShare (acc4 V c n hn) ∗ (∃ r, prngReg c r)) := rfl

/-- Before a position that is not the first: the accumulator at what the position before left. -/
theorem PhiS4_pos (c : Dev nD) (n : ℕ) (h : n ≤ cfg4.N) (hz : n ≠ 0) :
    PhiS4 V c n h = iprop(rest4 (F := F) c ∗ owns (c : Thread nD τ) scM4 fullShare (acc4 V c (n - 1) (by omega)) ∗ (∃ r, prngReg c r)) := by
  cases n with
  | zero => exact absurd rfl hz
  | succ n => rfl

/-- The invariant at a point's start, restated at the point's position. -/
theorem PhiS4_castSucc (c : Dev nD) (t : Fin cfg4.N) :
    (dat4 V c).Φ t.castSucc = PhiS4 V c t.val (Nat.le_of_lt t.isLt) := rfl

/-- The scoped memory at anything, split into the accumulator's buffer, the other 23 buffers and the generator register. -/
theorem PhiA4_split (c : Dev nD) :
    (Pipeline.ΦA spec4 c : sProp 𝕄) ⊢ iprop(rest4 (F := F) c ∗ (∃ d, owns (c : Thread nD τ) scM4 fullShare d) ∗ (∃ r, prngReg c r)) := by
  unfold Pipeline.ΦA rest4; rw [scopedRest4_eq]; simp only [scM4, owns_whole]
  iintro ⟨⟨B1, B2, B3, B4, B5, B6, B7, B8, B9, B10, B11, B12, B13, B14, B15, B16, B17, B18, B19, B20, B21, B22, B23, B24⟩, Hg⟩
  isplitl [B1 B2 B3 B4 B5 B6 B7 B8 B9 B10 B11 B12 B13 B14 B15 B16 B17 B18 B19 B20 B21 B22 B23]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    isplitl [B20]; · iexact B20
    isplitl [B21]; · iexact B21
    isplitl [B22]; · iexact B22
    iexact B23
  isplitl [B24]; · iexact B24
  iexact Hg

/-- The three parts put back, the accumulator's value forgotten. -/
theorem PhiA4_join (c : Dev nD) (a : Vec F S2048x1024 .f32) :
    iprop(rest4 (F := F) c ∗ owns (c : Thread nD τ) scM4 fullShare a ∗ (∃ r, prngReg c r)) ⊢ (Pipeline.ΦA spec4 c : sProp 𝕄) := by
  unfold Pipeline.ΦA rest4; rw [scopedRest4_eq]; simp only [scM4, owns_whole]
  iintro ⟨⟨B1, B2, B3, B4, B5, B6, B7, B8, B9, B10, B11, B12, B13, B14, B15, B16, B17, B18, B19, B20, B21, B22, B23⟩, HS, Hg⟩
  isplitr [Hg]
  swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [B21]; · iexact B21
  isplitl [B22]; · iexact B22
  isplitl [B23]; · iexact B23
  iexists _; iexact HS

/-- Before any position the invariant holds the accumulator at SOME contents. -/
theorem PhiS4_any (c : Dev nD) (n : ℕ) (h : n ≤ cfg4.N) :
    PhiS4 V c n h ⊢ iprop(rest4 (F := F) c ∗ (∃ d, owns (c : Thread nD τ) scM4 fullShare d) ∗ (∃ r, prngReg c r)) := by
  cases n with
  | zero => exact PhiA4_split c
  | succ n =>
    rw [PhiS4_succ]
    iintro ⟨HR, HS, Hg⟩
    isplitl [HR]; · iexact HR
    isplitl [HS]; · iexists _; iexact HS
    iexact Hg

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the result's buffer untouched where its window is idle. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The body at any point. The inputs' memrefs hold their blocks. By the head of the point: at head 0 the invariant
    gives the accumulator at some contents, the body resets and updates it, and the result's buffer goes back as it
    came; at heads 1 to 14 the accumulator comes at the previous point's value and leaves at its update; at head 15
    the same, and the result's buffer takes the accumulator's new value. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [PhiS4_castSucc]
  have hN : t.val < 32 := lt_of_lt_of_eq t.isLt (show cfg4.N = 32 from N_4)
  by_cases h1 : t.val % 16 = 15
  · have h0 : ¬ t.val % 16 = 0 := by omega
    have hz : t.val ≠ 0 := by omega
    rw [show (dat4 V c).leavesExact 2 t = owns (c : Thread nD τ) (st4_2 t) fullShare ((dat4 V c).after 2 t) from by
      unfold Dat.leavesExact; rw [liveAt4_2 t h1], after4_2]
    rw [acc4_step V c t h0, PhiS4_pos V c _ _ hz]
    iintro ⟨⟨HR, HS, Hg⟩, Ho, ⟨%d0, H0⟩, ⟨%d1, H1⟩, ⟨%d2, H2⟩⟩
    iapply (sound_kernel4_last c Set.univ (grid4.coords t) _ _ _ _ _ _ _ _ (fun h => h0 ((hcond4_0 t).mp h)) ((hcond4_1 t).mpr h1)
      (iblk4 V c 0 t) (iblk4 V c 1 t) _ _)
    isplitl [H0]; · iexact H0
    isplitl [H1]; · iexact H1
    isplitl [H2]; · iexists _; iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2
  · rw [Dat.leavesExact_idle (dat4 V c) 2 t (idleAt4_2 t h1) (noFlush4_2 t h1)]
    by_cases h0 : t.val % 16 = 0
    · rw [acc4_reset V c t h0]
      refine (Laws.sep_mono_left (PhiS4_any V c _ _)).trans ?_
      iintro ⟨⟨HR, ⟨%a, HS⟩, Hg⟩, Ho, ⟨%d0, H0⟩, ⟨%d1, H1⟩, ⟨%d2, H2⟩⟩
      iapply (sound_kernel4_reset c Set.univ (grid4.coords t) _ _ _ _ _ _ _ _ ((hcond4_0 t).mpr h0) (fun h => h1 ((hcond4_1 t).mp h))
        (iblk4 V c 0 t) (iblk4 V c 1 t) _ _)
      isplitl [H0]; · iexact H0
      isplitl [H1]; · iexact H1
      isplitl [H2]; · iexact H2
      isplitl [HS]; · iexists _; iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2
    · have hz : t.val ≠ 0 := fun h => h0 (by rw [h])
      rw [acc4_step V c t h0, PhiS4_pos V c _ _ hz]
      iintro ⟨⟨HR, HS, Hg⟩, Ho, ⟨%d0, H0⟩, ⟨%d1, H1⟩, ⟨%d2, H2⟩⟩
      iapply (sound_kernel4_mid c Set.univ (grid4.coords t) _ _ _ _ _ _ _ _ (fun h => h0 ((hcond4_0 t).mp h)) (fun h => h1 ((hcond4_1 t).mp h))
        (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- What the launch is handed (the scoped memory at anything) is the invariant before the first point. -/
theorem hin4 (c : Dev nD) : Pipeline.ΦA spec4 c ⊢ (dat4 V c).Φ 0 :=
  Idealize.SL.BI.Entails.refl _

/-- After the last point the invariant gives the scoped memory back, the accumulator's value forgotten. -/
theorem hout4 (c : Dev nD) : (dat4 V c).Φ (Fin.last cfg4.N) ⊢ Pipeline.ΦA spec4 c := by
  have hN : cfg4.N = 32 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega)]
  exact PhiA4_join c _

/-- The body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.Region

end
-- ==== Proof.Run.lean ====
/-
  The run of the program from the launches' proof data.

  The valuations between the program's items: the launch contents; the host stretch that re-lays the weights and
  flattens the activations; each projection launch's result array at what its write-backs leave; the host stretch that
  repeats the valid lengths per head; the attention launch's result; the output projection's result; the final
  reshape. The table the attention launch reads is the repeated valid lengths as that stretch leaves them. Each
  launch's proof data is taken at the valuation it is entered from, and each launch is a segment record between the
  thread states "every unscoped buffer at the valuation, the generator register at some state, nothing owed".
-/
import proofs.«418068_j5952824673153_2_alg».proof.Proof.RunCond
import proofs.«418068_j5952824673153_2_alg».proof.Proof.ProjRegion0
import proofs.«418068_j5952824673153_2_alg».proof.Proof.ProjRegion1
import proofs.«418068_j5952824673153_2_alg».proof.Proof.ProjRegion2
import proofs.«418068_j5952824673153_2_alg».proof.Proof.AttnRegion
import proofs.«418068_j5952824673153_2_alg».proof.Proof.OutRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the items -/

/-- A valuation read at the TensorCore's references: what a launch's proof data takes. -/
abbrev atTc (W : Dev nD → Valuation τ sig (Elt F)) : (c : Dev nD) → (b : Ref sig .tc) → Buf (Elt F) ((c : Thread nD τ).loc b) :=
  fun c b => W c b

/-- After the first host stretch (the first projection's entry). -/
abbrev W1 (c : Dev nD) : Valuation τ sig (Elt F) := V1 m c
/-- After the first projection: its result array at what the launch leaves. -/
abbrev W2 (c : Dev nD) : Valuation τ sig (Elt F) :=
  Function.update (W1 m c) main_v14 ((dat0 (atTc (W1 m)) c).arrAt 2 cfg0.N)
/-- After the second projection. -/
abbrev W3 (c : Dev nD) : Valuation τ sig (Elt F) :=
  Function.update (W2 m c) main_v15 ((dat1 (atTc (W2 m)) c).arrAt 2 cfg1.N)
/-- After the third projection. -/
abbrev W4 (c : Dev nD) : Valuation τ sig (Elt F) :=
  Function.update (W3 m c) main_v16 ((dat2 (atTc (W3 m)) c).arrAt 2 cfg2.N)
/-- After the second host stretch (the valid lengths repeated per head). -/
abbrev W5 (c : Dev nD) : Valuation τ sig (Elt F) := StableHlo.after hostOps3 (W4 m c)

/-- The table the attention launch reads: the repeated valid lengths (there is one device). -/
def tbl3 : pre3.Contents (Elt F) := fun j => W5 m (0 : Dev nD) (pre3.ref j)
/-- Any contents are admissible: no index map reads the table. -/
abbrev a3 : (pcfg3 (F := F)).Adm := ⟨tbl3 m, trivial⟩

/-- After the attention launch. -/
abbrev W6 (c : Dev nD) : Valuation τ sig (Elt F) :=
  Function.update (W5 m c) main_v19 ((dat3 (a3 m) (atTc (W5 m)) c).arrAt 3 (cfg3 (a3 m)).N)
/-- After the output projection. -/
abbrev W7 (c : Dev nD) : Valuation τ sig (Elt F) :=
  Function.update (W6 m c) main_v20 ((dat4 (atTc (W6 m)) c).arrAt 2 cfg4.N)
/-- After the last host stretch (the result reshaped). -/
abbrev W8 (c : Dev nD) : Valuation τ sig (Elt F) := StableHlo.after hostOps5 (W7 m c)

/-- What the launches leave, as the unknowns the generated valuations are written over. -/
def outs : Outs (F := F) := fun J r c =>
  match J with
  | 2 => W2 m c r
  | 3 => W3 m c r
  | 4 => W4 m c r
  | 6 => W6 m c r
  | 7 => W7 m c r
  | _ => W1 m c r

theorem V2_eq (c : Dev nD) : V2 m (outs m) c = W2 m c := by
  show Function.update (V1 m c) main_v14 (W2 m c main_v14) = W2 m c
  rw [show W2 m c main_v14 = (dat0 (atTc (W1 m)) c).arrAt 2 cfg0.N from Function.update_self ..]
theorem V3_eq (c : Dev nD) : V3 m (outs m) c = W3 m c := by
  show Function.update (V2 m (outs m) c) main_v15 (W3 m c main_v15) = W3 m c
  rw [V2_eq, show W3 m c main_v15 = (dat1 (atTc (W2 m)) c).arrAt 2 cfg1.N from Function.update_self ..]
theorem V4_eq (c : Dev nD) : V4 m (outs m) c = W4 m c := by
  show Function.update (V3 m (outs m) c) main_v16 (W4 m c main_v16) = W4 m c
  rw [V3_eq, show W4 m c main_v16 = (dat2 (atTc (W3 m)) c).arrAt 2 cfg2.N from Function.update_self ..]
theorem V5_eq (c : Dev nD) : V5 m (outs m) c = W5 m c := by
  show StableHlo.after hostOps3 (V4 m (outs m) c) = W5 m c
  rw [V4_eq]
theorem V6_eq (c : Dev nD) : V6 m (outs m) c = W6 m c := by
  show Function.update (V5 m (outs m) c) main_v19 (W6 m c main_v19) = W6 m c
  rw [V5_eq, show W6 m c main_v19 = (dat3 (a3 m) (atTc (W5 m)) c).arrAt 3 (cfg3 (a3 m)).N from Function.update_self ..]
theorem V7_eq (c : Dev nD) : V7 m (outs m) c = W7 m c := by
  show Function.update (V6 m (outs m) c) main_v20 (W7 m c main_v20) = W7 m c
  rw [V6_eq, show W7 m c main_v20 = (dat4 (atTc (W6 m)) c).arrAt 2 cfg4.N from Function.update_self ..]
theorem V8_eq (c : Dev nD) : V8 m (outs m) c = W8 m c := by
  show StableHlo.after hostOps5 (V7 m (outs m) c) = W8 m c
  rw [V7_eq]

/-! ## The proof data family -/

/-- The admissible table contents of every pipeline: only the attention launch has a table. -/
def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3 m
  | ⟨4, _⟩ => cfg4.toPCfg_adm

/-- Every pipeline's proof data, each at its launch's entry valuation. -/
def pdats : (p : Fin 5) → (c : Dev nD) → Dat τ (Elt F) Unit ℕ (UR sig nD τ) ℕ (Pipeline.pin (pcfgs (F := F)) (adm m) p) c
  | ⟨0, _⟩ => fun c => dat0 (atTc (W1 m)) c
  | ⟨1, _⟩ => fun c => dat1 (atTc (W2 m)) c
  | ⟨2, _⟩ => fun c => dat2 (atTc (W3 m)) c
  | ⟨3, _⟩ => fun c => dat3 (a3 m) (atTc (W5 m)) c
  | ⟨4, _⟩ => fun c => dat4 (atTc (W6 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev Rst (c : Dev nD) : sProp 𝕄 := iprop((∃ r, prngReg c r) ∗ ∃ W, owes (c : Thread nD τ) (0 : CellTallies nD τ sig Unit) W)

/-! ## Launch 0 as a segment -/

theorem W2_out (c : Dev nD) : W2 m c main_v14 = (dat0 (atTc (W1 m)) c).arrAt 2 cfg0.N := Function.update_self ..
theorem W2_of_ne (c : Dev nD) (b : Ref sig .tc) (h : b ≠ main_v14) : W2 m c b = W1 m c b :=
  Function.update_of_ne (StableHlo.devRef_ne_of_ne h) ..
/-- At the launch's exit each of its arrays holds what the pipeline leaves, -/
theorem hF0 (c : Dev nD) (w : Fin cfg0.W) : (dat0 (atTc (W1 m)) c).arrAt w cfg0.N = atTc (W2 m) c (Pipeline.arrRef spec0 w) := by
  match w with
  | ⟨0, _⟩ => exact ((dat0 (atTc (W1 m)) c).arrAt_in 0 rfl _).trans ((A_eq0 _ c 0).trans (W2_of_ne m c _ (by decide)).symm)
  | ⟨1, _⟩ => exact ((dat0 (atTc (W1 m)) c).arrAt_in 1 rfl _).trans ((A_eq0 _ c 1).trans (W2_of_ne m c _ (by decide)).symm)
  | ⟨2, _⟩ => exact (W2_out m c).symm
/-- and every other buffer what it held at entry. -/
theorem hrest0 (c : Dev nD) : ∀ b, b ∉ Finset.univ.image (Pipeline.arrRef spec0) → atTc (W2 m) c b = atTc (W1 m) c b :=
  fun b hb => W2_of_ne m c b fun e => hb (Finset.mem_image.mpr ⟨2, Finset.mem_univ _, e.symm⟩)

set_option backward.isDefEq.respectTransparency.types false in
/-- Launch 0 between its two thread states: its arrays split out of the unscoped buffers at entry and put back at the
    exit contents; the generator register into the launch's invariant and out; nothing owed; no semaphore of its own. -/
def reg0 : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 1 as a segment -/

theorem W3_out (c : Dev nD) : W3 m c main_v15 = (dat1 (atTc (W2 m)) c).arrAt 2 cfg1.N := Function.update_self ..
theorem W3_of_ne (c : Dev nD) (b : Ref sig .tc) (h : b ≠ main_v15) : W3 m c b = W2 m c b :=
  Function.update_of_ne (StableHlo.devRef_ne_of_ne h) ..
/-- At the launch's exit each of its arrays holds what the pipeline leaves, -/
theorem hF1 (c : Dev nD) (w : Fin cfg1.W) : (dat1 (atTc (W2 m)) c).arrAt w cfg1.N = atTc (W3 m) c (Pipeline.arrRef spec1 w) := by
  match w with
  | ⟨0, _⟩ => exact ((dat1 (atTc (W2 m)) c).arrAt_in 0 rfl _).trans ((A_eq1 _ c 0).trans (W3_of_ne m c _ (by decide)).symm)
  | ⟨1, _⟩ => exact ((dat1 (atTc (W2 m)) c).arrAt_in 1 rfl _).trans ((A_eq1 _ c 1).trans (W3_of_ne m c _ (by decide)).symm)
  | ⟨2, _⟩ => exact (W3_out m c).symm
/-- and every other buffer what it held at entry. -/
theorem hrest1 (c : Dev nD) : ∀ b, b ∉ Finset.univ.image (Pipeline.arrRef spec1) → atTc (W3 m) c b = atTc (W2 m) c b :=
  fun b hb => W3_of_ne m c b fun e => hb (Finset.mem_image.mpr ⟨2, Finset.mem_univ _, e.symm⟩)

set_option backward.isDefEq.respectTransparency.types false in
/-- Launch 1 between its two thread states: its arrays split out of the unscoped buffers at entry and put back at the
    exit contents; the generator register into the launch's invariant and out; nothing owed; no semaphore of its own. -/
def reg1 : RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atTc (W2 m)) c).loose
  hwaits := Pipeline.hwaits_of_owed_zero _ _ _ _ L lv 1 fun _ _ => rfl
  pre c := iprop(StableHlo.held (c : Thread nD τ) (Pipeline.ucRefs τ sig) (V2 m (outs m) c) ∗ Rst c)
  post c := iprop(StableHlo.held (c : Thread nD τ) (Pipeline.ucRefs τ sig) (V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [V2_eq, Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (atTc (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V3_eq]
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (atTc (W2 m) c) (atTc (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 2 as a segment -/

theorem W4_out (c : Dev nD) : W4 m c main_v16 = (dat2 (atTc (W3 m)) c).arrAt 2 cfg2.N := Function.update_self ..
theorem W4_of_ne (c : Dev nD) (b : Ref sig .tc) (h : b ≠ main_v16) : W4 m c b = W3 m c b :=
  Function.update_of_ne (StableHlo.devRef_ne_of_ne h) ..
/-- At the launch's exit each of its arrays holds what the pipeline leaves, -/
theorem hF2 (c : Dev nD) (w : Fin cfg2.W) : (dat2 (atTc (W3 m)) c).arrAt w cfg2.N = atTc (W4 m) c (Pipeline.arrRef spec2 w) := by
  match w with
  | ⟨0, _⟩ => exact ((dat2 (atTc (W3 m)) c).arrAt_in 0 rfl _).trans ((A_eq2 _ c 0).trans (W4_of_ne m c _ (by decide)).symm)
  | ⟨1, _⟩ => exact ((dat2 (atTc (W3 m)) c).arrAt_in 1 rfl _).trans ((A_eq2 _ c 1).trans (W4_of_ne m c _ (by decide)).symm)
  | ⟨2, _⟩ => exact (W4_out m c).symm
/-- and every other buffer what it held at entry. -/
theorem hrest2 (c : Dev nD) : ∀ b, b ∉ Finset.univ.image (Pipeline.arrRef spec2) → atTc (W4 m) c b = atTc (W3 m) c b :=
  fun b hb => W4_of_ne m c b fun e => hb (Finset.mem_image.mpr ⟨2, Finset.mem_univ _, e.symm⟩)

set_option backward.isDefEq.respectTransparency.types false in
/-- Launch 2 between its two thread states: its arrays split out of the unscoped buffers at entry and put back at the
    exit contents; the generator register into the launch's invariant and out; nothing owed; no semaphore of its own. -/
def reg2 : RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atTc (W3 m)) c).loose
  hwaits := Pipeline.hwaits_of_owed_zero _ _ _ _ L lv 2 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (W3 m) c)
  hentry c := by
    rw [V3_eq, Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m) ((pdats m 2 c).share_full fun _ => rfl)
      (atTc (W3 m) c) (atTc (W4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 3 (attention) as a segment -/

theorem W6_out (c : Dev nD) : W6 m c main_v19 = (dat3 (a3 m) (atTc (W5 m)) c).arrAt 3 (cfg3 (a3 m)).N := Function.update_self ..
theorem W6_of_ne (c : Dev nD) (b : Ref sig .tc) (h : b ≠ main_v19) : W6 m c b = W5 m c b :=
  Function.update_of_ne (StableHlo.devRef_ne_of_ne h) ..
theorem hF3 (c : Dev nD) (w : Fin (cfg3 (a3 m)).W) :
    (dat3 (a3 m) (atTc (W5 m)) c).arrAt w (cfg3 (a3 m)).N = atTc (W6 m) c (Pipeline.arrRef spec3 w) := by
  match w with
  | ⟨0, _⟩ => exact ((dat3 (a3 m) (atTc (W5 m)) c).arrAt_in 0 rfl _).trans ((A_eq3 _ _ c 0).trans (W6_of_ne m c main_v14 (by decide)).symm)
  | ⟨1, _⟩ => exact ((dat3 (a3 m) (atTc (W5 m)) c).arrAt_in 1 rfl _).trans ((A_eq3 _ _ c 1).trans (W6_of_ne m c main_v15 (by decide)).symm)
  | ⟨2, _⟩ => exact ((dat3 (a3 m) (atTc (W5 m)) c).arrAt_in 2 rfl _).trans ((A_eq3 _ _ c 2).trans (W6_of_ne m c main_v16 (by decide)).symm)
  | ⟨3, _⟩ => exact (W6_out m c).symm
theorem hrest3 (c : Dev nD) : ∀ b, b ∉ Finset.univ.image (Pipeline.arrRef spec3) → atTc (W6 m) c b = atTc (W5 m) c b :=
  fun b hb => W6_of_ne m c b fun e => hb (Finset.mem_image.mpr ⟨3, Finset.mem_univ _, e.symm⟩)
/-- On the one device, the table under the entry valuation is the admissible contents the pipeline runs at. -/
theorem tbl3_eq (c : Dev nD) : (fun k => atTc (W5 m) c (pre3.ref k)) = (a3 m).1 := by
  obtain rfl : c = 0 := Subsingleton.elim _ _
  rfl

set_option backward.isDefEq.respectTransparency.types false in
/-- The attention launch between its two thread states: as a projection launch, and the table split out of the
    unscoped buffers at entry, held whole in the launch's invariant, and put back at the exit. -/
def reg3 : RegionSeg (pcfgs (F := F)) (adm m) (pdats m) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (a3 m) (atTc (W5 m)) c).loose
  hwaits := Pipeline.hwaits_of_owed_zero _ _ _ _ L lv 3 fun _ _ => rfl
  pre c := iprop(StableHlo.held (c : Thread nD τ) (Pipeline.ucRefs τ sig) (V5 m (outs m) c) ∗ Rst c)
  post c := iprop(StableHlo.held (c : Thread nD τ) (Pipeline.ucRefs τ sig) (V6 m (outs m) c) ∗ Rst c)
  X c := iprop(∃ r, prngReg c r)
  Y c := iprop((∃ r, prngReg c r) ∗ Pipeline.prefHeld (Ix := Unit) (Name := ℕ) (U := UR sig nD τ) (Lvl := ℕ) pre3 c (fun _ => fullShare) (a3 m).1)
  Z c := Pipeline.unscopedRestP (Ix := Unit) (Name := ℕ) (U := UR sig nD τ) (Lvl := ℕ) pre3 spec3 c (atTc (W5 m) c)
  hentry c := by
    rw [V5_eq, Pipeline.ownSems0_none]
    have hsplit := Pipeline.arrays_of_unscopedBufs (p := 3) (pcfgs (F := F)) (adm m) (pdats m) (launch3 (F := F)).win (launch3 (F := F)).arr_whole c
      ((pdats m 3 c).share_full fun _ => rfl) (atTc (W5 m) c) fun _ => rfl
    rw [Pipeline.unscopedBufs_held] at hsplit
    have hpf := Pipeline.unscopedRest_split (Ix := Unit) (Name := ℕ) (U := UR sig nD τ) (Lvl := ℕ) preFacts3 c (atTc (W5 m) c)
    rw [tbl3_eq] at hpf
    have hpf1 : (Pipeline.unscopedRest (Ix := Unit) (Name := ℕ) (U := UR sig nD τ) (Lvl := ℕ) spec3 c (atTc (W5 m) c) : sProp 𝕄)
        ⊢ iprop(Pipeline.prefHeld pre3 c (fun _ => fullShare) (a3 m).1 ∗ Pipeline.unscopedRestP pre3 spec3 c (atTc (W5 m) c)) := by
      rw [hpf]
    iintro ⟨⟨Hub, Hp, HO⟩, -, -⟩
    ihave H := hsplit $$ Hub
    icases H with ⟨Ha, Hrest⟩
    ihave Hrest := hpf1 $$ Hrest
    icases Hrest with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = iprop(Pipeline.ΦA spec3 c ∗ Pipeline.prefHeld (Ix := Unit) (Name := ℕ) (U := UR sig nD τ) (Lvl := ℕ) pre3 c (fun _ => fullShare) (a3 m).1) from rfl]
    unfold Pipeline.ΦA
    iintro ⟨Hp, Hpf, Hr⟩
    isplitl [Hp Hr]
    · isplitl [Hr]; · iexact Hr
      iexact Hp
    iexact Hpf
  hout c := by
    rw [Pipeline.ownSems0_none, show (pdats m 3 c).Φ (Fin.last _) = iprop(Pipeline.ΦA spec3 c ∗ Pipeline.prefHeld (Ix := Unit) (Name := ℕ) (U := UR sig nD τ) (Lvl := ℕ) pre3 c (fun _ => fullShare) (a3 m).1) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    rw [V6_eq]
    have hjoin := Pipeline.unscopedBufs_of_arrays (p := 3) (pcfgs (F := F)) (adm m) (Ix := Unit) (Name := ℕ) (U := UR sig nD τ) (Lvl := ℕ)
      (launch3 (F := F)).win (launch3 (F := F)).arr_whole c (pdats m) ((pdats m 3 c).share_full fun _ => rfl)
      (atTc (W5 m) c) (atTc (W6 m) c) ((pdats m 3 c).arrAt · (cfg3 (a3 m)).N) (hF3 m c) (hrest3 m c)
    rw [Pipeline.unscopedBufs_held] at hjoin
    have hpf := Pipeline.unscopedRest_split (Ix := Unit) (Name := ℕ) (U := UR sig nD τ) (Lvl := ℕ) preFacts3 c (atTc (W5 m) c)
    rw [tbl3_eq] at hpf
    have hpf2 : iprop(Pipeline.prefHeld pre3 c (fun _ => fullShare) (a3 m).1 ∗ Pipeline.unscopedRestP pre3 spec3 c (atTc (W5 m) c))
        ⊢ (Pipeline.unscopedRest (Ix := Unit) (Name := ℕ) (U := UR sig nD τ) (Lvl := ℕ) spec3 c (atTc (W5 m) c) : sProp 𝕄) := by
      rw [hpf]
    iintro ⟨Ha, HO, ⟨Hp, Hpf⟩, Hrest⟩
    ihave Hrest := hpf2 $$ [Hpf Hrest]
    · isplitl [Hpf]; · iexact Hpf
      iexact Hrest
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## Launch 4 (output projection) as a segment -/

theorem W7_out (c : Dev nD) : W7 m c main_v20 = (dat4 (atTc (W6 m)) c).arrAt 2 cfg4.N := Function.update_self ..
theorem W7_of_ne (c : Dev nD) (b : Ref sig .tc) (h : b ≠ main_v20) : W7 m c b = W6 m c b :=
  Function.update_of_ne (StableHlo.devRef_ne_of_ne h) ..
theorem hF4 (c : Dev nD) (w : Fin cfg4.W) : (dat4 (atTc (W6 m)) c).arrAt w cfg4.N = atTc (W7 m) c (Pipeline.arrRef spec4 w) := by
  match w with
  | ⟨0, _⟩ => exact ((dat4 (atTc (W6 m)) c).arrAt_in 0 rfl _).trans ((A_eq4 _ c 0).trans (W7_of_ne m c _ (by decide)).symm)
  | ⟨1, _⟩ => exact ((dat4 (atTc (W6 m)) c).arrAt_in 1 rfl _).trans ((A_eq4 _ c 1).trans (W7_of_ne m c _ (by decide)).symm)
  | ⟨2, _⟩ => exact (W7_out m c).symm
theorem hrest4 (c : Dev nD) : ∀ b, b ∉ Finset.univ.image (Pipeline.arrRef spec4) → atTc (W7 m) c b = atTc (W6 m) c b :=
  fun b hb => W7_of_ne m c b fun e => hb (Finset.mem_image.mpr ⟨2, Finset.mem_univ _, e.symm⟩)

set_option backward.isDefEq.respectTransparency.types false in
/-- The output-projection launch between its two thread states: as a projection launch, its invariant the one that
    tracks the accumulator, entered from the scoped memory at anything and giving it back at the end. -/
def reg4 : RegionSeg (pcfgs (F := F)) (adm m) (pdats m) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (atTc (W6 m)) c).loose
  hwaits := Pipeline.hwaits_of_owed_zero _ _ _ _ L lv 4 fun _ _ => rfl
  pre c := iprop(StableHlo.held (c : Thread nD τ) (Pipeline.ucRefs τ sig) (V6 m (outs m) c) ∗ Rst c)
  post c := iprop(StableHlo.held (c : Thread nD τ) (Pipeline.ucRefs τ sig) (V7 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atTc (W6 m) c)
  hentry c := by
    rw [V6_eq, Pipeline.ownSems0_none]
    have hsplit := Pipeline.arrays_of_unscopedBufs (p := 4) (pcfgs (F := F)) (adm m) (pdats m) (launch4 (F := F)).win (launch4 (F := F)).arr_whole c
      ((pdats m 4 c).share_full fun _ => rfl) (atTc (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h4 := hin4 (atTc (W6 m)) c
    unfold Pipeline.ΦA at h4
    rw [show (pdats m 4 c).Φ 0 = (dat4 (atTc (W6 m)) c).Φ 0 from rfl]
    iintro ⟨Hp, -, Hr⟩
    iapply h4
    isplitl [Hr]; · iexact Hr
    iexact Hp
  hout c := by
    have h4 := hout4 (atTc (W6 m)) c
    unfold Pipeline.ΦA at h4
    rw [Pipeline.ownSems0_none, show (pdats m 4 c).Φ (Fin.last _) = (dat4 (atTc (W6 m)) c).Φ (Fin.last cfg4.N) from rfl]
    iintro H
    ihave H' := h4 $$ H
    icases H' with ⟨Hr, Hp⟩
    isplitl [Hp]; · iexact Hp
    isplitr; · iempintro
    iexact Hr
  hexit c := by
    rw [V7_eq]
    have hjoin := Pipeline.unscopedBufs_of_arrays (p := 4) (pcfgs (F := F)) (adm m) (Ix := Unit) (Name := ℕ) (U := UR sig nD τ) (Lvl := ℕ)
      (launch4 (F := F)).win (launch4 (F := F)).arr_whole c (pdats m) ((pdats m 4 c).share_full fun _ => rfl)
      (atTc (W6 m) c) (atTc (W7 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch deals a core — its unscoped semaphores at zero, nothing owed, its launch credit, its generator
    register — is the rest every segment carries. -/
theorem init_rest (c : Dev nD) :
    iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))
      ⊢ (Rst c : sProp 𝕄) := by
  iintro ⟨-, HO, -, Hp, -⟩
  isplitl [Hp]; · iexists _; iexact Hp
  iexists ∅; iexact HO

set_option backward.isDefEq.respectTransparency.types false in
/-- Every weakly fair execution of the program from memory m with zero counters terminates, nothing faulting; the
    result buffer ends at the reshape of what the output projection leaves, and every argument as launched. -/
theorem run_main : θ_run defs (onTc (τ := τ) (main (F := F))) ⟨m, fun _ => 0, ρ⟩ (fun r => ∀ c : Dev nD,
      r.2.mem ((c.tc : Thread nD τ).loc main_v21) = W8 m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := run_cond m (emb₁ (sig := sig) (nD := nD) (τ := τ)) () 𝒱₀ L lv (fun _ _ => rfl) ρ (outs m) (adm m) (pdats m)
    (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => (Rst c : sProp 𝕄))) := bigSep_mono fun c _ => init_rest ρ c
      iintro ⟨H, -⟩
      imodintro
      ihave H' := hm $$ H
      iexact H')
    (hE5 := fun c => by iintro ⟨-, H⟩; iexact H)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
  refine (θ_run defs _ _).mono (fun r hr c => ?_) h
  have := hr c
  rw [V8_eq] at this
  exact this

/-- The frame: the program runs and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Region

end
-- ==== Proof.Spec.lean ====
/-
  Multi-head attention with a key-length mask, as two arrangements of one computation over the extended reals.

  Activations X are [2, 2048, 1024] (batch b, position s, model coordinate d), weights W are [1024, 1024], a model
  coordinate splits as d = 64 h + e into a head h < 16 and a head coordinate e < 64. A projection to heads is
  (X W)[b, s, 64 h + e], the scores of a head are the inner products of a query row and a key row over e, a key
  position j at or past the batch's valid length is replaced by the constant -10^6, each row of scores goes through
  exp (x - row maximum), and the outcome is contracted with the values and with the output weights.

  The two arrangements differ in three places: the scores are scaled by the constant 1/8 or divided by sqrt 64; the
  exponentials are divided by their row sum after or before the contraction with the values; and the last
  contraction over the 1024 model coordinates is one sum or a sum over heads of sums over head coordinates.
-/
import Idealize.ShloMosaic.PureOps.Ideal
import Idealize.ShloMosaic.Lib.ValueIdx

noncomputable section

open scoped BigOperators

namespace Cert.Spec

open Idealize.ShloMosaic

/-- Activations [batch, position, model coordinate]. -/
abbrev Act : Type := Fin 2 → Fin 2048 → Fin 1024 → EReal
/-- Weights [model coordinate in, model coordinate out]. -/
abbrev Wt : Type := Fin 1024 → Fin 1024 → EReal
/-- Head-major arrays [batch, head, position, head coordinate]. -/
abbrev Heads : Type := Fin 2 → Fin 16 → Fin 2048 → Fin 64 → EReal
/-- Score arrays [batch, head, query position, key position]. -/
abbrev Scores : Type := Fin 2 → Fin 16 → Fin 2048 → Fin 2048 → EReal
/-- The valid key lengths, one 32-bit word per batch. -/
abbrev Lens : Type := Fin 2 → BitVec 32

/-- The model coordinate of head h and head coordinate e. -/
def hd (h : Fin 16) (e : Fin 64) : Fin 1024 := ⟨h.val * 64 + e.val, by have := h.isLt; have := e.isLt; omega⟩

/-- The projection X W, read head-major. -/
def proj (X : Act) (W : Wt) : Heads := fun b h s e => ∑ d : Fin 1024, X b s d * W d (hd h e)

/-- The inner products of query rows and key rows. -/
def dots (q k : Heads) : Scores := fun b h i j => ∑ e : Fin 64, q b h i e * k b h j e

/-- The masking constant -10^6, the scale 1/8 and the number 64, as the float words the programs carry. -/
def negBig : EReal := Ideal.ofBits .f32 0xC9742400#32
def eighth : EReal := Ideal.ofBits .f32 0x3E000000#32
def sixtyFour : EReal := Ideal.ofBits .f32 0x42800000#32

/-- Key position j is kept in batch b when j is below the batch's valid length, compared as signed 32-bit words. -/
def keep (vl : Lens) (b : Fin 2) (j : Fin 2048) : BitVec 1 := IntOp.cmpi .slt (BitVec.ofNat 32 j.val) (vl b)

/-- Masked scores, scaled by the constant 1/8. -/
def maskMul (vl : Lens) (d : Scores) : Scores := fun b h i j => Scalar.select (keep vl b j) (d b h i j * eighth) negBig
/-- Masked scores, divided by the square root of 64. -/
def maskDiv (vl : Lens) (d : Scores) : Scores :=
  fun b h i j => Scalar.select (keep vl b j) (Ideal.div (d b h i j) (Ideal.sqrt sixtyFour)) negBig

/-- A row's maximum, folded from the bottom element. -/
def rowMax (s : Scores) (b : Fin 2) (h : Fin 16) (i : Fin 2048) : EReal :=
  (Finset.univ : Finset (Fin 2048)).fold max ⊥ (fun j => s b h i j)
/-- exp (score - row maximum). -/
def expo (s : Scores) : Scores := fun b h i j => Ideal.exp (s b h i j - rowMax s b h i)
/-- A row's sum of exponentials. -/
def denom (s : Scores) (b : Fin 2) (h : Fin 16) (i : Fin 2048) : EReal := ∑ j : Fin 2048, expo s b h i j

/-- The exponentials contracted with the values, THEN divided by the row sum. -/
def attAfter (s : Scores) (v : Heads) : Heads :=
  fun b h i e => Ideal.div (∑ j : Fin 2048, expo s b h i j * v b h j e) (denom s b h i)
/-- The exponentials divided by the row sum, THEN contracted with the values. -/
def attBefore (s : Scores) (v : Heads) : Heads :=
  fun b h i e => ∑ j : Fin 2048, Ideal.div (expo s b h i j) (denom s b h i) * v b h j e

/-- The output projection as a sum over heads of sums over head coordinates. -/
def outHeads (a : Heads) (Wo : Wt) : Act := fun b s n => ∑ h : Fin 16, ∑ e : Fin 64, a b h s e * Wo (hd h e) n
/-- The output projection as one sum over the model coordinates. -/
def outFlat (a : Heads) (Wo : Wt) : Act :=
  fun b s n => ∑ d : Fin 1024, a b ⟨d.val / 64, by have := d.isLt; omega⟩ s ⟨d.val % 64, Nat.mod_lt _ (by decide)⟩ * Wo d n

/-- The first arrangement: scale by 1/8, divide after, sum by heads. -/
def attnMul (Xq Xk Xv : Act) (Wq Wk Wv Wo : Wt) (vl : Lens) : Act :=
  outHeads (attAfter (maskMul vl (dots (proj Xq Wq) (proj Xk Wk))) (proj Xv Wv)) Wo
/-- The second arrangement: divide by sqrt 64, divide before, one flat sum. -/
def attnDiv (Xq Xk Xv : Act) (Wq Wk Wv Wo : Wt) (vl : Lens) : Act :=
  outFlat (attBefore (maskDiv vl (dots (proj Xq Wq) (proj Xk Wk))) (proj Xv Wv)) Wo

/-- An extended real that is a real number. -/
def IsReal (x : EReal) : Prop := ∃ r : ℝ, x = (r : EReal)

/-- Rank-3 and rank-2 arrays and the lengths read by coordinates. -/
def act3 (x : (⟨3, ![2, 2048, 1024]⟩ : Shape).Idx → EReal) : Act := fun b s d => x (ValueIdx.ix3 b s d)
def wt2 (w : (⟨2, ![1024, 1024]⟩ : Shape).Idx → EReal) : Wt := fun i j => w (ValueIdx.ix2 i j)
def lens1 (v : (⟨1, ![2]⟩ : Shape).Idx → BitVec 32) : Lens := fun b => v (ValueIdx.ix1 b)
/-- An array from its entries by coordinates. -/
def toArr (a : Act) : (⟨3, ![2, 2048, 1024]⟩ : Shape).Idx → EReal :=
  fun i => a ⟨(i 0).val, (i 0).isLt⟩ ⟨(i 1).val, (i 1).isLt⟩ ⟨(i 2).val, (i 2).isLt⟩

end Cert.Spec

end
-- ==== Proof.Flat.lean ====
/-
  Head-major arrays as the launches hold them, against the specification's coordinates.

  The launches keep the projected queries, keys, values and the attention result as [32, 2048, 64] arrays whose first
  coordinate is the head-batch index n = 16 b + h, the activations as [4096, 1024] arrays whose row is
  2048 b + s, and the weights head-major. These are the re-indexings between those layouts and the
  specification's (batch, head, position, head coordinate).
-/
import proofs.«418068_j5952824673153_2_alg».proof.Proof.Spec

noncomputable section

namespace Cert.Flat

open Idealize.ShloMosaic Idealize.ShloMosaic.ValueIdx Cert.Spec

/-- The head-batch index of batch b and head h. -/
def hb (b : Fin 2) (h : Fin 16) : Fin 32 := ⟨b.val * 16 + h.val, by have := b.isLt; have := h.isLt; omega⟩
/-- The flat row of batch b and position s. -/
def row (b : Fin 2) (s : Fin 2048) : Fin 4096 := ⟨b.val * 2048 + s.val, by have := b.isLt; have := s.isLt; omega⟩

/-- A head-major array from its entries by (batch, head, position, head coordinate). -/
def flatHeads (H : Heads) : (⟨3, ![32, 2048, 64]⟩ : Shape).Idx → EReal :=
  fun i => H ⟨(i 0).val / 16, by have h : (i 0).val < 32 := (i 0).isLt; omega⟩ ⟨(i 0).val % 16, Nat.mod_lt _ (by decide)⟩
    ⟨(i 1).val, (i 1).isLt⟩ ⟨(i 2).val, (i 2).isLt⟩

theorem flatHeads_apply (H : Heads) (b : Fin 2) (h : Fin 16) (s : Fin 2048) (e : Fin 64) :
    flatHeads H (ix3 (hb b h) s e) = H b h s e := by
  have hh := h.isLt
  have hbb := b.isLt
  have e1 : (⟨(b.val * 16 + h.val) / 16, by omega⟩ : Fin 2) = b := Fin.ext (by show (b.val * 16 + h.val) / 16 = b.val; omega)
  have e2 : (⟨(b.val * 16 + h.val) % 16, Nat.mod_lt _ (by decide)⟩ : Fin 16) = h :=
    Fin.ext (by show (b.val * 16 + h.val) % 16 = h.val; omega)
  show H ⟨(b.val * 16 + h.val) / 16, _⟩ ⟨(b.val * 16 + h.val) % 16, _⟩ ⟨s.val, _⟩ ⟨e.val, _⟩ = H b h s e
  rw [e1, e2]

/-- A [4096, 1024] array from its entries by (batch, position, model coordinate). -/
def flatRows (A : Act) : (⟨2, ![4096, 1024]⟩ : Shape).Idx → EReal :=
  fun i => A ⟨(i 0).val / 2048, by have h : (i 0).val < 4096 := (i 0).isLt; omega⟩ ⟨(i 0).val % 2048, Nat.mod_lt _ (by decide)⟩ ⟨(i 1).val, (i 1).isLt⟩

theorem flatRows_apply (A : Act) (b : Fin 2) (s : Fin 2048) (d : Fin 1024) : flatRows A (ix2 (row b s) d) = A b s d := by
  have hs := s.isLt
  have hbb := b.isLt
  have e1 : (⟨(b.val * 2048 + s.val) / 2048, by omega⟩ : Fin 2) = b := Fin.ext (by show (b.val * 2048 + s.val) / 2048 = b.val; omega)
  have e2 : (⟨(b.val * 2048 + s.val) % 2048, Nat.mod_lt _ (by decide)⟩ : Fin 2048) = s :=
    Fin.ext (by show (b.val * 2048 + s.val) % 2048 = s.val; omega)
  show A ⟨(b.val * 2048 + s.val) / 2048, _⟩ ⟨(b.val * 2048 + s.val) % 2048, _⟩ ⟨d.val, _⟩ = A b s d
  rw [e1, e2]

/-- Every head-batch index is 16 b + h, every flat row 2048 b + s. -/
theorem exists_hb (n : Fin 32) : ∃ b h, n = hb b h :=
  ⟨⟨n.val / 16, by have := n.isLt; omega⟩, ⟨n.val % 16, Nat.mod_lt _ (by decide)⟩, Fin.ext (by show n.val = n.val / 16 * 16 + n.val % 16; omega)⟩
theorem exists_row (r : Fin 4096) : ∃ b s, r = row b s :=
  ⟨⟨r.val / 2048, by have := r.isLt; omega⟩, ⟨r.val % 2048, Nat.mod_lt _ (by decide)⟩, Fin.ext (by show r.val = r.val / 2048 * 2048 + r.val % 2048; omega)⟩

end Cert.Flat

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.ProjValue0.lean ====
/-
  A projection launch, read as one array.

  At the exact values a narrowing of the format changes nothing, so what a grid point (b, h) stores is the plain
  matrix product of the 2048 by 1024 activation block of batch b with head h's 1024 by 64 weight slice: entry
  (s, e) of the stored block is the sum over the model coordinate d of X b s d * W d (64 h + e). The stored block
  is block 16 b + h of the head-major result, the 32 blocks tile that array, and so after the last point the array
  is the projection X W laid out head-major.
-/
import proofs.«418068_j5952824673153_2_alg».proof.Proof.ProjRegion0
import proofs.«418068_j5952824673153_2_alg».proof.Proof.Flat
import proofs.«418068_j5952824673153_2_alg».proof.Proof.LibPlainDot
import Idealize.ShloMosaic.Lib.Pipeline.Value
import Idealize.ShloMosaic.Lib.ValueLayout
import Idealize.ShloMosaic.Lib.ValueIdx
import Idealize.ShloMosaic.PureOps.Ideal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The stored block at (u, s, e): row s of the activation block against column e of the weight slice. -/
theorem payload0_apply (xa : Vec Ideal S2048x1024 .f32) (xw : Vec Ideal S1x1024x64 .bf16) (u : Fin 1) (s : Fin 2048) (e : Fin 64) :
    (k0_pay1 (F := Ideal) xa xw : S1x2048x64.Idx → EReal) (ValueIdx.ix3 u s e)
      = ∑ d : Fin 1024, (xa (ValueIdx.ix2 s d) : EReal) * (xw (ValueIdx.ix3 (0 : Fin 1) d e) : EReal) := by
  unfold k0_pay1
  refine (shapeCast_ab_1ab_apply _ _ u s e).trans ?_
  refine (PlainDot.matmul_zero_apply dot_S2048x1024_S1024x64_S2048x64_1_0_0_1_n_n rfl rfl rfl rfl rfl rfl rfl rfl none _ _ s e).trans ?_
  refine Finset.sum_congr rfl fun d _ => ?_
  refine congrArg₂ (· * ·) ?_ ?_
  · exact congrFun (shapeCast_self xa _) (ValueIdx.ix2 s d)
  · exact shapeCast_1ab_ab_apply xw _ d e

/-! ## From the blocks to the array -/

theorem zero_offsets0_2 : (![0, 0] : Fin 2 → Nat) = fun _ => 0 :=
  funext fun a => match a with | ⟨0, _⟩ => rfl | ⟨1, _⟩ => rfl
theorem zero_offsets0_3 : (![0, 0, 0] : Fin 3 → Nat) = fun _ => 0 :=
  funext fun a => match a with | ⟨0, _⟩ => rfl | ⟨1, _⟩ => rfl | ⟨2, _⟩ => rfl

/-- The block indices at grid point t = 16 b + h: the activation block is batch b = t / 16, the weight block is
    head h = t % 16, the result block is t itself; every other block index is zero. -/
theorem block_index0 : ∀ t : Fin cfg0.N,
    win0_0.index t (0 : Fin 2) = t.val / 16 ∧ win0_0.index t (1 : Fin 2) = 0
    ∧ win0_1.index t (0 : Fin 3) = t.val % 16 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

section
variable (V : (c : Dev nD) → (b : Ref sig .tc) → Buf (Elt Ideal) ((c : Thread nD τ).loc b))

/-- The two input arrays as the launch finds them, and the two blocks a point is handed, at their literal shapes. -/
abbrev actArr0 (c : Dev nD) : S4096x1024.Idx → EReal := V c (Pipeline.arrRef spec0 0)
abbrev wtArr0 (c : Dev nD) : S16x1024x64.Idx → EReal := V c (Pipeline.arrRef spec0 1)
abbrev actBlk0 (c : Dev nD) (t : Fin cfg0.N) : Vec Ideal S2048x1024 .f32 := iblk0 (F := Ideal) V c 0 t
abbrev wtBlk0 (c : Dev nD) (t : Fin cfg0.N) : Vec Ideal S1x1024x64 .bf16 := iblk0 (F := Ideal) V c 1 t

/-- Row s of the activation block at point t is row 2048 (t / 16) + s of the flat activations. -/
theorem actBlk0_apply (c : Dev nD) (t : Fin cfg0.N) (s : Fin 2048) (d : Fin 1024) (r : Fin 4096)
    (hr : r.val = t.val / 16 * 2048 + s.val) :
    actBlk0 V c t (ValueIdx.ix2 s d) = actArr0 V c (ValueIdx.ix2 r d) := by
  obtain ⟨ea, eb, -⟩ := block_index0 t
  show ((cfg0.win 0).blk t).view.read (Elt Ideal) (V c (Pipeline.arrRef spec0 0)) (ValueIdx.ix2 s d) = _
  rw [View.read_apply]
  show V c (Pipeline.arrRef spec0 0) _ = V c (Pipeline.arrRef spec0 0) _
  congr 1
  funext a
  apply Fin.ext
  match a with
  | ⟨0, _⟩ => show win0_0.index t (0 : Fin 2) * 2048 + 1 * s.val = r.val; rw [ea, hr]; omega
  | ⟨1, _⟩ => show win0_0.index t (1 : Fin 2) * 1024 + 1 * d.val = d.val; rw [eb]; omega

/-- The weight block at point t is head t % 16 of the head-major weight. -/
theorem wtBlk0_apply (c : Dev nD) (t : Fin cfg0.N) (d : Fin 1024) (e : Fin 64) (h : Fin 16) (hh : h.val = t.val % 16) :
    wtBlk0 V c t (ValueIdx.ix3 (0 : Fin 1) d e) = wtArr0 V c (ValueIdx.ix3 h d e) := by
  obtain ⟨-, -, ea, eb, ec, -⟩ := block_index0 t
  show ((cfg0.win 1).blk t).view.read (Elt Ideal) (V c (Pipeline.arrRef spec0 1)) (ValueIdx.ix3 (0 : Fin 1) d e) = _
  rw [View.read_apply]
  show V c (Pipeline.arrRef spec0 1) _ = V c (Pipeline.arrRef spec0 1) _
  congr 1
  funext a
  apply Fin.ext
  match a with
  | ⟨0, _⟩ => show win0_1.index t (0 : Fin 3) * 1 + 1 * 0 = h.val; rw [ea, hh]; omega
  | ⟨1, _⟩ => show win0_1.index t (1 : Fin 3) * 1024 + 1 * d.val = d.val; rw [eb]; omega
  | ⟨2, _⟩ => show win0_1.index t (2 : Fin 3) * 64 + 1 * e.val = e.val; rw [ec]; omega

end

/-- The stored block at any of its indices, the coordinates read off the index. -/
theorem payload0_at (xa : Vec Ideal S2048x1024 .f32) (xw : Vec Ideal S1x1024x64 .bf16) (j : S1x2048x64.Idx) :
    (k0_pay1 (F := Ideal) xa xw : S1x2048x64.Idx → EReal) j
      = ∑ d : Fin 1024, (xa (ValueIdx.ix2 ⟨(j 1).val, (j 1).isLt⟩ d) : EReal) * (xw (ValueIdx.ix3 (0 : Fin 1) d ⟨(j 2).val, (j 2).isLt⟩) : EReal) :=
  (congrArg (k0_pay1 (F := Ideal) xa xw) (ValueIdx.eq_ix3 j)).trans (payload0_apply xa xw (j 0) (j 1) (j 2))

section
variable (V : (c : Dev nD) → (b : Ref sig .tc) → Buf (Elt Ideal) ((c : Thread nD τ).loc b))

/-- Entry j of what point t stores is the head-major projection at the index i whose head-batch coordinate is t and
    whose other two coordinates are j's: with b = t / 16 and h = t % 16 both are the sum over d of
    X b s d * W d (64 h + e). -/
theorem stored0_at (c : Dev nD) (X : Cert.Spec.Act) (W : Cert.Spec.Wt)
    (hx : (V c (Pipeline.arrRef spec0 0) : S4096x1024.Idx → EReal) = Cert.Flat.flatRows X)
    (hw : ∀ (h : Fin 16) (d : Fin 1024) (e : Fin 64),
      (V c (Pipeline.arrRef spec0 1) : S16x1024x64.Idx → EReal) (ValueIdx.ix3 h d e) = W d (Cert.Spec.hd h e))
    (t : Fin cfg0.N) (j : S1x2048x64.Idx) (i : S32x2048x64.Idx)
    (hia : (i 0).val = t.val) (hib : (i 1).val = (j 1).val) (hic : (i 2).val = (j 2).val) :
    (k0_pay1 (F := Ideal) (actBlk0 V c t) (wtBlk0 V c t) : S1x2048x64.Idx → EReal) j
      = Cert.Flat.flatHeads (Cert.Spec.proj X W) i := by
  have ht : t.val < 32 := t.isLt
  obtain ⟨b, hbv⟩ : ∃ b : Fin 2, b.val = t.val / 16 := ⟨⟨t.val / 16, by omega⟩, rfl⟩
  obtain ⟨h, hh⟩ : ∃ h : Fin 16, h.val = t.val % 16 := ⟨⟨t.val % 16, by omega⟩, rfl⟩
  obtain ⟨s, hs⟩ : ∃ s : Fin 2048, s = ⟨(j 1).val, (j 1).isLt⟩ := ⟨_, rfl⟩
  obtain ⟨e, he⟩ : ∃ e : Fin 64, e = ⟨(j 2).val, (j 2).isLt⟩ := ⟨_, rfl⟩
  have hi : i = ValueIdx.ix3 (Cert.Flat.hb b h) s e := funext fun a => Fin.ext (by
    match a with
    | ⟨0, _⟩ => show (i 0).val = b.val * 16 + h.val; omega
    | ⟨1, _⟩ => show (i 1).val = s.val; rw [hs]; exact hib
    | ⟨2, _⟩ => show (i 2).val = e.val; rw [he]; exact hic)
  rw [hi, Cert.Flat.flatHeads_apply]
  refine (payload0_at _ _ j).trans ?_
  rw [← hs, ← he]
  unfold Cert.Spec.proj
  refine Finset.sum_congr rfl fun d _ => ?_
  refine congrArg₂ (· * ·) ?_ ?_
  · exact (actBlk0_apply V c t s d (Cert.Flat.row b s) (by show b.val * 2048 + s.val = _; rw [hbv])).trans
      ((congrFun hx _).trans (Cert.Flat.flatRows_apply X b s d))
  · exact (wtBlk0_apply V c t d e h hh).trans (hw h d e)

/-- What point t writes back is block t of the head-major projection. -/
theorem flushed0_eq (c : Dev nD) (X : Cert.Spec.Act) (W : Cert.Spec.Wt)
    (hx : (V c (Pipeline.arrRef spec0 0) : S4096x1024.Idx → EReal) = Cert.Flat.flatRows X)
    (hw : ∀ (h : Fin 16) (d : Fin 1024) (e : Fin 64),
      (V c (Pipeline.arrRef spec0 1) : S16x1024x64.Idx → EReal) (ValueIdx.ix3 h d e) = W d (Cert.Spec.hd h e))
    (t : Fin cfg0.N) :
    (dat0 (F := Ideal) V c).flushed 2 t
      = ((cfg0.win 2).blk t).view.read (Elt Ideal) (Cert.Flat.flatHeads (Cert.Spec.proj X W)) := by
  show (cfg0.win 2).cut (grid0.coords t) ((dat0 (F := Ideal) V c).after 2 t) = _
  rw [after0_2]
  unfold out0_2
  rw [View.canon_unit_zero zero_offsets0_3]
  simp only [View.ld_unit_zero (S := S2048x1024) zero_offsets0_2, View.ld_unit_zero (S := S1x1024x64) zero_offsets0_3]
  obtain ⟨-, -, -, -, -, ea, eb, ec⟩ := block_index0 t
  funext j
  show _ = Cert.Flat.flatHeads (Cert.Spec.proj X W) (((cfg0.win 2).blk t).view.emb j)
  refine stored0_at V c X W hx hw t j (((cfg0.win 2).blk t).view.emb j) ?_ ?_ ?_
  · show win0_2.index t (0 : Fin 3) * 1 + 1 * (j 0).val = t.val
    have hj : (j 0).val < 1 := (j 0).isLt
    rw [ea]; omega
  · show win0_2.index t (1 : Fin 3) * 2048 + 1 * (j 1).val = (j 1).val
    rw [eb]; omega
  · show win0_2.index t (2 : Fin 3) * 64 + 1 * (j 2).val = (j 2).val
    rw [ec]; omega

end

/-- An index of the result array is in point t's block iff each coordinate is in the block's range on its axis. -/
theorem mem_blk0 (t : Fin cfg0.N) (i : S32x2048x64.Idx) :
    i ∈ ((cfg0.win 2).blk t).view.set ↔ ∀ a : Fin 3, win0_2.index t a * S1x2048x64.size a ≤ (i a).val
      ∧ (i a).val < win0_2.index t a * S1x2048x64.size a + S1x2048x64.size a := by
  show i ∈ ((View.whole (Pipeline.arrRef spec0 2)).slice (win0_2.rect t)).set ↔ _
  rw [View.set_slice_whole, Rect.mem_set_unit]
  exact Iff.rfl

/-- The 32 result blocks tile the head-major array: the index with head-batch coordinate n lies in the block of point n. -/
theorem cover0 (i : S32x2048x64.Idx) :
    ∃ t : Fin cfg0.N, (cfg0.win 2).flush t = true ∧ i ∈ ((cfg0.win 2).blk t).view.set := by
  have hla : (i 0).val < 32 := (i 0).isLt
  have hlb : (i 1).val < 2048 := (i 1).isLt
  have hlc : (i 2).val < 64 := (i 2).isLt
  obtain ⟨t, ht⟩ : ∃ t : Fin cfg0.N, t.val = (i 0).val := ⟨⟨(i 0).val, hla⟩, rfl⟩
  obtain ⟨-, -, -, -, -, ea, eb, ec⟩ := block_index0 t
  refine ⟨t, flush0_2 t, ?_⟩
  rw [mem_blk0]
  intro a
  match a with
  | ⟨0, _⟩ =>
    show win0_2.index t (0 : Fin 3) * 1 ≤ (i 0).val ∧ (i 0).val < win0_2.index t (0 : Fin 3) * 1 + 1
    rw [ea]; omega
  | ⟨1, _⟩ =>
    show win0_2.index t (1 : Fin 3) * 2048 ≤ (i 1).val ∧ (i 1).val < win0_2.index t (1 : Fin 3) * 2048 + 2048
    rw [eb]; omega
  | ⟨2, _⟩ =>
    show win0_2.index t (2 : Fin 3) * 64 ≤ (i 2).val ∧ (i 2).val < win0_2.index t (2 : Fin 3) * 64 + 64
    rw [ec]; omega

section
variable (V : (c : Dev nD) → (b : Ref sig .tc) → Buf (Elt Ideal) ((c : Thread nD τ).loc b))

/-- After the last point the result array is the projection X W, head-major: entry (16 b + h, s, e) is the sum over
    the model coordinate d of X b s d * W d (64 h + e). -/
theorem proj_value0 (c : Dev nD)
    (X : Cert.Spec.Act) (W : Cert.Spec.Wt)
    (hx : (V c (Pipeline.arrRef spec0 0) : S4096x1024.Idx → EReal) = Cert.Flat.flatRows X)
    (hw : ∀ (h : Fin 16) (d : Fin 1024) (e : Fin 64),
      (V c (Pipeline.arrRef spec0 1) : S16x1024x64.Idx → EReal) (ValueIdx.ix3 h d e) = W d (Cert.Spec.hd h e)) :
    ((dat0 (F := Ideal) V c).arrAt 2 cfg0.N : S32x2048x64.Idx → EReal) = Cert.Flat.flatHeads (Cert.Spec.proj X W) :=
  (dat0 (F := Ideal) V c).arrAt_eq_of_cover 2 (Cert.Flat.flatHeads (Cert.Spec.proj X W))
    (fun t _ => flushed0_eq V c X W hx hw t) cover0

end

end Cert.KernelIdeal.Region

end
-- ==== Proof.ProjValue1.lean ====
/-
  A projection launch, read as one array.

  At the exact values a narrowing of the format changes nothing, so what a grid point (b, h) stores is the plain
  matrix product of the 2048 by 1024 activation block of batch b with head h's 1024 by 64 weight slice: entry
  (s, e) of the stored block is the sum over the model coordinate d of X b s d * W d (64 h + e). The stored block
  is block 16 b + h of the head-major result, the 32 blocks tile that array, and so after the last point the array
  is the projection X W laid out head-major.
-/
import proofs.«418068_j5952824673153_2_alg».proof.Proof.ProjRegion1
import proofs.«418068_j5952824673153_2_alg».proof.Proof.Flat
import proofs.«418068_j5952824673153_2_alg».proof.Proof.LibPlainDot
import Idealize.ShloMosaic.Lib.Pipeline.Value
import Idealize.ShloMosaic.Lib.ValueLayout
import Idealize.ShloMosaic.Lib.ValueIdx
import Idealize.ShloMosaic.PureOps.Ideal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The stored block at (u, s, e): row s of the activation block against column e of the weight slice. -/
theorem payload1_apply (xa : Vec Ideal S2048x1024 .f32) (xw : Vec Ideal S1x1024x64 .bf16) (u : Fin 1) (s : Fin 2048) (e : Fin 64) :
    (k1_pay1 (F := Ideal) xa xw : S1x2048x64.Idx → EReal) (ValueIdx.ix3 u s e)
      = ∑ d : Fin 1024, (xa (ValueIdx.ix2 s d) : EReal) * (xw (ValueIdx.ix3 (0 : Fin 1) d e) : EReal) := by
  unfold k1_pay1
  refine (shapeCast_ab_1ab_apply _ _ u s e).trans ?_
  refine (PlainDot.matmul_zero_apply dot_S2048x1024_S1024x64_S2048x64_1_0_0_1_n_n rfl rfl rfl rfl rfl rfl rfl rfl none _ _ s e).trans ?_
  refine Finset.sum_congr rfl fun d _ => ?_
  refine congrArg₂ (· * ·) ?_ ?_
  · exact congrFun (shapeCast_self xa _) (ValueIdx.ix2 s d)
  · exact shapeCast_1ab_ab_apply xw _ d e

/-! ## From the blocks to the array -/

theorem zero_offsets1_2 : (![0, 0] : Fin 2 → Nat) = fun _ => 0 :=
  funext fun a => match a with | ⟨0, _⟩ => rfl | ⟨1, _⟩ => rfl
theorem zero_offsets1_3 : (![0, 0, 0] : Fin 3 → Nat) = fun _ => 0 :=
  funext fun a => match a with | ⟨0, _⟩ => rfl | ⟨1, _⟩ => rfl | ⟨2, _⟩ => rfl

/-- The block indices at grid point t = 16 b + h: the activation block is batch b = t / 16, the weight block is
    head h = t % 16, the result block is t itself; every other block index is zero. -/
theorem block_index1 : ∀ t : Fin cfg1.N,
    win1_0.index t (0 : Fin 2) = t.val / 16 ∧ win1_0.index t (1 : Fin 2) = 0
    ∧ win1_1.index t (0 : Fin 3) = t.val % 16 ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

section
variable (V : (c : Dev nD) → (b : Ref sig .tc) → Buf (Elt Ideal) ((c : Thread nD τ).loc b))

/-- The two input arrays as the launch finds them, and the two blocks a point is handed, at their literal shapes. -/
abbrev actArr1 (c : Dev nD) : S4096x1024.Idx → EReal := V c (Pipeline.arrRef spec1 0)
abbrev wtArr1 (c : Dev nD) : S16x1024x64.Idx → EReal := V c (Pipeline.arrRef spec1 1)
abbrev actBlk1 (c : Dev nD) (t : Fin cfg1.N) : Vec Ideal S2048x1024 .f32 := iblk1 (F := Ideal) V c 0 t
abbrev wtBlk1 (c : Dev nD) (t : Fin cfg1.N) : Vec Ideal S1x1024x64 .bf16 := iblk1 (F := Ideal) V c 1 t

/-- Row s of the activation block at point t is row 2048 (t / 16) + s of the flat activations. -/
theorem actBlk1_apply (c : Dev nD) (t : Fin cfg1.N) (s : Fin 2048) (d : Fin 1024) (r : Fin 4096)
    (hr : r.val = t.val / 16 * 2048 + s.val) :
    actBlk1 V c t (ValueIdx.ix2 s d) = actArr1 V c (ValueIdx.ix2 r d) := by
  obtain ⟨ea, eb, -⟩ := block_index1 t
  show ((cfg1.win 0).blk t).view.read (Elt Ideal) (V c (Pipeline.arrRef spec1 0)) (ValueIdx.ix2 s d) = _
  rw [View.read_apply]
  show V c (Pipeline.arrRef spec1 0) _ = V c (Pipeline.arrRef spec1 0) _
  congr 1
  funext a
  apply Fin.ext
  match a with
  | ⟨0, _⟩ => show win1_0.index t (0 : Fin 2) * 2048 + 1 * s.val = r.val; rw [ea, hr]; omega
  | ⟨1, _⟩ => show win1_0.index t (1 : Fin 2) * 1024 + 1 * d.val = d.val; rw [eb]; omega

/-- The weight block at point t is head t % 16 of the head-major weight. -/
theorem wtBlk1_apply (c : Dev nD) (t : Fin cfg1.N) (d : Fin 1024) (e : Fin 64) (h : Fin 16) (hh : h.val = t.val % 16) :
    wtBlk1 V c t (ValueIdx.ix3 (0 : Fin 1) d e) = wtArr1 V c (ValueIdx.ix3 h d e) := by
  obtain ⟨-, -, ea, eb, ec, -⟩ := block_index1 t
  show ((cfg1.win 1).blk t).view.read (Elt Ideal) (V c (Pipeline.arrRef spec1 1)) (ValueIdx.ix3 (0 : Fin 1) d e) = _
  rw [View.read_apply]
  show V c (Pipeline.arrRef spec1 1) _ = V c (Pipeline.arrRef spec1 1) _
  congr 1
  funext a
  apply Fin.ext
  match a with
  | ⟨0, _⟩ => show win1_1.index t (0 : Fin 3) * 1 + 1 * 0 = h.val; rw [ea, hh]; omega
  | ⟨1, _⟩ => show win1_1.index t (1 : Fin 3) * 1024 + 1 * d.val = d.val; rw [eb]; omega
  | ⟨2, _⟩ => show win1_1.index t (2 : Fin 3) * 64 + 1 * e.val = e.val; rw [ec]; omega

end

/-- The stored block at any of its indices, the coordinates read off the index. -/
theorem payload1_at (xa : Vec Ideal S2048x1024 .f32) (xw : Vec Ideal S1x1024x64 .bf16) (j : S1x2048x64.Idx) :
    (k1_pay1 (F := Ideal) xa xw : S1x2048x64.Idx → EReal) j
      = ∑ d : Fin 1024, (xa (ValueIdx.ix2 ⟨(j 1).val, (j 1).isLt⟩ d) : EReal) * (xw (ValueIdx.ix3 (0 : Fin 1) d ⟨(j 2).val, (j 2).isLt⟩) : EReal) :=
  (congrArg (k1_pay1 (F := Ideal) xa xw) (ValueIdx.eq_ix3 j)).trans (payload1_apply xa xw (j 0) (j 1) (j 2))

section
variable (V : (c : Dev nD) → (b : Ref sig .tc) → Buf (Elt Ideal) ((c : Thread nD τ).loc b))

/-- Entry j of what point t stores is the head-major projection at the index i whose head-batch coordinate is t and
    whose other two coordinates are j's: with b = t / 16 and h = t % 16 both are the sum over d of
    X b s d * W d (64 h + e). -/
theorem stored1_at (c : Dev nD) (X : Cert.Spec.Act) (W : Cert.Spec.Wt)
    (hx : (V c (Pipeline.arrRef spec1 0) : S4096x1024.Idx → EReal) = Cert.Flat.flatRows X)
    (hw : ∀ (h : Fin 16) (d : Fin 1024) (e : Fin 64),
      (V c (Pipeline.arrRef spec1 1) : S16x1024x64.Idx → EReal) (ValueIdx.ix3 h d e) = W d (Cert.Spec.hd h e))
    (t : Fin cfg1.N) (j : S1x2048x64.Idx) (i : S32x2048x64.Idx)
    (hia : (i 0).val = t.val) (hib : (i 1).val = (j 1).val) (hic : (i 2).val = (j 2).val) :
    (k1_pay1 (F := Ideal) (actBlk1 V c t) (wtBlk1 V c t) : S1x2048x64.Idx → EReal) j
      = Cert.Flat.flatHeads (Cert.Spec.proj X W) i := by
  have ht : t.val < 32 := t.isLt
  obtain ⟨b, hbv⟩ : ∃ b : Fin 2, b.val = t.val / 16 := ⟨⟨t.val / 16, by omega⟩, rfl⟩
  obtain ⟨h, hh⟩ : ∃ h : Fin 16, h.val = t.val % 16 := ⟨⟨t.val % 16, by omega⟩, rfl⟩
  obtain ⟨s, hs⟩ : ∃ s : Fin 2048, s = ⟨(j 1).val, (j 1).isLt⟩ := ⟨_, rfl⟩
  obtain ⟨e, he⟩ : ∃ e : Fin 64, e = ⟨(j 2).val, (j 2).isLt⟩ := ⟨_, rfl⟩
  have hi : i = ValueIdx.ix3 (Cert.Flat.hb b h) s e := funext fun a => Fin.ext (by
    match a with
    | ⟨0, _⟩ => show (i 0).val = b.val * 16 + h.val; omega
    | ⟨1, _⟩ => show (i 1).val = s.val; rw [hs]; exact hib
    | ⟨2, _⟩ => show (i 2).val = e.val; rw [he]; exact hic)
  rw [hi, Cert.Flat.flatHeads_apply]
  refine (payload1_at _ _ j).trans ?_
  rw [← hs, ← he]
  unfold Cert.Spec.proj
  refine Finset.sum_congr rfl fun d _ => ?_
  refine congrArg₂ (· * ·) ?_ ?_
  · exact (actBlk1_apply V c t s d (Cert.Flat.row b s) (by show b.val * 2048 + s.val = _; rw [hbv])).trans
      ((congrFun hx _).trans (Cert.Flat.flatRows_apply X b s d))
  · exact (wtBlk1_apply V c t d e h hh).trans (hw h d e)

/-- What point t writes back is block t of the head-major projection. -/
theorem flushed1_eq (c : Dev nD) (X : Cert.Spec.Act) (W : Cert.Spec.Wt)
    (hx : (V c (Pipeline.arrRef spec1 0) : S4096x1024.Idx → EReal) = Cert.Flat.flatRows X)
    (hw : ∀ (h : Fin 16) (d : Fin 1024) (e : Fin 64),
      (V c (Pipeline.arrRef spec1 1) : S16x1024x64.Idx → EReal) (ValueIdx.ix3 h d e) = W d (Cert.Spec.hd h e))
    (t : Fin cfg1.N) :
    (dat1 (F := Ideal) V c).flushed 2 t
      = ((cfg1.win 2).blk t).view.read (Elt Ideal) (Cert.Flat.flatHeads (Cert.Spec.proj X W)) := by
  show (cfg1.win 2).cut (grid1.coords t) ((dat1 (F := Ideal) V c).after 2 t) = _
  rw [after1_2]
  unfold out1_2
  rw [View.canon_unit_zero zero_offsets1_3]
  simp only [View.ld_unit_zero (S := S2048x1024) zero_offsets1_2, View.ld_unit_zero (S := S1x1024x64) zero_offsets1_3]
  obtain ⟨-, -, -, -, -, ea, eb, ec⟩ := block_index1 t
  funext j
  show _ = Cert.Flat.flatHeads (Cert.Spec.proj X W) (((cfg1.win 2).blk t).view.emb j)
  refine stored1_at V c X W hx hw t j (((cfg1.win 2).blk t).view.emb j) ?_ ?_ ?_
  · show win1_2.index t (0 : Fin 3) * 1 + 1 * (j 0).val = t.val
    have hj : (j 0).val < 1 := (j 0).isLt
    rw [ea]; omega
  · show win1_2.index t (1 : Fin 3) * 2048 + 1 * (j 1).val = (j 1).val
    rw [eb]; omega
  · show win1_2.index t (2 : Fin 3) * 64 + 1 * (j 2).val = (j 2).val
    rw [ec]; omega

end

/-- An index of the result array is in point t's block iff each coordinate is in the block's range on its axis. -/
theorem mem_blk1 (t : Fin cfg1.N) (i : S32x2048x64.Idx) :
    i ∈ ((cfg1.win 2).blk t).view.set ↔ ∀ a : Fin 3, win1_2.index t a * S1x2048x64.size a ≤ (i a).val
      ∧ (i a).val < win1_2.index t a * S1x2048x64.size a + S1x2048x64.size a := by
  show i ∈ ((View.whole (Pipeline.arrRef spec1 2)).slice (win1_2.rect t)).set ↔ _
  rw [View.set_slice_whole, Rect.mem_set_unit]
  exact Iff.rfl

/-- The 32 result blocks tile the head-major array: the index with head-batch coordinate n lies in the block of point n. -/
theorem cover1 (i : S32x2048x64.Idx) :
    ∃ t : Fin cfg1.N, (cfg1.win 2).flush t = true ∧ i ∈ ((cfg1.win 2).blk t).view.set := by
  have hla : (i 0).val < 32 := (i 0).isLt
  have hlb : (i 1).val < 2048 := (i 1).isLt
  have hlc : (i 2).val < 64 := (i 2).isLt
  obtain ⟨t, ht⟩ : ∃ t : Fin cfg1.N, t.val = (i 0).val := ⟨⟨(i 0).val, hla⟩, rfl⟩
  obtain ⟨-, -, -, -, -, ea, eb, ec⟩ := block_index1 t
  refine ⟨t, flush1_2 t, ?_⟩
  rw [mem_blk1]
  intro a
  match a with
  | ⟨0, _⟩ =>
    show win1_2.index t (0 : Fin 3) * 1 ≤ (i 0).val ∧ (i 0).val < win1_2.index t (0 : Fin 3) * 1 + 1
    rw [ea]; omega
  | ⟨1, _⟩ =>
    show win1_2.index t (1 : Fin 3) * 2048 ≤ (i 1).val ∧ (i 1).val < win1_2.index t (1 : Fin 3) * 2048 + 2048
    rw [eb]; omega
  | ⟨2, _⟩ =>
    show win1_2.index t (2 : Fin 3) * 64 ≤ (i 2).val ∧ (i 2).val < win1_2.index t (2 : Fin 3) * 64 + 64
    rw [ec]; omega

section
variable (V : (c : Dev nD) → (b : Ref sig .tc) → Buf (Elt Ideal) ((c : Thread nD τ).loc b))

/-- After the last point the result array is the projection X W, head-major: entry (16 b + h, s, e) is the sum over
    the model coordinate d of X b s d * W d (64 h + e). -/
theorem proj_value1 (c : Dev nD)
    (X : Cert.Spec.Act) (W : Cert.Spec.Wt)
    (hx : (V c (Pipeline.arrRef spec1 0) : S4096x1024.Idx → EReal) = Cert.Flat.flatRows X)
    (hw : ∀ (h : Fin 16) (d : Fin 1024) (e : Fin 64),
      (V c (Pipeline.arrRef spec1 1) : S16x1024x64.Idx → EReal) (ValueIdx.ix3 h d e) = W d (Cert.Spec.hd h e)) :
    ((dat1 (F := Ideal) V c).arrAt 2 cfg1.N : S32x2048x64.Idx → EReal) = Cert.Flat.flatHeads (Cert.Spec.proj X W) :=
  (dat1 (F := Ideal) V c).arrAt_eq_of_cover 2 (Cert.Flat.flatHeads (Cert.Spec.proj X W))
    (fun t _ => flushed1_eq V c X W hx hw t) cover1

end

end Cert.KernelIdeal.Region

end
-- ==== Proof.ProjValue2.lean ====
/-
  A projection launch, read as one array.

  At the exact values a narrowing of the format changes nothing, so what a grid point (b, h) stores is the plain
  matrix product of the 2048 by 1024 activation block of batch b with head h's 1024 by 64 weight slice: entry
  (s, e) of the stored block is the sum over the model coordinate d of X b s d * W d (64 h + e). The stored block
  is block 16 b + h of the head-major result, the 32 blocks tile that array, and so after the last point the array
  is the projection X W laid out head-major.
-/
import proofs.«418068_j5952824673153_2_alg».proof.Proof.ProjRegion2
import proofs.«418068_j5952824673153_2_alg».proof.Proof.Flat
import proofs.«418068_j5952824673153_2_alg».proof.Proof.LibPlainDot
import Idealize.ShloMosaic.Lib.Pipeline.Value
import Idealize.ShloMosaic.Lib.ValueLayout
import Idealize.ShloMosaic.Lib.ValueIdx
import Idealize.ShloMosaic.PureOps.Ideal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The stored block at (u, s, e): row s of the activation block against column e of the weight slice. -/
theorem payload2_apply (xa : Vec Ideal S2048x1024 .f32) (xw : Vec Ideal S1x1024x64 .bf16) (u : Fin 1) (s : Fin 2048) (e : Fin 64) :
    (k2_pay1 (F := Ideal) xa xw : S1x2048x64.Idx → EReal) (ValueIdx.ix3 u s e)
      = ∑ d : Fin 1024, (xa (ValueIdx.ix2 s d) : EReal) * (xw (ValueIdx.ix3 (0 : Fin 1) d e) : EReal) := by
  unfold k2_pay1
  refine (shapeCast_ab_1ab_apply _ _ u s e).trans ?_
  refine (PlainDot.matmul_zero_apply dot_S2048x1024_S1024x64_S2048x64_1_0_0_1_n_n rfl rfl rfl rfl rfl rfl rfl rfl none _ _ s e).trans ?_
  refine Finset.sum_congr rfl fun d _ => ?_
  refine congrArg₂ (· * ·) ?_ ?_
  · exact congrFun (shapeCast_self xa _) (ValueIdx.ix2 s d)
  · exact shapeCast_1ab_ab_apply xw _ d e

/-! ## From the blocks to the array -/

theorem zero_offsets2_2 : (![0, 0] : Fin 2 → Nat) = fun _ => 0 :=
  funext fun a => match a with | ⟨0, _⟩ => rfl | ⟨1, _⟩ => rfl
theorem zero_offsets2_3 : (![0, 0, 0] : Fin 3 → Nat) = fun _ => 0 :=
  funext fun a => match a with | ⟨0, _⟩ => rfl | ⟨1, _⟩ => rfl | ⟨2, _⟩ => rfl

/-- The block indices at grid point t = 16 b + h: the activation block is batch b = t / 16, the weight block is
    head h = t % 16, the result block is t itself; every other block index is zero. -/
theorem block_index2 : ∀ t : Fin cfg2.N,
    win2_0.index t (0 : Fin 2) = t.val / 16 ∧ win2_0.index t (1 : Fin 2) = 0
    ∧ win2_1.index t (0 : Fin 3) = t.val % 16 ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

section
variable (V : (c : Dev nD) → (b : Ref sig .tc) → Buf (Elt Ideal) ((c : Thread nD τ).loc b))

/-- The two input arrays as the launch finds them, and the two blocks a point is handed, at their literal shapes. -/
abbrev actArr2 (c : Dev nD) : S4096x1024.Idx → EReal := V c (Pipeline.arrRef spec2 0)
abbrev wtArr2 (c : Dev nD) : S16x1024x64.Idx → EReal := V c (Pipeline.arrRef spec2 1)
abbrev actBlk2 (c : Dev nD) (t : Fin cfg2.N) : Vec Ideal S2048x1024 .f32 := iblk2 (F := Ideal) V c 0 t
abbrev wtBlk2 (c : Dev nD) (t : Fin cfg2.N) : Vec Ideal S1x1024x64 .bf16 := iblk2 (F := Ideal) V c 1 t

/-- Row s of the activation block at point t is row 2048 (t / 16) + s of the flat activations. -/
theorem actBlk2_apply (c : Dev nD) (t : Fin cfg2.N) (s : Fin 2048) (d : Fin 1024) (r : Fin 4096)
    (hr : r.val = t.val / 16 * 2048 + s.val) :
    actBlk2 V c t (ValueIdx.ix2 s d) = actArr2 V c (ValueIdx.ix2 r d) := by
  obtain ⟨ea, eb, -⟩ := block_index2 t
  show ((cfg2.win 0).blk t).view.read (Elt Ideal) (V c (Pipeline.arrRef spec2 0)) (ValueIdx.ix2 s d) = _
  rw [View.read_apply]
  show V c (Pipeline.arrRef spec2 0) _ = V c (Pipeline.arrRef spec2 0) _
  congr 1
  funext a
  apply Fin.ext
  match a with
  | ⟨0, _⟩ => show win2_0.index t (0 : Fin 2) * 2048 + 1 * s.val = r.val; rw [ea, hr]; omega
  | ⟨1, _⟩ => show win2_0.index t (1 : Fin 2) * 1024 + 1 * d.val = d.val; rw [eb]; omega

/-- The weight block at point t is head t % 16 of the head-major weight. -/
theorem wtBlk2_apply (c : Dev nD) (t : Fin cfg2.N) (d : Fin 1024) (e : Fin 64) (h : Fin 16) (hh : h.val = t.val % 16) :
    wtBlk2 V c t (ValueIdx.ix3 (0 : Fin 1) d e) = wtArr2 V c (ValueIdx.ix3 h d e) := by
  obtain ⟨-, -, ea, eb, ec, -⟩ := block_index2 t
  show ((cfg2.win 1).blk t).view.read (Elt Ideal) (V c (Pipeline.arrRef spec2 1)) (ValueIdx.ix3 (0 : Fin 1) d e) = _
  rw [View.read_apply]
  show V c (Pipeline.arrRef spec2 1) _ = V c (Pipeline.arrRef spec2 1) _
  congr 1
  funext a
  apply Fin.ext
  match a with
  | ⟨0, _⟩ => show win2_1.index t (0 : Fin 3) * 1 + 1 * 0 = h.val; rw [ea, hh]; omega
  | ⟨1, _⟩ => show win2_1.index t (1 : Fin 3) * 1024 + 1 * d.val = d.val; rw [eb]; omega
  | ⟨2, _⟩ => show win2_1.index t (2 : Fin 3) * 64 + 1 * e.val = e.val; rw [ec]; omega

end

/-- The stored block at any of its indices, the coordinates read off the index. -/
theorem payload2_at (xa : Vec Ideal S2048x1024 .f32) (xw : Vec Ideal S1x1024x64 .bf16) (j : S1x2048x64.Idx) :
    (k2_pay1 (F := Ideal) xa xw : S1x2048x64.Idx → EReal) j
      = ∑ d : Fin 1024, (xa (ValueIdx.ix2 ⟨(j 1).val, (j 1).isLt⟩ d) : EReal) * (xw (ValueIdx.ix3 (0 : Fin 1) d ⟨(j 2).val, (j 2).isLt⟩) : EReal) :=
  (congrArg (k2_pay1 (F := Ideal) xa xw) (ValueIdx.eq_ix3 j)).trans (payload2_apply xa xw (j 0) (j 1) (j 2))

section
variable (V : (c : Dev nD) → (b : Ref sig .tc) → Buf (Elt Ideal) ((c : Thread nD τ).loc b))

/-- Entry j of what point t stores is the head-major projection at the index i whose head-batch coordinate is t and
    whose other two coordinates are j's: with b = t / 16 and h = t % 16 both are the sum over d of
    X b s d * W d (64 h + e). -/
theorem stored2_at (c : Dev nD) (X : Cert.Spec.Act) (W : Cert.Spec.Wt)
    (hx : (V c (Pipeline.arrRef spec2 0) : S4096x1024.Idx → EReal) = Cert.Flat.flatRows X)
    (hw : ∀ (h : Fin 16) (d : Fin 1024) (e : Fin 64),
      (V c (Pipeline.arrRef spec2 1) : S16x1024x64.Idx → EReal) (ValueIdx.ix3 h d e) = W d (Cert.Spec.hd h e))
    (t : Fin cfg2.N) (j : S1x2048x64.Idx) (i : S32x2048x64.Idx)
    (hia : (i 0).val = t.val) (hib : (i 1).val = (j 1).val) (hic : (i 2).val = (j 2).val) :
    (k2_pay1 (F := Ideal) (actBlk2 V c t) (wtBlk2 V c t) : S1x2048x64.Idx → EReal) j
      = Cert.Flat.flatHeads (Cert.Spec.proj X W) i := by
  have ht : t.val < 32 := t.isLt
  obtain ⟨b, hbv⟩ : ∃ b : Fin 2, b.val = t.val / 16 := ⟨⟨t.val / 16, by omega⟩, rfl⟩
  obtain ⟨h, hh⟩ : ∃ h : Fin 16, h.val = t.val % 16 := ⟨⟨t.val % 16, by omega⟩, rfl⟩
  obtain ⟨s, hs⟩ : ∃ s : Fin 2048, s = ⟨(j 1).val, (j 1).isLt⟩ := ⟨_, rfl⟩
  obtain ⟨e, he⟩ : ∃ e : Fin 64, e = ⟨(j 2).val, (j 2).isLt⟩ := ⟨_, rfl⟩
  have hi : i = ValueIdx.ix3 (Cert.Flat.hb b h) s e := funext fun a => Fin.ext (by
    match a with
    | ⟨0, _⟩ => show (i 0).val = b.val * 16 + h.val; omega
    | ⟨1, _⟩ => show (i 1).val = s.val; rw [hs]; exact hib
    | ⟨2, _⟩ => show (i 2).val = e.val; rw [he]; exact hic)
  rw [hi, Cert.Flat.flatHeads_apply]
  refine (payload2_at _ _ j).trans ?_
  rw [← hs, ← he]
  unfold Cert.Spec.proj
  refine Finset.sum_congr rfl fun d _ => ?_
  refine congrArg₂ (· * ·) ?_ ?_
  · exact (actBlk2_apply V c t s d (Cert.Flat.row b s) (by show b.val * 2048 + s.val = _; rw [hbv])).trans
      ((congrFun hx _).trans (Cert.Flat.flatRows_apply X b s d))
  · exact (wtBlk2_apply V c t d e h hh).trans (hw h d e)

/-- What point t writes back is block t of the head-major projection. -/
theorem flushed2_eq (c : Dev nD) (X : Cert.Spec.Act) (W : Cert.Spec.Wt)
    (hx : (V c (Pipeline.arrRef spec2 0) : S4096x1024.Idx → EReal) = Cert.Flat.flatRows X)
    (hw : ∀ (h : Fin 16) (d : Fin 1024) (e : Fin 64),
      (V c (Pipeline.arrRef spec2 1) : S16x1024x64.Idx → EReal) (ValueIdx.ix3 h d e) = W d (Cert.Spec.hd h e))
    (t : Fin cfg2.N) :
    (dat2 (F := Ideal) V c).flushed 2 t
      = ((cfg2.win 2).blk t).view.read (Elt Ideal) (Cert.Flat.flatHeads (Cert.Spec.proj X W)) := by
  show (cfg2.win 2).cut (grid2.coords t) ((dat2 (F := Ideal) V c).after 2 t) = _
  rw [after2_2]
  unfold out2_2
  rw [View.canon_unit_zero zero_offsets2_3]
  simp only [View.ld_unit_zero (S := S2048x1024) zero_offsets2_2, View.ld_unit_zero (S := S1x1024x64) zero_offsets2_3]
  obtain ⟨-, -, -, -, -, ea, eb, ec⟩ := block_index2 t
  funext j
  show _ = Cert.Flat.flatHeads (Cert.Spec.proj X W) (((cfg2.win 2).blk t).view.emb j)
  refine stored2_at V c X W hx hw t j (((cfg2.win 2).blk t).view.emb j) ?_ ?_ ?_
  · show win2_2.index t (0 : Fin 3) * 1 + 1 * (j 0).val = t.val
    have hj : (j 0).val < 1 := (j 0).isLt
    rw [ea]; omega
  · show win2_2.index t (1 : Fin 3) * 2048 + 1 * (j 1).val = (j 1).val
    rw [eb]; omega
  · show win2_2.index t (2 : Fin 3) * 64 + 1 * (j 2).val = (j 2).val
    rw [ec]; omega

end

/-- An index of the result array is in point t's block iff each coordinate is in the block's range on its axis. -/
theorem mem_blk2 (t : Fin cfg2.N) (i : S32x2048x64.Idx) :
    i ∈ ((cfg2.win 2).blk t).view.set ↔ ∀ a : Fin 3, win2_2.index t a * S1x2048x64.size a ≤ (i a).val
      ∧ (i a).val < win2_2.index t a * S1x2048x64.size a + S1x2048x64.size a := by
  show i ∈ ((View.whole (Pipeline.arrRef spec2 2)).slice (win2_2.rect t)).set ↔ _
  rw [View.set_slice_whole, Rect.mem_set_unit]
  exact Iff.rfl

/-- The 32 result blocks tile the head-major array: the index with head-batch coordinate n lies in the block of point n. -/
theorem cover2 (i : S32x2048x64.Idx) :
    ∃ t : Fin cfg2.N, (cfg2.win 2).flush t = true ∧ i ∈ ((cfg2.win 2).blk t).view.set := by
  have hla : (i 0).val < 32 := (i 0).isLt
  have hlb : (i 1).val < 2048 := (i 1).isLt
  have hlc : (i 2).val < 64 := (i 2).isLt
  obtain ⟨t, ht⟩ : ∃ t : Fin cfg2.N, t.val = (i 0).val := ⟨⟨(i 0).val, hla⟩, rfl⟩
  obtain ⟨-, -, -, -, -, ea, eb, ec⟩ := block_index2 t
  refine ⟨t, flush2_2 t, ?_⟩
  rw [mem_blk2]
  intro a
  match a with
  | ⟨0, _⟩ =>
    show win2_2.index t (0 : Fin 3) * 1 ≤ (i 0).val ∧ (i 0).val < win2_2.index t (0 : Fin 3) * 1 + 1
    rw [ea]; omega
  | ⟨1, _⟩ =>
    show win2_2.index t (1 : Fin 3) * 2048 ≤ (i 1).val ∧ (i 1).val < win2_2.index t (1 : Fin 3) * 2048 + 2048
    rw [eb]; omega
  | ⟨2, _⟩ =>
    show win2_2.index t (2 : Fin 3) * 64 ≤ (i 2).val ∧ (i 2).val < win2_2.index t (2 : Fin 3) * 64 + 64
    rw [ec]; omega

section
variable (V : (c : Dev nD) → (b : Ref sig .tc) → Buf (Elt Ideal) ((c : Thread nD τ).loc b))

/-- After the last point the result array is the projection X W, head-major: entry (16 b + h, s, e) is the sum over
    the model coordinate d of X b s d * W d (64 h + e). -/
theorem proj_value2 (c : Dev nD)
    (X : Cert.Spec.Act) (W : Cert.Spec.Wt)
    (hx : (V c (Pipeline.arrRef spec2 0) : S4096x1024.Idx → EReal) = Cert.Flat.flatRows X)
    (hw : ∀ (h : Fin 16) (d : Fin 1024) (e : Fin 64),
      (V c (Pipeline.arrRef spec2 1) : S16x1024x64.Idx → EReal) (ValueIdx.ix3 h d e) = W d (Cert.Spec.hd h e)) :
    ((dat2 (F := Ideal) V c).arrAt 2 cfg2.N : S32x2048x64.Idx → EReal) = Cert.Flat.flatHeads (Cert.Spec.proj X W) :=
  (dat2 (F := Ideal) V c).arrAt_eq_of_cover 2 (Cert.Flat.flatHeads (Cert.Spec.proj X W))
    (fun t _ => flushed2_eq V c X W hx hw t) cover2

end

end Cert.KernelIdeal.Region

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.AttnValue.lean ====
/-
  The value of the attention launch: the result array it leaves, as one function of the three head-major arrays and
  the valid lengths.

  For each head-batch index n = 16 b + h and each half qi of the 2048 query positions, the launch computes a
  1024 by 64 block from the 1024 query rows of that half, the head's 2048 key rows and 2048 value rows, and the valid
  length of batch b. Entry (r, e) of the block is

      ( ∑ j, exp (s j - max_j s j) * value (j, e) ) / ( ∑ j, exp (s j - max_j s j) ),

  where s j is the inner product of query row r and key row j times 1/8 when j is below the valid length, and
  -10^6 otherwise. Position r of half qi is position 1024 qi + r of the head, so the block is the specification's
  attention of that head restricted to the half's positions; the 64 blocks tile the [32, 2048, 64] result array, and
  the array the launch leaves is the specification's attention laid out by head-batch index.

  First the arithmetic of one block, entry by entry, over arbitrary block contents; then the blocks as parts of the
  arrays (a block's coordinate is the block index times the block's extent plus the coordinate inside the block);
  then the tiling.
-/
import proofs.«418068_j5952824673153_2_alg».proof.Proof.AttnRegion
import proofs.«418068_j5952824673153_2_alg».proof.Proof.Flat
import proofs.«418068_j5952824673153_2_alg».proof.Proof.LibDotT
import proofs.«418068_j5952824673153_2_alg».proof.Proof.LibPlainDot
import proofs.«418068_j5952824673153_2_alg».proof.Proof.LibRowRead
import proofs.«418068_j5952824673153_2_alg».proof.Proof.LibColumn
import Idealize.ShloMosaic.Lib.ValueIdx
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace Attn

/-! ## The body's arithmetic at an entry -/

/-- A [1, R, C] block with its unit axis dropped reads, at (p, k), the block's entry (0, p, k). -/
theorem dropLead_apply {α : Type} {R C : ℕ} (x : (⟨3, ![1, R, C]⟩ : Shape).Idx → α)
    (h : (⟨3, ![1, R, C]⟩ : Shape).ShapeCasts (⟨2, ![R, C]⟩ : Shape)) (p : Fin R) (k : Fin C) :
    shapeCast (⟨2, ![R, C]⟩ : Shape) x h (ix2 p k) = x (ValueIdx.ix3 (0 : Fin 1) p k) :=
  shapeCast_apply x h _ _ (by
    rw [Shape.rowMajor_val_three, Shape.rowMajor_val_two]
    show (0 * R + p.val) * C + k.val = p.val * C + k.val
    rw [Nat.zero_mul, Nat.zero_add])

/-- An [R, C] array given a leading unit axis reads, at (0, p, k), the array's entry (p, k). -/
theorem addLead_apply {α : Type} {R C : ℕ} (x : (⟨2, ![R, C]⟩ : Shape).Idx → α)
    (h : (⟨2, ![R, C]⟩ : Shape).ShapeCasts (⟨3, ![1, R, C]⟩ : Shape)) (p : Fin R) (k : Fin C) :
    shapeCast (⟨3, ![1, R, C]⟩ : Shape) x h (ValueIdx.ix3 (0 : Fin 1) p k) = x (ix2 p k) :=
  shapeCast_apply x h _ _ (by
    rw [Shape.rowMajor_val_three, Shape.rowMajor_val_two]
    show p.val * C + k.val = (0 * R + p.val) * C + k.val
    rw [Nat.zero_mul, Nat.zero_add])

/-- The masked scaled scores of a query block against a head's keys, as the body forms them: the products of query
    rows with key rows, times 1/8, and -10^6 at the key positions not below the valid length. -/
def maskedScores (x0 : Vec Ideal S1x1024x64 .bf16) (x1 : Vec Ideal S1x2048x64 .bf16) (w : BitVec 32) : FVec Ideal S1024x2048 .f32 :=
  select (cmpi .slt (iota .tc S1024x2048 32 [1] iota_S1024x2048_d1_w32) (broadcast S1024x2048 w))
    (mulf (matmul (φ₁ := .bf16) (φ₂ := .bf16) dot_S1024x64_S2048x64_S1024x2048_1_1_0_0_n_n none (shapeCast S1024x64 x0 shapeCasts_S1x1024x64_S1024x64)
        (shapeCast S2048x64 x1 shapeCasts_S1x2048x64_S2048x64) (constant S1024x2048 .f32 0x00000000#32))
      (broadcast S1024x2048 (Scalar.ofBits .f32 0x3E000000#32)))
    (broadcast S1024x2048 (Scalar.ofBits .f32 0xC9742400#32))

/-- The maximum of each row of a score matrix. -/
def rowTops (S : FVec Ideal S1024x2048 .f32) : FVec Ideal S1024 .f32 :=
  multiReduction .maximumf [1] S1024 S 0xFF800000#32 reduces_S1024x2048_S1024 (.inl rfl) rfl

/-- exp (score - its row's maximum). -/
def expos (S : FVec Ideal S1024x2048 .f32) : FVec Ideal S1024x2048 .f32 :=
  exp (subf S (broadcastTo S1024x2048 (shapeCast S1024x1 (rowTops S) shapeCasts_S1024_S1024x1) broadcasts_S1024x1_S1024x2048))

/-- The sum of each row of exponentials. -/
def rowSums (S : FVec Ideal S1024x2048 .f32) : FVec Ideal S1024 .f32 :=
  multiReduction .add [1] S1024 (expos S) 0x00000000#32 reduces_S1024x2048_S1024 (.inl rfl) rfl

/-- The exponentials contracted with the values and divided by the row sums, as a [1, 1024, 64] block. -/
def weighted (S : FVec Ideal S1024x2048 .f32) (x2 : Vec Ideal S1x2048x64 .bf16) : FVec Ideal S1x1024x64 .bf16 :=
  shapeCast S1x1024x64
    (truncf .bf16
      (divf (matmul (φ₁ := .bf16) (φ₂ := .bf16) dot_S1024x2048_S2048x64_S1024x64_1_0_0_1_n_n none (truncf .bf16 (expos S) bitsLt_bf16_f32)
          (shapeCast S2048x64 x2 shapeCasts_S1x2048x64_S2048x64) (constant S1024x64 .f32 0x00000000#32))
        (broadcastTo S1024x64 (shapeCast S1024x1 (rowSums S) shapeCasts_S1024_S1024x1) broadcasts_S1024x1_S1024x64))
      bitsLt_bf16_f32)
    shapeCasts_S1024x64_S1x1024x64

/-- The body's payload is the weighted values of its masked scores. -/
theorem pay_eq_weighted (x0 : Vec Ideal S1x1024x64 .bf16) (x1 x2 : Vec Ideal S1x2048x64 .bf16) (w : BitVec 32) :
    k3_pay1 (F := Ideal) x0 x1 x2 w = weighted (maskedScores x0 x1 w) x2 := rfl

/-- The masked scaled score of query row r against key row j. -/
theorem maskedScores_apply (x0 : Vec Ideal S1x1024x64 .bf16) (x1 : Vec Ideal S1x2048x64 .bf16) (w : BitVec 32)
    (r : Fin 1024) (j : Fin 2048) :
    maskedScores x0 x1 w (ix2 r j)
      = Scalar.select (IntOp.cmpi .slt (BitVec.ofNat 32 j.val) w)
          ((∑ e : Fin 64, (x0 (ValueIdx.ix3 (0 : Fin 1) r e) : EReal) * (x1 (ValueIdx.ix3 (0 : Fin 1) j e) : EReal)) * Cert.Spec.eighth)
          Cert.Spec.negBig := by
  unfold maskedScores matmul
  rw [select_apply, mulf_apply, broadcast_apply, broadcast_apply,
    DotT.matmul_zero_apply (φ₁ := .bf16) (φ₂ := .bf16) dot_S1024x64_S2048x64_S1024x2048_1_1_0_0_n_n rfl rfl rfl rfl rfl rfl rfl rfl]
  show Scalar.select (IntOp.cmpi .slt (iota .tc S1024x2048 32 [1] iota_S1024x2048_d1_w32 (ix2 r j)) w) _ _ = _
  rw [iota_single_apply]
  simp only [dropLead_apply]
  rfl

/-- A row's maximum: the fold of max from the bottom element over the row. -/
theorem rowTops_apply (S : FVec Ideal S1024x2048 .f32) (r : Fin 1024) :
    rowTops S (ix1 r) = (Finset.univ : Finset (Fin 2048)).fold max ⊥ (fun j => S (ix2 r j)) := by
  unfold rowTops
  exact Cert.RowRead.rowMax_f32 S _ _ _ r

/-- An exponential: exp of the score minus its row's maximum. -/
theorem expos_apply (S : FVec Ideal S1024x2048 .f32) (r : Fin 1024) (j : Fin 2048) :
    expos S (ix2 r j) = Ideal.exp (S (ix2 r j) - rowTops S (ix1 r)) := by
  unfold expos
  rw [Cert.RowRead.exp_apply, subf_apply, Column.keepdims_apply]

/-- A row's sum of exponentials. -/
theorem rowSums_apply (S : FVec Ideal S1024x2048 .f32) (r : Fin 1024) :
    rowSums S (ix1 r) = ∑ j : Fin 2048, expos S (ix2 r j) := by
  unfold rowSums
  exact Cert.RowRead.rowSum_f32 (expos S) _ _ _ r

/-- The weighted values at (0, r, e): the exponentials of row r against column e of the values, over the row's sum. -/
theorem weighted_apply (S : FVec Ideal S1024x2048 .f32) (x2 : Vec Ideal S1x2048x64 .bf16) (r : Fin 1024) (e : Fin 64) :
    weighted S x2 (ValueIdx.ix3 (0 : Fin 1) r e)
      = Ideal.div (∑ j : Fin 2048, expos S (ix2 r j) * (x2 (ValueIdx.ix3 (0 : Fin 1) j e) : EReal)) (∑ j : Fin 2048, expos S (ix2 r j)) := by
  unfold weighted matmul
  rw [addLead_apply, truncf_apply, divf_apply, Column.keepdims_apply, rowSums_apply,
    PlainDot.matmul_zero_apply (φ₁ := .bf16) (φ₂ := .bf16) dot_S1024x2048_S2048x64_S1024x64_1_0_0_1_n_n rfl rfl rfl rfl rfl rfl rfl rfl]
  simp only [dropLead_apply, truncf_apply]

/-! ## A block of the result against the specification -/

/-- Position r of query half qi among the 2048 positions. -/
def halfRow (qi : Fin 2) (r : Fin 1024) : Fin 2048 := ⟨qi.val * 1024 + r.val, by have := qi.isLt; have := r.isLt; omega⟩

/-- When the three blocks are the head's queries of one half, its keys and its values, and the word is the batch's
    valid length, the body's payload at (0, r, e) is the specification's attention entry of that head at the
    half's position r and head coordinate e. -/
theorem pay_entry (x0 : Vec Ideal S1x1024x64 .bf16) (x1 x2 : Vec Ideal S1x2048x64 .bf16) (w : BitVec 32)
    (q k v : Cert.Spec.Heads) (vl : Cert.Spec.Lens) (b : Fin 2) (h : Fin 16) (qi : Fin 2)
    (h0 : ∀ (r : Fin 1024) (e : Fin 64), (x0 (ValueIdx.ix3 (0 : Fin 1) r e) : EReal) = q b h (halfRow qi r) e)
    (h1 : ∀ (j : Fin 2048) (e : Fin 64), (x1 (ValueIdx.ix3 (0 : Fin 1) j e) : EReal) = k b h j e)
    (h2 : ∀ (j : Fin 2048) (e : Fin 64), (x2 (ValueIdx.ix3 (0 : Fin 1) j e) : EReal) = v b h j e)
    (hw : w = vl b) (r : Fin 1024) (e : Fin 64) :
    (k3_pay1 (F := Ideal) x0 x1 x2 w (ValueIdx.ix3 (0 : Fin 1) r e) : EReal)
      = Cert.Spec.attAfter (Cert.Spec.maskMul vl (Cert.Spec.dots q k)) v b h (halfRow qi r) e := by
  have hS : ∀ j : Fin 2048, maskedScores x0 x1 w (ix2 r j) = Cert.Spec.maskMul vl (Cert.Spec.dots q k) b h (halfRow qi r) j := by
    intro j
    rw [maskedScores_apply, hw]
    simp only [h0, h1]
    rfl
  have hE : ∀ j : Fin 2048, expos (maskedScores x0 x1 w) (ix2 r j)
      = Cert.Spec.expo (Cert.Spec.maskMul vl (Cert.Spec.dots q k)) b h (halfRow qi r) j := by
    intro j
    rw [expos_apply, rowTops_apply]
    simp only [hS]
    rfl
  rw [pay_eq_weighted, weighted_apply]
  simp only [hE, h2]
  rfl

/-! ## From the blocks to the array -/

theorem zeros3 : (![0, 0, 0] : Fin 3 → Nat) = fun _ => 0 := funext fun a => by fin_cases a <;> rfl

/-- The four windows' block indices at grid coordinates (n, qi): queries and result at (n, qi, 0), keys and values at (n, 0, 0). -/
theorem blockIdx3 : ∀ i : grid3.Coords,
    cc3_transform_0 i = ![(i 0).val, (i 1).val, 0] ∧ cc3_transform_1 i = ![(i 0).val, 0, 0]
    ∧ cc3_transform_2 i = ![(i 0).val, 0, 0] ∧ cc3_transform_3 i = ![(i 0).val, (i 1).val, 0] := by decide +kernel

section
variable (a3 : (pcfg3 (F := Ideal)).Adm)
variable (V : (c : Dev nD) → (b : Ref sig .tc) → Buf (Elt Ideal) ((c : Thread nD τ).loc b)) (c : Dev nD)

/-- The query block at point t, entry (0, r, e), is the query array's entry at the point's head-batch index, position
    r of the point's half, coordinate e. -/
theorem qblk_apply (t : Fin (cfg3 a3).N) (r : Fin 1024) (e : Fin 64) (i : S32x2048x64.Idx)
    (h0 : (i 0).val = (grid3.coords t 0).val) (h1 : (i 1).val = (grid3.coords t 1).val * 1024 + r.val) (h2 : (i 2).val = e.val) :
    (iblk3 (F := Ideal) a3 V c 0 t : Vec Ideal S1x1024x64 .bf16) (ValueIdx.ix3 (0 : Fin 1) r e)
      = (V c (Pipeline.arrRef spec3 0) : S32x2048x64.Idx → EReal) i := by
  obtain ⟨e0, -, -, -⟩ := blockIdx3 (grid3.coords t)
  show (V c (Pipeline.arrRef spec3 0)) ((((cfg3 a3).win 0).blk t).view.emb (ValueIdx.ix3 (0 : Fin 1) r e)) = (V c (Pipeline.arrRef spec3 0)) i
  refine congrArg _ ?_
  funext a; apply Fin.ext
  match a with
  | ⟨0, _⟩ => show cc3_transform_0 (grid3.coords t) (0 : Fin 3) * 1 + 1 * 0 = (i 0).val; rw [e0, h0]; show (grid3.coords t 0).val * 1 + 1 * 0 = _; omega
  | ⟨1, _⟩ => show cc3_transform_0 (grid3.coords t) (1 : Fin 3) * 1024 + 1 * r.val = (i 1).val; rw [e0, h1]; show (grid3.coords t 1).val * 1024 + 1 * r.val = _; omega
  | ⟨2, _⟩ => show cc3_transform_0 (grid3.coords t) (2 : Fin 3) * 64 + 1 * e.val = (i 2).val; rw [e0, h2]; show 0 * 64 + 1 * e.val = _; omega

/-- The key block at point t, entry (0, j, e), is the key array's entry at the point's head-batch index, position j,
    coordinate e. -/
theorem kblk_apply (t : Fin (cfg3 a3).N) (j : Fin 2048) (e : Fin 64) (i : S32x2048x64.Idx)
    (h0 : (i 0).val = (grid3.coords t 0).val) (h1 : (i 1).val = j.val) (h2 : (i 2).val = e.val) :
    (iblk3 (F := Ideal) a3 V c 1 t : Vec Ideal S1x2048x64 .bf16) (ValueIdx.ix3 (0 : Fin 1) j e)
      = (V c (Pipeline.arrRef spec3 1) : S32x2048x64.Idx → EReal) i := by
  obtain ⟨-, e1, -, -⟩ := blockIdx3 (grid3.coords t)
  show (V c (Pipeline.arrRef spec3 1)) ((((cfg3 a3).win 1).blk t).view.emb (ValueIdx.ix3 (0 : Fin 1) j e)) = (V c (Pipeline.arrRef spec3 1)) i
  refine congrArg _ ?_
  funext a; apply Fin.ext
  match a with
  | ⟨0, _⟩ => show cc3_transform_1 (grid3.coords t) (0 : Fin 3) * 1 + 1 * 0 = (i 0).val; rw [e1, h0]; show (grid3.coords t 0).val * 1 + 1 * 0 = _; omega
  | ⟨1, _⟩ => show cc3_transform_1 (grid3.coords t) (1 : Fin 3) * 2048 + 1 * j.val = (i 1).val; rw [e1, h1]; show 0 * 2048 + 1 * j.val = _; omega
  | ⟨2, _⟩ => show cc3_transform_1 (grid3.coords t) (2 : Fin 3) * 64 + 1 * e.val = (i 2).val; rw [e1, h2]; show 0 * 64 + 1 * e.val = _; omega

/-- The value block at point t, likewise. -/
theorem vblk_apply (t : Fin (cfg3 a3).N) (j : Fin 2048) (e : Fin 64) (i : S32x2048x64.Idx)
    (h0 : (i 0).val = (grid3.coords t 0).val) (h1 : (i 1).val = j.val) (h2 : (i 2).val = e.val) :
    (iblk3 (F := Ideal) a3 V c 2 t : Vec Ideal S1x2048x64 .bf16) (ValueIdx.ix3 (0 : Fin 1) j e)
      = (V c (Pipeline.arrRef spec3 2) : S32x2048x64.Idx → EReal) i := by
  obtain ⟨-, -, e2, -⟩ := blockIdx3 (grid3.coords t)
  show (V c (Pipeline.arrRef spec3 2)) ((((cfg3 a3).win 2).blk t).view.emb (ValueIdx.ix3 (0 : Fin 1) j e)) = (V c (Pipeline.arrRef spec3 2)) i
  refine congrArg _ ?_
  funext a; apply Fin.ext
  match a with
  | ⟨0, _⟩ => show cc3_transform_2 (grid3.coords t) (0 : Fin 3) * 1 + 1 * 0 = (i 0).val; rw [e2, h0]; show (grid3.coords t 0).val * 1 + 1 * 0 = _; omega
  | ⟨1, _⟩ => show cc3_transform_2 (grid3.coords t) (1 : Fin 3) * 2048 + 1 * j.val = (i 1).val; rw [e2, h1]; show 0 * 2048 + 1 * j.val = _; omega
  | ⟨2, _⟩ => show cc3_transform_2 (grid3.coords t) (2 : Fin 3) * 64 + 1 * e.val = (i 2).val; rw [e2, h2]; show 0 * 64 + 1 * e.val = _; omega

/-- The result's staging buffer after the body is the body's payload of the blocks: its one store covers the buffer, and
    the loads read the whole blocks. -/
theorem out3_3_eq (x0 : Vec Ideal S1x1024x64 .bf16) (x1 x2 : Vec Ideal S1x2048x64 .bf16) (w : BitVec 32) :
    out3_3 (F := Ideal) x0 x1 x2 w = k3_pay1 (F := Ideal) x0 x1 x2 w := by
  unfold out3_3 rq3 rk3
  rw [View.canon_unit_zero zeros3]
  simp only [View.ld_unit_zero (S := S1x1024x64) zeros3, View.ld_unit_zero (S := S1x2048x64) zeros3]

/-- The query half of grid point t (the grid's second coordinate). -/
def halfOf (t : Fin (cfg3 a3).N) : Fin 2 := ⟨(grid3.coords t 1).val, (grid3.coords t 1).isLt⟩

/-- Two functions of a [1, 1024, 64] index that agree at every (0, r, e) agree. -/
theorem ext_block {α : Type} (P Q : S1x1024x64.Idx → α)
    (h : ∀ (r : Fin 1024) (e : Fin 64), P (ValueIdx.ix3 (0 : Fin 1) r e) = Q (ValueIdx.ix3 (0 : Fin 1) r e)) (y : S1x1024x64.Idx) : P y = Q y := by
  have hy : y = ValueIdx.ix3 (0 : Fin 1) (y 1) (y 2) := by
    refine (eq_ix3 y).trans ?_
    have hlt : (y 0).val < 1 := (y 0).isLt
    have h0 : y 0 = (0 : Fin 1) := Fin.ext (by show (y 0).val = 0; omega)
    exact congrArg (fun z : Fin 1 => ValueIdx.ix3 z (y 1) (y 2)) h0
  rw [hy]; exact h _ _

variable (q k v : Cert.Spec.Heads) (vl : Cert.Spec.Lens)
variable (hq : (V c (Pipeline.arrRef spec3 0) : S32x2048x64.Idx → EReal) = Cert.Flat.flatHeads q)
variable (hk : (V c (Pipeline.arrRef spec3 1) : S32x2048x64.Idx → EReal) = Cert.Flat.flatHeads k)
variable (hv : (V c (Pipeline.arrRef spec3 2) : S32x2048x64.Idx → EReal) = Cert.Flat.flatHeads v)
variable (ht : ∀ (b : Fin 2) (h : Fin 16), tword (F := Ideal) a3 (Cert.Flat.hb b h) = vl b)

include hq hk hv ht in
/-- What point t writes back is its block of the specification's attention result, laid out by head-batch index. -/
theorem flushed3_eq (t : Fin (cfg3 a3).N) :
    (dat3 (F := Ideal) a3 V c).flushed 3 t
      = (((cfg3 a3).win 3).blk t).view.read (Elt Ideal) (Cert.Flat.flatHeads (Cert.Spec.attAfter (Cert.Spec.maskMul vl (Cert.Spec.dots q k)) v)) := by
  show ((cfg3 a3).win 3).cut (grid3.coords t) ((dat3 (F := Ideal) a3 V c).after 3 t) = _
  rw [after3_3]
  funext y
  show (out3_3 (F := Ideal) (iblk3 a3 V c 0 t) (iblk3 a3 V c 1 t) (iblk3 a3 V c 2 t) (tword a3 (headOf a3 t)) : S1x1024x64.Idx → EReal) y
    = Cert.Flat.flatHeads (Cert.Spec.attAfter (Cert.Spec.maskMul vl (Cert.Spec.dots q k)) v) ((((cfg3 a3).win 3).blk t).view.emb y)
  refine (congrFun (out3_3_eq (iblk3 a3 V c 0 t) (iblk3 a3 V c 1 t) (iblk3 a3 V c 2 t) (tword a3 (headOf a3 t))) y).trans ?_
  show (k3_pay1 (F := Ideal) (iblk3 a3 V c 0 t) (iblk3 a3 V c 1 t) (iblk3 a3 V c 2 t) (tword a3 (headOf a3 t)) : S1x1024x64.Idx → EReal) y
    = Cert.Flat.flatHeads (Cert.Spec.attAfter (Cert.Spec.maskMul vl (Cert.Spec.dots q k)) v) ((((cfg3 a3).win 3).blk t).view.emb y)
  refine ext_block
    (k3_pay1 (F := Ideal) (iblk3 a3 V c 0 t) (iblk3 a3 V c 1 t) (iblk3 a3 V c 2 t) (tword a3 (headOf a3 t)))
    (fun y => Cert.Flat.flatHeads (Cert.Spec.attAfter (Cert.Spec.maskMul vl (Cert.Spec.dots q k)) v) ((((cfg3 a3).win 3).blk t).view.emb y))
    (fun r e => ?_) y
  obtain ⟨b, h, hn⟩ := Cert.Flat.exists_hb (headOf a3 t)
  obtain ⟨-, -, -, e3⟩ := blockIdx3 (grid3.coords t)
  have hn0 : (grid3.coords t 0).val = b.val * 16 + h.val := congrArg Fin.val hn
  have hemb : (((cfg3 a3).win 3).blk t).view.emb (ValueIdx.ix3 (0 : Fin 1) r e)
      = ValueIdx.ix3 (Cert.Flat.hb b h) (halfRow (halfOf a3 t) r) e := by
    funext a; apply Fin.ext
    match a with
    | ⟨0, _⟩ => show cc3_transform_3 (grid3.coords t) (0 : Fin 3) * 1 + 1 * 0 = b.val * 16 + h.val; rw [e3]; show (grid3.coords t 0).val * 1 + 1 * 0 = _; omega
    | ⟨1, _⟩ => show cc3_transform_3 (grid3.coords t) (1 : Fin 3) * 1024 + 1 * r.val = (grid3.coords t 1).val * 1024 + r.val; rw [e3]; show (grid3.coords t 1).val * 1024 + 1 * r.val = _; omega
    | ⟨2, _⟩ => show cc3_transform_3 (grid3.coords t) (2 : Fin 3) * 64 + 1 * e.val = e.val; rw [e3]; show 0 * 64 + 1 * e.val = _; omega
  refine Eq.trans ?_ ((congrArg (Cert.Flat.flatHeads (Cert.Spec.attAfter (Cert.Spec.maskMul vl (Cert.Spec.dots q k)) v)) hemb).trans
    (Cert.Flat.flatHeads_apply _ b h (halfRow (halfOf a3 t) r) e)).symm
  exact pay_entry (iblk3 a3 V c 0 t) (iblk3 a3 V c 1 t) (iblk3 a3 V c 2 t) (tword a3 (headOf a3 t)) q k v vl b h (halfOf a3 t)
    (fun r e => (qblk_apply a3 V c t r e (ValueIdx.ix3 (Cert.Flat.hb b h) (halfRow (halfOf a3 t) r) e) hn0.symm rfl rfl).trans
      ((congrFun hq _).trans (Cert.Flat.flatHeads_apply q b h (halfRow (halfOf a3 t) r) e)))
    (fun j e => (kblk_apply a3 V c t j e (ValueIdx.ix3 (Cert.Flat.hb b h) j e) hn0.symm rfl rfl).trans
      ((congrFun hk _).trans (Cert.Flat.flatHeads_apply k b h j e)))
    (fun j e => (vblk_apply a3 V c t j e (ValueIdx.ix3 (Cert.Flat.hb b h) j e) hn0.symm rfl rfl).trans
      ((congrFun hv _).trans (Cert.Flat.flatHeads_apply v b h j e)))
    ((congrArg (tword (F := Ideal) a3) hn).trans (ht b h)) r e

/-- Every point writes its result block back: the block index moves at every step of the grid. -/
theorem flush3_3 (t : Fin (cfg3 a3).N) : ((cfg3 a3).win 3).flush t = true :=
  (by decide +kernel : ∀ t : Fin grid3.N, (true && (decide (t.val + 1 = grid3.N)
    || decide (∃ h : t.val + 1 < grid3.N, cc3_transform_3 (grid3.coords ⟨t.val + 1, h⟩) ≠ cc3_transform_3 (grid3.coords t)))) = true) t

/-- Every (head-batch index, half) is some grid point's coordinates. -/
theorem point_onto3 : ∀ (n : Fin 32) (qi : Fin 2), ∃ t : Fin grid3.N, (grid3.coords t 0).val = n.val ∧ (grid3.coords t 1).val = qi.val := by
  decide +kernel

/-- The result blocks tile the array: index (n, s, e) lies in the block of the point (n, s / 1024). -/
theorem covered3 (i : S32x2048x64.Idx) :
    ∃ t : Fin (cfg3 a3).N, ((cfg3 a3).win 3).flush t = true ∧ i ∈ (((cfg3 a3).win 3).blk t).view.set := by
  have hi0 : (i 0).val < 32 := (i 0).isLt
  have hi1 : (i 1).val < 2048 := (i 1).isLt
  have hi2 : (i 2).val < 64 := (i 2).isLt
  obtain ⟨t, ht0, ht1⟩ := point_onto3 ⟨(i 0).val, hi0⟩ ⟨(i 1).val / 1024, by omega⟩
  have ht0' : (grid3.coords t 0).val = (i 0).val := ht0
  have ht1' : (grid3.coords t 1).val = (i 1).val / 1024 := ht1
  obtain ⟨-, -, -, e3⟩ := blockIdx3 (grid3.coords t)
  have hemb : (((cfg3 a3).win 3).blk t).view.emb
      (ValueIdx.ix3 (0 : Fin 1) (⟨(i 1).val % 1024, Nat.mod_lt _ (by decide)⟩ : Fin 1024) (⟨(i 2).val, hi2⟩ : Fin 64)) = i := by
    funext a; apply Fin.ext
    match a with
    | ⟨0, _⟩ => show cc3_transform_3 (grid3.coords t) (0 : Fin 3) * 1 + 1 * 0 = (i 0).val; rw [e3]; show (grid3.coords t 0).val * 1 + 1 * 0 = _; omega
    | ⟨1, _⟩ => show cc3_transform_3 (grid3.coords t) (1 : Fin 3) * 1024 + 1 * ((i 1).val % 1024) = (i 1).val; rw [e3]; show (grid3.coords t 1).val * 1024 + 1 * ((i 1).val % 1024) = _; omega
    | ⟨2, _⟩ => show cc3_transform_3 (grid3.coords t) (2 : Fin 3) * 64 + 1 * (i 2).val = (i 2).val; rw [e3]; show 0 * 64 + 1 * (i 2).val = _; omega
  exact ⟨t, flush3_3 a3 t, Eq.subst (motive := fun z => z ∈ (((cfg3 a3).win 3).blk t).view.set) hemb (View.emb_mem_set _ _)⟩

end

end Attn

/-- The result array after the launch: the specification's attention of the three head-major arrays under the valid
    lengths, laid out by head-batch index. -/
theorem attn_value (a3 : (pcfg3 (F := Ideal)).Adm)
    (V : (c : Dev nD) → (b : Ref sig .tc) → Buf (Elt Ideal) ((c : Thread nD τ).loc b)) (c : Dev nD)
    (q k v : Cert.Spec.Heads) (vl : Cert.Spec.Lens)
    (hq : (V c (Pipeline.arrRef spec3 0) : S32x2048x64.Idx → EReal) = Cert.Flat.flatHeads q)
    (hk : (V c (Pipeline.arrRef spec3 1) : S32x2048x64.Idx → EReal) = Cert.Flat.flatHeads k)
    (hv : (V c (Pipeline.arrRef spec3 2) : S32x2048x64.Idx → EReal) = Cert.Flat.flatHeads v)
    (ht : ∀ (b : Fin 2) (h : Fin 16), tword (F := Ideal) a3 (Cert.Flat.hb b h) = vl b) :
    ((dat3 (F := Ideal) a3 V c).arrAt 3 (cfg3 a3).N : S32x2048x64.Idx → EReal)
      = Cert.Flat.flatHeads (Cert.Spec.attAfter (Cert.Spec.maskMul vl (Cert.Spec.dots q k)) v) :=
  (dat3 (F := Ideal) a3 V c).arrAt_eq_of_cover 3 (Cert.Flat.flatHeads (Cert.Spec.attAfter (Cert.Spec.maskMul vl (Cert.Spec.dots q k)) v))
    (fun t _ => Attn.flushed3_eq a3 V c q k v vl hq hk hv ht t) (Attn.covered3 a3)

end Cert.KernelIdeal.Region

end
-- ==== Proof.OutValue.lean ====
/-
  The value of the output-projection launch at the exact instance.

  For batch b the sixteen grid points 16 b + h, h = 0 … 15, add into one 2048 by 1024 accumulator: point
  16 b + h reads the attention result of head-batch 16 b + h (a 2048 by 64 block) and head h's 64 by 1024 slice of
  the output weight and adds their matrix product, the accumulator starting from zero at h = 0. So after point
  16 b + h the accumulator's entry (s, n) is  ∑ h' ≤ h, ∑ e, a b h' s e * Wo (64 h' + e) n,  and at h = 15, the one
  point of the batch that writes back, this is the whole sum over the heads: rows 2048 b … 2048 b + 2047 of the
  result. The two write-backs tile the [4096, 1024] result, so it ends holding the projection summed by heads.
-/
import proofs.«418068_j5952824673153_2_alg».proof.Proof.OutRegion
import proofs.«418068_j5952824673153_2_alg».proof.Proof.Flat
import proofs.«418068_j5952824673153_2_alg».proof.Proof.LibPlainDot
import proofs.«418068_j5952824673153_2_alg».proof.Proof.LibRowRead
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- A [1, R, C] array with its leading unit axis dropped reads, at (p, k), the entry (0, p, k). -/
private theorem dropLead_apply {α : Type} {R C : ℕ} (x : (⟨3, ![1, R, C]⟩ : Shape).Idx → α)
    (h : (⟨3, ![1, R, C]⟩ : Shape).ShapeCasts (⟨2, ![R, C]⟩ : Shape)) (p : Fin R) (k : Fin C) :
    shapeCast (⟨2, ![R, C]⟩ : Shape) x h (ix2 p k) = x (ValueIdx.ix3 (0 : Fin 1) p k) :=
  shapeCast_apply x h _ _ (by
    rw [Shape.rowMajor_val_three, Shape.rowMajor_val_two]
    show ((0 : ℕ) * R + p.val) * C + k.val = p.val * C + k.val
    rw [Nat.zero_mul, Nat.zero_add])

/-- One head's update at entry (s, n): the accumulator's entry plus row s of the head's attention block times
    column n of the head's weight slice. -/
theorem step4_apply (x0 : Vec Ideal S1x2048x64 .bf16) (x1 : Vec Ideal S1x64x1024 .bf16) (acc : Vec Ideal S2048x1024 .f32)
    (s : Fin 2048) (n : Fin 1024) :
    (step4 (F := Ideal) x0 x1 acc : S2048x1024.Idx → EReal) (ix2 s n)
      = (acc : S2048x1024.Idx → EReal) (ix2 s n)
        + ∑ e : Fin 64, (x0 : S1x2048x64.Idx → EReal) (ValueIdx.ix3 (0 : Fin 1) s e)
            * (x1 : S1x64x1024.Idx → EReal) (ValueIdx.ix3 (0 : Fin 1) e n) := by
  unfold step4 k4_pay2
  rw [shapeCast_self]
  refine congrArg (fun z : EReal => (acc : S2048x1024.Idx → EReal) (ix2 s n) + z) ?_
  refine (PlainDot.matmul_zero_apply dot_S2048x64_S64x1024_S2048x1024_1_0_0_1_n_n rfl rfl rfl rfl rfl rfl (by decide) (by decide)
    none _ _ s n).trans ?_
  refine Finset.sum_congr rfl fun e _ => ?_
  rw [dropLead_apply, dropLead_apply]

/-- The reset value is zero at every entry. -/
theorem zero4_apply (s : Fin 2048) (n : Fin 1024) : (zero4 (F := Ideal) : S2048x1024.Idx → EReal) (ix2 s n) = 0 := by
  unfold zero4 k4_pay1
  rw [shapeCast_self]
  exact Cert.RowRead.word_zero

/-- Head k's contribution to entry (s, n) of batch b's rows; zero for k past the sixteen heads. -/
def headTerm4 (a : Cert.Spec.Heads) (Wo : Cert.Spec.Wt) (b : Fin 2) (s : Fin 2048) (n : Fin 1024) (k : ℕ) : EReal :=
  if hk : k < 16 then ∑ e : Fin 64, a b ⟨k, hk⟩ s e * Wo (Cert.Spec.hd ⟨k, hk⟩ e) n else 0

/-- The sixteen contributions add up to the projection summed by heads. -/
theorem sum_headTerm4 (a : Cert.Spec.Heads) (Wo : Cert.Spec.Wt) (b : Fin 2) (s : Fin 2048) (n : Fin 1024) :
    ∑ k ∈ Finset.range 16, headTerm4 a Wo b s n k = Cert.Spec.outHeads a Wo b s n := by
  rw [Finset.sum_range]
  unfold Cert.Spec.outHeads
  refine Finset.sum_congr rfl fun h _ => ?_
  unfold headTerm4
  rw [dif_pos h.isLt]

section
variable (V : (c : Dev nD) → (b : Ref sig .tc) → Buf (Elt Ideal) ((c : Thread nD τ).loc b))

/-- The three block indices over the grid: point t = 16 b + h reads head-batch t and head t mod 16, and its result
    block is row block t / 16. -/
theorem block_indices4 : ∀ t : Fin cfg4.N,
    win4_0.index t (0 : Fin 3) = t.val ∧ win4_0.index t (1 : Fin 3) = 0 ∧ win4_0.index t (2 : Fin 3) = 0
    ∧ win4_1.index t (0 : Fin 3) = t.val % 16 ∧ win4_1.index t (1 : Fin 3) = 0 ∧ win4_1.index t (2 : Fin 3) = 0
    ∧ win4_2.index t (0 : Fin 2) = t.val / 16 ∧ win4_2.index t (1 : Fin 2) = 0 :=
  (by decide +kernel : ∀ t : Fin grid4.N, _)

/-- Point t's attention block is head-batch t of the attention result. -/
theorem heads_block4_apply (c : Dev nD) (t : Fin cfg4.N) (ht : t.val < 32) (s : Fin 2048) (e : Fin 64) :
    (iblk4 (F := Ideal) V c 0 t : S1x2048x64.Idx → EReal) (ValueIdx.ix3 (0 : Fin 1) s e)
      = (V c (Pipeline.arrRef spec4 0) : S32x2048x64.Idx → EReal) (ValueIdx.ix3 (⟨t.val, ht⟩ : Fin 32) s e) := by
  obtain ⟨e0, e1, e2, -⟩ := block_indices4 t
  unfold iblk4
  rw [View.read_apply]
  show (V c (Pipeline.arrRef spec4 0) : S32x2048x64.Idx → EReal) (((cfg4.win 0).blk t).view.emb (ValueIdx.ix3 (0 : Fin 1) s e)) = _
  refine congrArg (V c (Pipeline.arrRef spec4 0) : S32x2048x64.Idx → EReal) (funext fun a => Fin.ext ?_)
  match a with
  | ⟨0, _⟩ => show win4_0.index t (0 : Fin 3) * 1 + 1 * 0 = t.val; rw [e0]; omega
  | ⟨1, _⟩ => show win4_0.index t (1 : Fin 3) * 2048 + 1 * s.val = s.val; rw [e1]; omega
  | ⟨2, _⟩ => show win4_0.index t (2 : Fin 3) * 64 + 1 * e.val = e.val; rw [e2]; omega

/-- Point t's weight block is head t mod 16 of the head-major output weight. -/
theorem weight_block4_apply (c : Dev nD) (t : Fin cfg4.N) (e : Fin 64) (n : Fin 1024) :
    (iblk4 (F := Ideal) V c 1 t : S1x64x1024.Idx → EReal) (ValueIdx.ix3 (0 : Fin 1) e n)
      = (V c (Pipeline.arrRef spec4 1) : S16x64x1024.Idx → EReal)
          (ValueIdx.ix3 (⟨t.val % 16, Nat.mod_lt _ (by decide)⟩ : Fin 16) e n) := by
  obtain ⟨-, -, -, e0, e1, e2, -⟩ := block_indices4 t
  unfold iblk4
  rw [View.read_apply]
  show (V c (Pipeline.arrRef spec4 1) : S16x64x1024.Idx → EReal) (((cfg4.win 1).blk t).view.emb (ValueIdx.ix3 (0 : Fin 1) e n)) = _
  refine congrArg (V c (Pipeline.arrRef spec4 1) : S16x64x1024.Idx → EReal) (funext fun a => Fin.ext ?_)
  match a with
  | ⟨0, _⟩ => show win4_1.index t (0 : Fin 3) * 1 + 1 * 0 = t.val % 16; rw [e0]; omega
  | ⟨1, _⟩ => show win4_1.index t (1 : Fin 3) * 64 + 1 * e.val = e.val; rw [e1]; omega
  | ⟨2, _⟩ => show win4_1.index t (2 : Fin 3) * 1024 + 1 * n.val = n.val; rw [e2]; omega

variable (c : Dev nD) (a : Cert.Spec.Heads) (Wo : Cert.Spec.Wt)
  (ha : (V c (Pipeline.arrRef spec4 0) : S32x2048x64.Idx → EReal) = Cert.Flat.flatHeads a)
  (hw : ∀ (h : Fin 16) (e : Fin 64) (n : Fin 1024),
    (V c (Pipeline.arrRef spec4 1) : S16x64x1024.Idx → EReal) (ValueIdx.ix3 h e n) = Wo (Cert.Spec.hd h e) n)

include ha hw in
/-- The update at point t of batch b adds head t mod 16's contribution. -/
theorem head_step4 (t : Fin cfg4.N) (ht : t.val < 32) (b : Fin 2) (hb : t.val / 16 = b.val) (acc : Vec Ideal S2048x1024 .f32)
    (s : Fin 2048) (n : Fin 1024) :
    (step4 (F := Ideal) (iblk4 V c 0 t) (iblk4 V c 1 t) acc : S2048x1024.Idx → EReal) (ix2 s n)
      = (acc : S2048x1024.Idx → EReal) (ix2 s n) + headTerm4 a Wo b s n (t.val % 16) := by
  have hk : t.val % 16 < 16 := Nat.mod_lt _ (by decide)
  refine (step4_apply (iblk4 V c 0 t) (iblk4 V c 1 t) acc s n).trans ?_
  refine congrArg (fun z : EReal => (acc : S2048x1024.Idx → EReal) (ix2 s n) + z) ?_
  unfold headTerm4
  rw [dif_pos hk]
  refine Finset.sum_congr rfl fun e _ => ?_
  have e0 : (ValueIdx.ix3 (⟨t.val, ht⟩ : Fin 32) s e : S32x2048x64.Idx)
      = ValueIdx.ix3 (Cert.Flat.hb b ⟨t.val % 16, hk⟩) s e := by
    congr 1
    exact Fin.ext (by show t.val = b.val * 16 + t.val % 16; omega)
  rw [heads_block4_apply V c t ht s e, weight_block4_apply V c t e n, ha, e0, Cert.Flat.flatHeads_apply, hw]

include ha hw in
/-- The accumulator after grid position m = 16 b + h, at entry (s, n): the contributions of heads 0 … h. -/
theorem acc4_apply : ∀ (m : ℕ) (hm : m < cfg4.N) (b : Fin 2), m / 16 = b.val → ∀ (s : Fin 2048) (n : Fin 1024),
    (acc4 (F := Ideal) V c m hm : S2048x1024.Idx → EReal) (ix2 s n)
      = ∑ k ∈ Finset.range (m % 16 + 1), headTerm4 a Wo b s n k
  | 0, hm, b, hb, s, n => by
    refine (congrFun (acc4_reset V c ⟨0, hm⟩ rfl) (ix2 s n)).trans ?_
    refine (head_step4 V c a Wo ha hw ⟨0, hm⟩ (Nat.zero_lt_succ _) b hb zero4 s n).trans ?_
    rw [zero4_apply, zero_add]
    show headTerm4 a Wo b s n (0 % 16) = ∑ k ∈ Finset.range (0 % 16 + 1), headTerm4 a Wo b s n k
    rw [Nat.zero_mod, Finset.sum_range_one]
  | m + 1, hm, b, hb, s, n => by
    have h32 : m + 1 < 32 := by have h := hm; rw [show cfg4.N = 32 from N_4] at h; exact h
    by_cases h0 : (m + 1) % 16 = 0
    · refine (congrFun (acc4_reset V c ⟨m + 1, hm⟩ h0) (ix2 s n)).trans ?_
      refine (head_step4 V c a Wo ha hw ⟨m + 1, hm⟩ h32 b hb zero4 s n).trans ?_
      rw [zero4_apply, zero_add]
      show headTerm4 a Wo b s n ((m + 1) % 16) = _
      rw [h0, Finset.sum_range_one]
    · refine (congrFun (acc4_step V c ⟨m + 1, hm⟩ h0) (ix2 s n)).trans ?_
      refine (head_step4 V c a Wo ha hw ⟨m + 1, hm⟩ h32 b hb _ s n).trans ?_
      have ih := acc4_apply m (Nat.lt_of_succ_lt hm) b (by omega) s n
      have e1 : (m + 1) % 16 = m % 16 + 1 := by omega
      show (acc4 (F := Ideal) V c m (Nat.lt_of_succ_lt hm) : S2048x1024.Idx → EReal) (ix2 s n) + headTerm4 a Wo b s n ((m + 1) % 16) = _
      rw [ih, e1, Finset.sum_range_succ _ (m % 16 + 1)]

include ha hw in
/-- What a point with h = 15 writes back is its row block of the projection summed by heads. -/
theorem flushed4_eq (t : Fin cfg4.N) (hf : (cfg4.win 2).flush t = true) :
    (dat4 (F := Ideal) V c).flushed 2 t
      = ((cfg4.win 2).blk t).view.read (Elt Ideal) (Cert.Flat.flatRows (Cert.Spec.outHeads a Wo)) := by
  have h15 : t.val % 16 = 15 := (flush4_2 t).mp hf
  have h32 : t.val < 32 := Nat.lt_of_lt_of_eq t.isLt (show cfg4.N = 32 from N_4)
  have hb : t.val / 16 < 2 := by omega
  obtain ⟨-, -, -, -, -, -, e0, e1⟩ := block_indices4 t
  show (cfg4.win 2).cut (grid4.coords t) ((dat4 (F := Ideal) V c).after 2 t) = _
  rw [after4_2]
  funext j
  rw [View.read_apply]
  show (acc4 (F := Ideal) V c t.val t.isLt : S2048x1024.Idx → EReal) j
    = Cert.Flat.flatRows (Cert.Spec.outHeads a Wo) (((cfg4.win 2).blk t).view.emb j)
  obtain ⟨s, n, rfl⟩ : ∃ (s : Fin 2048) (n : Fin 1024), j = ix2 s n := ⟨j 0, j 1, eq_ix2 j⟩
  have hemb : ((cfg4.win 2).blk t).view.emb (ix2 s n) = ix2 (Cert.Flat.row ⟨t.val / 16, hb⟩ s) n :=
    funext fun d => Fin.ext (by
      match d with
      | ⟨0, _⟩ => show win4_2.index t (0 : Fin 2) * 2048 + 1 * s.val = t.val / 16 * 2048 + s.val; rw [e0]; omega
      | ⟨1, _⟩ => show win4_2.index t (1 : Fin 2) * 1024 + 1 * n.val = n.val; rw [e1]; omega)
  rw [hemb, Cert.Flat.flatRows_apply, acc4_apply V c a Wo ha hw t.val t.isLt ⟨t.val / 16, hb⟩ rfl s n, h15]
  exact sum_headTerm4 a Wo _ s n

end

/-- An index of the result lies in point t's block iff its row lies in the block's 2048 rows. -/
theorem mem_block4 (t : Fin cfg4.N) (i : S4096x1024.Idx) :
    i ∈ ((cfg4.win 2).blk t).view.set
      ↔ ∀ d : Fin 2, win4_2.index t d * S2048x1024.size d ≤ (i d).val
          ∧ (i d).val < win4_2.index t d * S2048x1024.size d + S2048x1024.size d := by
  show i ∈ ((View.whole main_v20).slice (win4_2.rect t)).set ↔ _
  rw [View.set_slice_whole, Rect.mem_set_unit]
  exact Iff.rfl

/-- Row r of the result is written back by the last point of batch r / 2048. -/
theorem covered4 (i : S4096x1024.Idx) :
    ∃ t : Fin cfg4.N, (cfg4.win 2).flush t = true ∧ i ∈ ((cfg4.win 2).blk t).view.set := by
  have hi0 : (i 0).val < 4096 := (i 0).isLt
  have hi1 : (i 1).val < 1024 := (i 1).isLt
  have hN : cfg4.N = 32 := N_4
  have ht : 16 * ((i 0).val / 2048) + 15 < cfg4.N := by rw [hN]; omega
  obtain ⟨-, -, -, -, -, -, e0, e1⟩ := block_indices4 ⟨16 * ((i 0).val / 2048) + 15, ht⟩
  refine ⟨⟨16 * ((i 0).val / 2048) + 15, ht⟩, (flush4_2 _).mpr (by show (16 * ((i 0).val / 2048) + 15) % 16 = 15; omega), ?_⟩
  rw [mem_block4]
  intro d
  match d with
  | ⟨0, _⟩ =>
    show win4_2.index ⟨16 * ((i 0).val / 2048) + 15, ht⟩ (0 : Fin 2) * 2048 ≤ (i 0).val
      ∧ (i 0).val < win4_2.index ⟨16 * ((i 0).val / 2048) + 15, ht⟩ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win4_2.index ⟨16 * ((i 0).val / 2048) + 15, ht⟩ (1 : Fin 2) * 1024 ≤ (i 1).val
      ∧ (i 1).val < win4_2.index ⟨16 * ((i 0).val / 2048) + 15, ht⟩ (1 : Fin 2) * 1024 + 1024
    rw [e1]
    omega

/-- The result array of the launch, at any contents of the core's buffers whose attention result is the head-major
    array a and whose weight window is Wo read head-major: the output projection summed by heads, row 2048 b + s. -/
theorem out_value (V : (c : Dev nD) → (b : Ref sig .tc) → Buf (Elt Ideal) ((c : Thread nD τ).loc b)) (c : Dev nD)
    (a : Cert.Spec.Heads) (Wo : Cert.Spec.Wt)
    (ha : (V c (Pipeline.arrRef spec4 0) : S32x2048x64.Idx → EReal) = Cert.Flat.flatHeads a)
    (hw : ∀ (h : Fin 16) (e : Fin 64) (n : Fin 1024),
      (V c (Pipeline.arrRef spec4 1) : S16x64x1024.Idx → EReal) (ValueIdx.ix3 h e n) = Wo (Cert.Spec.hd h e) n) :
    ((dat4 (F := Ideal) V c).arrAt 2 cfg4.N : S4096x1024.Idx → EReal) = Cert.Flat.flatRows (Cert.Spec.outHeads a Wo) :=
  (dat4 (F := Ideal) V c).arrAt_eq_of_cover 2 (Cert.Flat.flatRows (Cert.Spec.outHeads a Wo))
    (fun t hf => flushed4_eq V c a Wo ha hw t hf) covered4

end Cert.KernelIdeal.Region

end
-- ==== Proof.HostReads.lean ====
/-
  What the host operations around the launches leave in the arrays the launches read, at an index, over the
  extended reals.

  Before the first launch each weight [1024, 1024] is split along its columns into heads (a column n is 64 h + e),
  the three input weights are moved head-major to [16, 1024, 64] and the output weight is split along its rows to
  [16, 64, 1024]; the narrowing to the short float format changes nothing over the extended reals. The three
  activations [2, 2048, 1024] are flattened to [4096, 1024], row 2048 b + s. Between the launches the two valid
  lengths are repeated once per head, entry 16 b + h holding batch b's length. After the last launch the
  [4096, 1024] result is split back into [2, 2048, 1024].
-/
import proofs.«418068_j5952824673153_2_alg».proof.Proof.Gen.KernelIdeal.Regions
import proofs.«418068_j5952824673153_2_alg».proof.Proof.Flat
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal

noncomputable section

namespace Cert.KernelIdeal.Region

open Cert.KernelIdeal Cert.KernelIdeal.Gen
open Idealize.ShloMosaic Idealize.ShloMosaic.TcCoe Idealize.ShloMosaic.ValueIdx Idealize.SL.Sem

/-! ## The layout operations over any array -/

/-- Flattening [2, 2048, 1024] to [4096, 1024] puts entry (b, s, d) in row 2048 b + s, column d. -/
private theorem flatten_rows (x : S2x2048x1024.Idx → EReal) :
    (shapeCast S4096x1024 x shapeCasts_S2x2048x1024_S4096x1024 : S4096x1024.Idx → EReal)
      = Cert.Flat.flatRows (Cert.Spec.act3 x) := by
  funext i
  obtain ⟨r, d, rfl⟩ : ∃ r d, i = ix2 r d := ⟨i 0, i 1, eq_ix2 i⟩
  obtain ⟨b, s, rfl⟩ := Cert.Flat.exists_row r
  rw [Cert.Flat.flatRows_apply]
  exact shapeCast_apply x shapeCasts_S2x2048x1024_S4096x1024 (ix2 (Cert.Flat.row b s) d) (ValueIdx.ix3 b s d)
    (by rw [Shape.rowMajor_val_three, Shape.rowMajor_val_two]
        show (b.val * 2048 + s.val) * 1024 + d.val = (b.val * 2048 + s.val) * 1024 + d.val
        rfl)

/-- Splitting [4096, 1024] back into [2, 2048, 1024] reads row 2048 b + s at (b, s). -/
private theorem split_rows (y : S4096x1024.Idx → EReal) (A : Cert.Spec.Act) (hA : y = Cert.Flat.flatRows A) :
    (shapeCast S2x2048x1024 y shapeCasts_S4096x1024_S2x2048x1024 : S2x2048x1024.Idx → EReal) = Cert.Spec.toArr A := by
  funext i
  obtain ⟨b, s, d, rfl⟩ : ∃ b s d, i = ValueIdx.ix3 b s d := ⟨i 0, i 1, i 2, eq_ix3 i⟩
  have e : shapeCast S2x2048x1024 y shapeCasts_S4096x1024_S2x2048x1024 (ValueIdx.ix3 b s d) = y (ix2 (Cert.Flat.row b s) d) :=
    shapeCast_apply y shapeCasts_S4096x1024_S2x2048x1024 (ValueIdx.ix3 b s d) (ix2 (Cert.Flat.row b s) d)
      (by rw [Shape.rowMajor_val_three, Shape.rowMajor_val_two]
          show (b.val * 2048 + s.val) * 1024 + d.val = (b.val * 2048 + s.val) * 1024 + d.val
          rfl)
  rw [e, hA, Cert.Flat.flatRows_apply]
  rfl

/-- A weight's columns split into heads and the head axis moved to the front: entry (h, d, e) of the
    [16, 1024, 64] array is the weight's entry (d, 64 h + e). -/
private theorem head_major_cols (w : S1024x1024.Idx → EReal) (h : Fin 16) (d : Fin 1024) (e : Fin 64) :
    (transpose S16x1024x64 [1, 0, 2] (shapeCast S1024x16x64 w shapeCasts_S1024x1024_S1024x16x64)
        transposes_S1024x16x64_S16x1024x64_1_0_2 : S16x1024x64.Idx → EReal) (ValueIdx.ix3 h d e)
      = Cert.Spec.wt2 w d (Cert.Spec.hd h e) := by
  rw [transpose_apply [1, 0, 2] (shapeCast S1024x16x64 w shapeCasts_S1024x1024_S1024x16x64)
    transposes_S1024x16x64_S16x1024x64_1_0_2 (ValueIdx.ix3 h d e) (ValueIdx.ix3 d h e)
    (fun a => match a with
      | ⟨0, _⟩ => rfl
      | ⟨1, _⟩ => rfl
      | ⟨2, _⟩ => rfl)]
  exact shapeCast_apply w shapeCasts_S1024x1024_S1024x16x64 (ValueIdx.ix3 d h e) (ix2 d (Cert.Spec.hd h e))
    (by rw [Shape.rowMajor_val_two, Shape.rowMajor_val_three]
        show d.val * 1024 + (h.val * 64 + e.val) = (d.val * 16 + h.val) * 64 + e.val
        omega)

/-- A weight's rows split into heads: entry (h, e, n) of the [16, 64, 1024] array is the weight's entry
    (64 h + e, n). -/
private theorem head_major_rows (w : S1024x1024.Idx → EReal) (h : Fin 16) (e : Fin 64) (n : Fin 1024) :
    (shapeCast S16x64x1024 w shapeCasts_S1024x1024_S16x64x1024 : S16x64x1024.Idx → EReal) (ValueIdx.ix3 h e n)
      = Cert.Spec.wt2 w (Cert.Spec.hd h e) n :=
  shapeCast_apply w shapeCasts_S1024x1024_S16x64x1024 (ValueIdx.ix3 h e n) (ix2 (Cert.Spec.hd h e) n)
    (by rw [Shape.rowMajor_val_two, Shape.rowMajor_val_three]
        show (h.val * 64 + e.val) * 1024 + n.val = (h.val * 64 + e.val) * 1024 + n.val
        rfl)

/-- The lengths repeated once per head and flattened: entry 16 b + h of the 32 is batch b's length. -/
private theorem lens_per_head (v : S2.Idx → BitVec 32) (b : Fin 2) (h : Fin 16) :
    (shapeCast S32 (broadcastInDim S2x16 ![0] bcast_S2_S2x16_0 v) shapeCasts_S2x16_S32 : S32.Idx → BitVec 32)
        (ix1 (Cert.Flat.hb b h)) = v (ix1 b) := by
  rw [shapeCast_apply (broadcastInDim S2x16 ![0] bcast_S2_S2x16_0 v) shapeCasts_S2x16_S32 (ix1 (Cert.Flat.hb b h)) (ix2 b h)
    (by rw [Shape.rowMajor_val_two, Shape.rowMajor_val_one]
        show b.val * 16 + h.val = b.val * 16 + h.val
        rfl)]
  exact broadcastInDim_apply _ bcast_S2_S2x16_0 v (ix2 b h) (ix1 b) (fun a => match a with
    | ⟨0, _⟩ => by show b.val = if (2 : Nat) = 1 then 0 else b.val; rw [if_neg (by decide)])

/-! ## The arrays the launches read -/

variable (m : (ℓ : Loc nD τ sig) → Buf (Elt Ideal) ℓ) (c : Dev nD)

/-- The first launch's activations are the first argument, flattened. -/
theorem read_act0 : (V1 m c main_v11 : S4096x1024.Idx → EReal) = Cert.Flat.flatRows (Cert.Spec.act3 (m ((c : Thread nD τ).loc main_arg0))) := by
  have e : (V1 m c main_v11 : S4096x1024.Idx → EReal)
      = shapeCast S4096x1024 (m ((c : Thread nD τ).loc main_arg0)) shapeCasts_S2x2048x1024_S4096x1024 := by
    show StableHlo.after hostOps0 (V0 m c) (Proc.devRef .tc main_v11) = _
    after_results
    rfl
  rw [e]
  exact flatten_rows _

/-- The second launch's activations are the second argument, flattened. -/
theorem read_act1 : (V1 m c main_v12 : S4096x1024.Idx → EReal) = Cert.Flat.flatRows (Cert.Spec.act3 (m ((c : Thread nD τ).loc main_arg1))) := by
  have e : (V1 m c main_v12 : S4096x1024.Idx → EReal)
      = shapeCast S4096x1024 (m ((c : Thread nD τ).loc main_arg1)) shapeCasts_S2x2048x1024_S4096x1024 := by
    show StableHlo.after hostOps0 (V0 m c) (Proc.devRef .tc main_v12) = _
    after_results
    rfl
  rw [e]
  exact flatten_rows _

/-- The third launch's activations are the third argument, flattened. -/
theorem read_act2 : (V1 m c main_v13 : S4096x1024.Idx → EReal) = Cert.Flat.flatRows (Cert.Spec.act3 (m ((c : Thread nD τ).loc main_arg2))) := by
  have e : (V1 m c main_v13 : S4096x1024.Idx → EReal)
      = shapeCast S4096x1024 (m ((c : Thread nD τ).loc main_arg2)) shapeCasts_S2x2048x1024_S4096x1024 := by
    show StableHlo.after hostOps0 (V0 m c) (Proc.devRef .tc main_v13) = _
    after_results
    rfl
  rw [e]
  exact flatten_rows _

/-- The query weight as the first launch reads it: head-major, entry (h, d, e) the weight's (d, 64 h + e). -/
theorem read_wq (h : Fin 16) (d : Fin 1024) (e : Fin 64) :
    (V1 m c main_v2 : S16x1024x64.Idx → EReal) (ValueIdx.ix3 h d e) = Cert.Spec.wt2 (m ((c : Thread nD τ).loc main_arg3)) d (Cert.Spec.hd h e) := by
  have e0 : (V1 m c main_v2 : S16x1024x64.Idx → EReal)
      = (truncf (F := Ideal) .bf16 (transpose S16x1024x64 [1, 0, 2] (shapeCast S1024x16x64 (m ((c : Thread nD τ).loc main_arg3)) shapeCasts_S1024x1024_S1024x16x64)
          transposes_S1024x16x64_S16x1024x64_1_0_2 : FVec Ideal S16x1024x64 .f32) bitsLt_bf16_f32 : FVec Ideal S16x1024x64 .bf16) := by
    show StableHlo.after hostOps0 (V0 m c) (Proc.devRef .tc main_v2) = _
    after_results
    rfl
  rw [e0, truncf_apply]
  exact head_major_cols _ h d e

/-- The key weight as the second launch reads it. -/
theorem read_wk (h : Fin 16) (d : Fin 1024) (e : Fin 64) :
    (V1 m c main_v5 : S16x1024x64.Idx → EReal) (ValueIdx.ix3 h d e) = Cert.Spec.wt2 (m ((c : Thread nD τ).loc main_arg4)) d (Cert.Spec.hd h e) := by
  have e0 : (V1 m c main_v5 : S16x1024x64.Idx → EReal)
      = (truncf (F := Ideal) .bf16 (transpose S16x1024x64 [1, 0, 2] (shapeCast S1024x16x64 (m ((c : Thread nD τ).loc main_arg4)) shapeCasts_S1024x1024_S1024x16x64)
          transposes_S1024x16x64_S16x1024x64_1_0_2 : FVec Ideal S16x1024x64 .f32) bitsLt_bf16_f32 : FVec Ideal S16x1024x64 .bf16) := by
    show StableHlo.after hostOps0 (V0 m c) (Proc.devRef .tc main_v5) = _
    after_results
    rfl
  rw [e0, truncf_apply]
  exact head_major_cols _ h d e

/-- The value weight as the third launch reads it. -/
theorem read_wv (h : Fin 16) (d : Fin 1024) (e : Fin 64) :
    (V1 m c main_v8 : S16x1024x64.Idx → EReal) (ValueIdx.ix3 h d e) = Cert.Spec.wt2 (m ((c : Thread nD τ).loc main_arg5)) d (Cert.Spec.hd h e) := by
  have e0 : (V1 m c main_v8 : S16x1024x64.Idx → EReal)
      = (truncf (F := Ideal) .bf16 (transpose S16x1024x64 [1, 0, 2] (shapeCast S1024x16x64 (m ((c : Thread nD τ).loc main_arg5)) shapeCasts_S1024x1024_S1024x16x64)
          transposes_S1024x16x64_S16x1024x64_1_0_2 : FVec Ideal S16x1024x64 .f32) bitsLt_bf16_f32 : FVec Ideal S16x1024x64 .bf16) := by
    show StableHlo.after hostOps0 (V0 m c) (Proc.devRef .tc main_v8) = _
    after_results
    rfl
  rw [e0, truncf_apply]
  exact head_major_cols _ h d e

/-- The output weight as the last launch reads it: entry (h, e, n) the weight's (64 h + e, n). -/
theorem read_wo (h : Fin 16) (e : Fin 64) (n : Fin 1024) :
    (V1 m c main_v10 : S16x64x1024.Idx → EReal) (ValueIdx.ix3 h e n) = Cert.Spec.wt2 (m ((c : Thread nD τ).loc main_arg6)) (Cert.Spec.hd h e) n := by
  have e0 : (V1 m c main_v10 : S16x64x1024.Idx → EReal)
      = (truncf (F := Ideal) .bf16 (shapeCast S16x64x1024 (m ((c : Thread nD τ).loc main_arg6)) shapeCasts_S1024x1024_S16x64x1024 : FVec Ideal S16x64x1024 .f32) bitsLt_bf16_f32 : FVec Ideal S16x64x1024 .bf16) := by
    show StableHlo.after hostOps0 (V0 m c) (Proc.devRef .tc main_v10) = _
    after_results
    rfl
  rw [e0, truncf_apply]
  exact head_major_rows _ h e n

/-- The lengths the attention launch reads: entry 16 b + h is batch b's length, whatever else the buffers hold. -/
theorem read_lens (W : Valuation τ sig (Elt Ideal)) (b : Fin 2) (h : Fin 16) :
    (StableHlo.after hostOps3 W main_v18 : S32.Idx → BitVec 32) (ix1 (Cert.Flat.hb b h)) = (W main_arg7 : S2.Idx → BitVec 32) (ix1 b) := by
  have e0 : (StableHlo.after hostOps3 W main_v18 : S32.Idx → BitVec 32)
      = shapeCast S32 (broadcastInDim S2x16 ![0] bcast_S2_S2x16_0 (W main_arg7 : S2.Idx → BitVec 32)) shapeCasts_S2x16_S32 := by
    show StableHlo.after hostOps3 W (Proc.devRef .tc main_v18) = _
    after_results
    rfl
  rw [e0]
  exact lens_per_head _ b h

/-- The program's result: the last launch's [4096, 1024] output split back into [2, 2048, 1024]. -/
theorem read_result (W : Valuation τ sig (Elt Ideal)) (A : Cert.Spec.Act) (hA : (W main_v20 : S4096x1024.Idx → EReal) = Cert.Flat.flatRows A) :
    (StableHlo.after hostOps5 W main_v21 : S2x2048x1024.Idx → EReal) = Cert.Spec.toArr A := by
  have e0 : (StableHlo.after hostOps5 W main_v21 : S2x2048x1024.Idx → EReal)
      = shapeCast S2x2048x1024 (W main_v20 : S4096x1024.Idx → EReal) shapeCasts_S4096x1024_S2x2048x1024 := by
    show StableHlo.after hostOps5 W (Proc.devRef .tc main_v21) = _
    after_results
    rfl
  rw [e0]
  exact split_rows _ A hA

end Cert.KernelIdeal.Region

end
-- ==== Proof.KernelValue.lean ====
/-
  The idealized kernel's result as one function of its arguments.

  Through the run's valuations: the first host stretch flattens the three activations to [4096, 1024] and re-lays the
  four weights head-major; each projection launch leaves the head-major projection of its activation; the second host
  stretch repeats each batch's valid length over its 16 heads, which is the table the attention launch reads; the
  attention launch leaves, per head, the exponentials of the masked scaled scores contracted with the values and
  divided by their row sums; the output-projection launch leaves the sum over heads of the products with the output
  weight's head slices; the last host operation un-flattens the rows. Composed, the result buffer holds the first
  arrangement of the specification, `Cert.Spec.attnMul`, of the argument arrays.
-/
import proofs.«418068_j5952824673153_2_alg».proof.Proof.Run
import proofs.«418068_j5952824673153_2_alg».proof.Proof.ProjValue0
import proofs.«418068_j5952824673153_2_alg».proof.Proof.ProjValue1
import proofs.«418068_j5952824673153_2_alg».proof.Proof.ProjValue2
import proofs.«418068_j5952824673153_2_alg».proof.Proof.AttnValue
import proofs.«418068_j5952824673153_2_alg».proof.Proof.OutValue
import proofs.«418068_j5952824673153_2_alg».proof.Proof.HostReads

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Cert.Spec Cert.Flat

variable (m : (ℓ : Loc nD τ sig) → Buf (Elt Ideal) ℓ) (c : Dev nD)

/-- The arguments by coordinates. -/
abbrev argQ : Act := act3 (m ((c : Thread nD τ).loc main_arg0))
abbrev argK : Act := act3 (m ((c : Thread nD τ).loc main_arg1))
abbrev argV : Act := act3 (m ((c : Thread nD τ).loc main_arg2))
abbrev argWq : Wt := wt2 (m ((c : Thread nD τ).loc main_arg3))
abbrev argWk : Wt := wt2 (m ((c : Thread nD τ).loc main_arg4))
abbrev argWv : Wt := wt2 (m ((c : Thread nD τ).loc main_arg5))
abbrev argWo : Wt := wt2 (m ((c : Thread nD τ).loc main_arg6))
abbrev argLens : Lens := lens1 (m ((c : Thread nD τ).loc main_arg7))

/-- A host stretch leaves alone every buffer it does not write: the second stretch writes only the repeated lengths. -/
theorem W5_of (b : Ref sig .tc) (h : b ∉ hostOps3_W) : W5 m c b = W4 m c b :=
  StableHlo.after_of_writes_sub hostOps3 _ hostOps3_writes h

/-- The first projection launch leaves the head-major projection of the queries. -/
theorem value_q : (W2 m c main_v14 : S32x2048x64.Idx → EReal) = flatHeads (proj (argQ m c) (argWq m c)) := by
  rw [W2_out]
  exact proj_value0 (atTc (W1 m)) c _ _ (read_act0 m c) (read_wq m c)

/-- The second, of the keys: its inputs are as the first host stretch left them. -/
theorem value_k : (W3 m c main_v15 : S32x2048x64.Idx → EReal) = flatHeads (proj (argK m c) (argWk m c)) := by
  rw [W3_out]
  refine proj_value1 (atTc (W2 m)) c _ _ ?_ ?_
  · exact (W2_of_ne m c main_v12 (by decide)).trans (read_act1 m c)
  · exact fun h d e => (congrFun (W2_of_ne m c main_v5 (by decide)) _).trans (read_wk m c h d e)

/-- The third, of the values. -/
theorem value_v : (W4 m c main_v16 : S32x2048x64.Idx → EReal) = flatHeads (proj (argV m c) (argWv m c)) := by
  rw [W4_out]
  refine proj_value2 (atTc (W3 m)) c _ _ ?_ ?_
  · exact (W3_of_ne m c main_v13 (by decide)).trans ((W2_of_ne m c main_v13 (by decide)).trans (read_act2 m c))
  · exact fun h d e => (congrFun ((W3_of_ne m c main_v8 (by decide)).trans (W2_of_ne m c main_v8 (by decide))) _).trans (read_wv m c h d e)

/-- The table's word for head-batch index 16 b + h is batch b's valid length. -/
theorem table_word (b : Fin 2) (h : Fin 16) : tword (F := Ideal) (a3 m) (hb b h) = argLens m c b := by
  obtain rfl : c = 0 := Subsingleton.elim _ _
  show (W5 m (0 : Dev nD) main_v18 : S32.Idx → BitVec 32) (ix1 (hb b h)) = _
  refine (read_lens (W4 m 0) b h).trans ?_
  show (W4 m (0 : Dev nD) main_arg7 : S2.Idx → BitVec 32) (ix1 b) = (m (((0 : Dev nD) : Thread nD τ).loc main_arg7) : S2.Idx → BitVec 32) (ix1 b)
  exact congrFun ((W4_of_ne m 0 main_arg7 (by decide)).trans ((W3_of_ne m 0 main_arg7 (by decide)).trans
    ((W2_of_ne m 0 main_arg7 (by decide)).trans (V1_of m 0 main_arg7 (by decide))))) _

/-- The attention launch leaves, per head, the contraction with the values divided by the row sums. -/
theorem value_att : (W6 m c main_v19 : S32x2048x64.Idx → EReal)
    = flatHeads (attAfter (maskMul (argLens m c) (dots (proj (argQ m c) (argWq m c)) (proj (argK m c) (argWk m c)))) (proj (argV m c) (argWv m c))) := by
  rw [W6_out]
  refine attn_value (a3 m) (atTc (W5 m)) c _ _ _ _ ?_ ?_ ?_ (table_word m c)
  · exact (W5_of m c main_v14 (by decide)).trans ((W4_of_ne m c main_v14 (by decide)).trans ((W3_of_ne m c main_v14 (by decide)).trans (value_q m c)))
  · exact (W5_of m c main_v15 (by decide)).trans ((W4_of_ne m c main_v15 (by decide)).trans (value_k m c))
  · exact (W5_of m c main_v16 (by decide)).trans (value_v m c)

/-- The output projection leaves the sum over heads, by flat rows. -/
theorem value_out : (W7 m c main_v20 : S4096x1024.Idx → EReal)
    = flatRows (attnMul (argQ m c) (argK m c) (argV m c) (argWq m c) (argWk m c) (argWv m c) (argWo m c) (argLens m c)) := by
  rw [W7_out]
  refine out_value (atTc (W6 m)) c _ _ (value_att m c) ?_
  exact fun h e n => (congrFun ((W6_of_ne m c main_v10 (by decide)).trans ((W5_of m c main_v10 (by decide)).trans
    ((W4_of_ne m c main_v10 (by decide)).trans ((W3_of_ne m c main_v10 (by decide)).trans (W2_of_ne m c main_v10 (by decide)))))) _).trans
    (read_wo m c h e n)

/-- THE KERNEL'S VALUE: the result buffer after the run holds the first arrangement of the specification. -/
theorem kernel_value : (W8 m c main_v21 : S2x2048x1024.Idx → EReal)
    = toArr (attnMul (argQ m c) (argK m c) (argV m c) (argWq m c) (argWk m c) (argWv m c) (argWo m c) (argLens m c)) :=
  read_result (W7 m c) _ (value_out m c)

end Cert.KernelIdeal.Region

end
-- ==== Proof.RefIsSpec.lean ====
import proofs.«418068_j5952824673153_2_alg».proof.Proof.Gen.ReferenceIdeal.Run
import proofs.«418068_j5952824673153_2_alg».proof.Proof.Gen.ReferenceIdeal.Read
import Idealize.ShloMosaic.Lib.ValueIdx
import Idealize.ShloMosaic.PureOps.Ideal.Laws
import proofs.«418068_j5952824673153_2_alg».proof.Proof.Spec

/-!
  The reference program, read one operation at a time, is the second arrangement of the masked attention.

  Each stage of the program is read at explicit coordinates and identified with the corresponding array of the
  specification: the three projections to heads (a contraction over the 1024 model coordinates, then the model
  coordinate 64 h + e read as head h and head coordinate e), the scores (inner products over the head coordinate),
  their division by the square root of 64, the replacement of the key positions at or past the batch's valid length
  by the constant -10^6, the row maximum (a fold of max from -∞, and -∞ is the bottom element), the exponentials
  of the differences, their row sums (from the zero word), the quotients, the contraction with the values over the
  key positions, and, after the head axis is moved back and merged (d ↦ d / 64, d % 64), the output projection as
  one sum over the model coordinates. Every step is a rewrite at a symbolic index; no index set is enumerated.
-/

noncomputable section

open scoped BigOperators

namespace Cert.RefSide

open Cert.ReferenceIdeal Cert.ReferenceIdeal.Gen Cert.ReferenceIdeal.Read Cert.Spec
open Idealize.ShloMosaic Idealize.ShloMosaic.ValueIdx

/-! ## The three projections to heads -/

/-- Swapping the position and head axes of (b, h, s, e) gives (b, s, h, e). -/
private theorem swap_mid (b : Fin 2) (h : Fin 16) (s : Fin 2048) (e : Fin 64) :
    idx_main_v2 (ix4 b h s e) = ix4 b s h e :=
  funext fun a => Fin.ext (by match a with | ⟨0, _⟩ => rfl | ⟨1, _⟩ => rfl | ⟨2, _⟩ => rfl | ⟨3, _⟩ => rfl)

/-- In row-major order (b, s, h, e) of [2, 2048, 16, 64] is (b, s, 64 h + e) of [2, 2048, 1024]. -/
private theorem join_head (b : Fin 2) (s : Fin 2048) (h : Fin 16) (e : Fin 64) :
    idx_main_v1 (ix4 b s h e) = ix3 b s (hd h e) := by
  have hb := b.isLt; have hs := s.isLt; have hh := h.isLt; have he := e.isLt
  funext a; apply Fin.ext
  match a with
  | ⟨0, _⟩ => show (((b.val * 2048 + s.val) * 16 + h.val) * 64 + e.val) / 2097152 = b.val; omega
  | ⟨1, _⟩ => show (((b.val * 2048 + s.val) * 16 + h.val) * 64 + e.val) / 1024 % 2048 = s.val; omega
  | ⟨2, _⟩ => show (((b.val * 2048 + s.val) * 16 + h.val) * 64 + e.val) % 1024 = h.val * 64 + e.val; omega

private theorem row_of_act (b : Fin 2) (s : Fin 2048) (d k : Fin 1024) :
    lidx_main_v0 (ix3 b s d) k = ix3 b s k :=
  funext fun a => Fin.ext (by match a with | ⟨0, _⟩ => rfl | ⟨1, _⟩ => rfl | ⟨2, _⟩ => rfl)

private theorem col_of_wt (b : Fin 2) (s : Fin 2048) (d k : Fin 1024) :
    ridx_main_v0 (ix3 b s d) k = ix2 k d :=
  funext fun a => Fin.ext (by match a with | ⟨0, _⟩ => rfl | ⟨1, _⟩ => rfl)

/-- The query projection, head-major, is the sum over the model coordinates. -/
private theorem query_heads (x : (⟨S2x2048x1024, .f32⟩ : BufTy).Contents (Elt Ideal))
    (w : (⟨S1024x1024, .f32⟩ : BufTy).Contents (Elt Ideal)) (b : Fin 2) (h : Fin 16) (s : Fin 2048) (e : Fin 64) :
    val_main_v2 (F := Ideal) x w (ix4 b h s e) = proj (act3 x) (wt2 w) b h s e := by
  rw [val_main_v2_apply, swap_mid, val_main_v1_apply, join_head, val_main_v0_apply]
  show (∑ k : Fin 1024, _) = ∑ d : Fin 1024, _
  refine Finset.sum_congr rfl fun k _ => ?_
  rw [row_of_act, col_of_wt]
  rfl

/-- The key and value projections are the same program text on other arguments. -/
private theorem key_heads (x : (⟨S2x2048x1024, .f32⟩ : BufTy).Contents (Elt Ideal))
    (w : (⟨S1024x1024, .f32⟩ : BufTy).Contents (Elt Ideal)) (b : Fin 2) (h : Fin 16) (s : Fin 2048) (e : Fin 64) :
    val_main_v5 (F := Ideal) x w (ix4 b h s e) = proj (act3 x) (wt2 w) b h s e :=
  query_heads x w b h s e

private theorem value_heads (x : (⟨S2x2048x1024, .f32⟩ : BufTy).Contents (Elt Ideal))
    (w : (⟨S1024x1024, .f32⟩ : BufTy).Contents (Elt Ideal)) (b : Fin 2) (h : Fin 16) (s : Fin 2048) (e : Fin 64) :
    val_main_v8 (F := Ideal) x w (ix4 b h s e) = proj (act3 x) (wt2 w) b h s e :=
  query_heads x w b h s e

/-! ## Scores, their scaling and the key-length mask -/

private theorem query_row (b : Fin 2) (h : Fin 16) (i j : Fin 2048) (k : Fin 64) :
    lidx_main_v9 (ix4 b h i j) k = ix4 b h i k :=
  funext fun a => Fin.ext (by match a with | ⟨0, _⟩ => rfl | ⟨1, _⟩ => rfl | ⟨2, _⟩ => rfl | ⟨3, _⟩ => rfl)

private theorem key_row (b : Fin 2) (h : Fin 16) (i j : Fin 2048) (k : Fin 64) :
    ridx_main_v9 (ix4 b h i j) k = ix4 b h j k :=
  funext fun a => Fin.ext (by match a with | ⟨0, _⟩ => rfl | ⟨1, _⟩ => rfl | ⟨2, _⟩ => rfl | ⟨3, _⟩ => rfl)

/-- The scores of the program's arguments, in the reading by coordinates. -/
private abbrev rawScores (x0 x1 : (⟨S2x2048x1024, .f32⟩ : BufTy).Contents (Elt Ideal))
    (x3 x4 : (⟨S1024x1024, .f32⟩ : BufTy).Contents (Elt Ideal)) : Scores :=
  dots (proj (act3 x0) (wt2 x3)) (proj (act3 x1) (wt2 x4))

/-- The masked, scaled scores of the program's arguments. -/
private abbrev maskedScores (x0 x1 : (⟨S2x2048x1024, .f32⟩ : BufTy).Contents (Elt Ideal))
    (x3 x4 : (⟨S1024x1024, .f32⟩ : BufTy).Contents (Elt Ideal)) (x7 : (⟨S2, .i32⟩ : BufTy).Contents (Elt Ideal)) : Scores :=
  maskDiv (lens1 x7) (rawScores x0 x1 x3 x4)

section
variable (x0 x1 x2 : (⟨S2x2048x1024, .f32⟩ : BufTy).Contents (Elt Ideal))
  (x3 x4 x5 x6 : (⟨S1024x1024, .f32⟩ : BufTy).Contents (Elt Ideal))
  (x7 : (⟨S2, .i32⟩ : BufTy).Contents (Elt Ideal))

/-- A score is the inner product of a query row and a key row over the head coordinate. -/
private theorem scores_read (b : Fin 2) (h : Fin 16) (i j : Fin 2048) :
    val_main_v9 (F := Ideal) x0 x1 x3 x4 (ix4 b h i j) = rawScores x0 x1 x3 x4 b h i j := by
  rw [val_main_v9_apply]
  show (∑ k : Fin 64, _) = ∑ e : Fin 64, _
  refine Finset.sum_congr rfl fun k _ => ?_
  rw [query_row, key_row, query_heads, key_heads]

/-- The scores divided by the square root of the word for 64. -/
private theorem scaled_read (b : Fin 2) (h : Fin 16) (i j : Fin 2048) :
    val_main_v12 (F := Ideal) x0 x1 x3 x4 (ix4 b h i j)
      = Ideal.div (rawScores x0 x1 x3 x4 b h i j) (Ideal.sqrt sixtyFour) := by
  rw [val_main_v12_apply, scores_read, val_main_v11_apply, val_main_v10_apply, val_main_cst_apply]
  rfl

/-- Through the three broadcasts the length compared at (b, h, i, j) is the length of batch b. -/
private theorem length_of_batch (b : Fin 2) (h : Fin 16) (i j : Fin 2048) :
    idx_main_v15 (idx_main_v17 (idx_main_call0_v1 (ix4 b h i j))) = ix1 b :=
  funext fun a => Fin.ext (by match a with | ⟨0, _⟩ => rfl)

/-- The mask word at (b, h, i, j): key position j against the valid length of batch b, as signed words. -/
private theorem mask_read (b : Fin 2) (h : Fin 16) (i j : Fin 2048) :
    val_main_call0_v1 (F := Ideal) x7 (ix4 b h i j) = keep (lens1 x7) b j := by
  rw [val_main_call0_v1_apply, val_main_v18_apply, val_main_v16_apply, val_main_v14_apply, val_main_v13_apply,
    val_main_v17_apply, val_main_v15_apply, length_of_batch]
  rfl

/-- The replacement value is the masking constant everywhere. -/
private theorem fill_read (i : S2x16x2048x2048.Idx) : val_main_call0_v2 (F := Ideal) i = negBig := by
  rw [val_main_call0_v2_apply, val_main_call0_v0_apply, val_main_cst_0_apply]
  rfl

/-- The masked scores. -/
private theorem masked_read (b : Fin 2) (h : Fin 16) (i j : Fin 2048) :
    val_main_v19 (F := Ideal) x0 x1 x3 x4 x7 (ix4 b h i j) = maskedScores x0 x1 x3 x4 x7 b h i j := by
  rw [val_main_v19_apply, mask_read, scaled_read, fill_read]
  rfl

/-! ## The row maximum, the exponentials and the row sum -/

/-- The reduced index (b, h, i) with key position k put back is (b, h, i, k). -/
private theorem put_key_back (hr : S2x16x2048x2048.Reduces [3] S2x16x2048) (b : Fin 2) (h : Fin 16) (i : Fin 2048)
    (k : Fin (S2x16x2048x2048.size 3)) : hr.lift (ix3 b h i) k = ix4 b h i (⟨k.val, k.isLt⟩ : Fin 2048) := by
  funext c; apply Fin.ext
  fin_cases c <;> rfl

/-- A maximum over the key positions of a rank-4 array, at (b, h, i): the fold of max from the initial value. -/
private theorem max_over_keys (y : FVec Ideal S2x16x2048x2048 .f32) (init : S_.Idx → Ideal .f32)
    (h' : S2x16x2048x2048.ReducesTo [3] S2x16x2048) (hu : 0 < S_.numel) (b : Fin 2) (h : Fin 16) (i : Fin 2048) :
    Host.reduce FloatOps.maximumf y init h' hu (ix3 b h i)
      = (Finset.univ : Finset (Fin 2048)).fold max (init (Shape.Idx.first hu)) (fun k => y (ix4 b h i k)) := by
  have hr : S2x16x2048x2048.Reduces [3] S2x16x2048 := by decide
  rw [Host.reduce_eq_fold_single FloatOps.maximumf y init h' hr hu]
  have hf : (y ∘ hr.lift (ix3 b h i)) = fun k : Fin 2048 => y (ix4 b h i k) :=
    funext fun k => congrArg y (put_key_back hr b h i k)
  exact congrArg (fun f => Finset.fold max (init (Shape.Idx.first hu)) f (Finset.univ : Finset (Fin 2048))) hf

/-- The float word of -∞ is the bottom element. -/
private theorem word_bot : Ideal.ofBits .f32 0xFF800000#32 = (⊥ : EReal) := by simp [Ideal.ofBits, Ideal.ieee]

/-- The reduction over key positions is the row maximum of the masked scores. -/
private theorem reduce_max_read (b : Fin 2) (h : Fin 16) (i : Fin 2048) :
    val_main_v20 (F := Ideal) x0 x1 x3 x4 x7 (ix3 b h i) = rowMax (maskedScores x0 x1 x3 x4 x7) b h i := by
  unfold val_main_v20
  rw [max_over_keys]
  simp only [masked_read]
  rw [val_main_cst_1_apply, Ideal.ofBits_def, word_bot]
  rfl

/-- Taking the maximum with -∞ once more changes nothing. -/
private theorem row_max_read (b : Fin 2) (h : Fin 16) (i : Fin 2048) :
    val_main_v22 (F := Ideal) x0 x1 x3 x4 x7 (ix3 b h i) = rowMax (maskedScores x0 x1 x3 x4 x7) b h i := by
  rw [val_main_v22_apply, val_main_v21_apply, val_main_cst_2_apply, reduce_max_read, Ideal.maximumf_def,
    Ideal.ofBits_def, word_bot]
  exact max_eq_right bot_le

/-- A row statistic kept as a unit column and broadcast over the keys is read, at (b, h, i, j), at (b, h, i). -/
private theorem row_of_entry (b : Fin 2) (h : Fin 16) (i j : Fin 2048) :
    idx_main_v23 (idx_main_v24 (ix4 b h i j)) = ix3 b h i :=
  funext fun a => Fin.ext (by match a with | ⟨0, _⟩ => rfl | ⟨1, _⟩ => rfl | ⟨2, _⟩ => rfl)

private theorem row_of_entry' (b : Fin 2) (h : Fin 16) (i j : Fin 2048) :
    idx_main_v28 (idx_main_v29 (ix4 b h i j)) = ix3 b h i :=
  funext fun a => Fin.ext (by match a with | ⟨0, _⟩ => rfl | ⟨1, _⟩ => rfl | ⟨2, _⟩ => rfl)

/-- exp (score - row maximum). -/
private theorem expo_read (b : Fin 2) (h : Fin 16) (i j : Fin 2048) :
    val_main_v26 (F := Ideal) x0 x1 x3 x4 x7 (ix4 b h i j) = expo (maskedScores x0 x1 x3 x4 x7) b h i j := by
  rw [val_main_v26_apply, val_main_v25_apply, masked_read, val_main_v24_apply, val_main_v23_apply, row_of_entry,
    row_max_read]
  rfl

private theorem entry_of_row (b : Fin 2) (h : Fin 16) (i k : Fin 2048) :
    idx_main_v27 (ix3 b h i) k = ix4 b h i k :=
  funext fun a => Fin.ext (by match a with | ⟨0, _⟩ => rfl | ⟨1, _⟩ => rfl | ⟨2, _⟩ => rfl | ⟨3, _⟩ => rfl)

/-- The row sum of the exponentials, started from the zero word. -/
private theorem denom_read (b : Fin 2) (h : Fin 16) (i : Fin 2048) :
    val_main_v27 (F := Ideal) x0 x1 x3 x4 x7 (ix3 b h i) = denom (maskedScores x0 x1 x3 x4 x7) b h i := by
  rw [val_main_v27_apply, val_main_cst_3_apply, Ideal.ofBits_def, Ideal.ofBits_zero_f32, zero_add]
  show (∑ k : Fin 2048, _) = ∑ j : Fin 2048, _
  refine Finset.sum_congr rfl fun k _ => ?_
  rw [entry_of_row, expo_read]

/-! ## The contraction with the values, back to model coordinates, and the output projection -/

/-- An exponential divided by its row sum. -/
private theorem weight_read (b : Fin 2) (h : Fin 16) (i j : Fin 2048) :
    val_main_v30 (F := Ideal) x0 x1 x3 x4 x7 (ix4 b h i j)
      = Ideal.div (expo (maskedScores x0 x1 x3 x4 x7) b h i j) (denom (maskedScores x0 x1 x3 x4 x7) b h i) := by
  rw [val_main_v30_apply, expo_read, val_main_v29_apply, val_main_v28_apply, row_of_entry', denom_read]
  rfl

private theorem weight_row (b : Fin 2) (h : Fin 16) (i : Fin 2048) (e : Fin 64) (k : Fin 2048) :
    lidx_main_v31 (ix4 b h i e) k = ix4 b h i k :=
  funext fun a => Fin.ext (by match a with | ⟨0, _⟩ => rfl | ⟨1, _⟩ => rfl | ⟨2, _⟩ => rfl | ⟨3, _⟩ => rfl)

private theorem value_col (b : Fin 2) (h : Fin 16) (i : Fin 2048) (e : Fin 64) (k : Fin 2048) :
    ridx_main_v31 (ix4 b h i e) k = ix4 b h k e :=
  funext fun a => Fin.ext (by match a with | ⟨0, _⟩ => rfl | ⟨1, _⟩ => rfl | ⟨2, _⟩ => rfl | ⟨3, _⟩ => rfl)

/-- The attention output of a head: the normalised weights contracted with the values over the key positions. -/
private theorem att_read (b : Fin 2) (h : Fin 16) (i : Fin 2048) (e : Fin 64) :
    val_main_v31 (F := Ideal) x0 x1 x2 x3 x4 x5 x7 (ix4 b h i e)
      = attBefore (maskedScores x0 x1 x3 x4 x7) (proj (act3 x2) (wt2 x5)) b h i e := by
  rw [val_main_v31_apply]
  show (∑ k : Fin 2048, _) = ∑ j : Fin 2048, _
  refine Finset.sum_congr rfl fun k _ => ?_
  rw [weight_row, value_col, weight_read, value_heads]

private theorem swap_back (b : Fin 2) (s : Fin 2048) (h : Fin 16) (e : Fin 64) :
    idx_main_v32 (ix4 b s h e) = ix4 b h s e :=
  funext fun a => Fin.ext (by match a with | ⟨0, _⟩ => rfl | ⟨1, _⟩ => rfl | ⟨2, _⟩ => rfl | ⟨3, _⟩ => rfl)

/-- The head of a model coordinate and its coordinate within the head: d = 64 (d / 64) + d % 64. -/
private def headOf (d : Fin 1024) : Fin 16 := ⟨d.val / 64, by have := d.isLt; omega⟩
private def withinHead (d : Fin 1024) : Fin 64 := ⟨d.val % 64, Nat.mod_lt _ (by decide)⟩

/-- In row-major order (b, s, d) of [2, 2048, 1024] is (b, s, d / 64, d % 64) of [2, 2048, 16, 64]. -/
private theorem split_head (b : Fin 2) (s : Fin 2048) (d : Fin 1024) :
    idx_main_v33 (ix3 b s d) = ix4 b s (headOf d) (withinHead d) := by
  have hb := b.isLt; have hs := s.isLt; have hd := d.isLt
  funext a; apply Fin.ext
  match a with
  | ⟨0, _⟩ => show ((b.val * 2048 + s.val) * 1024 + d.val) / 2097152 = b.val; omega
  | ⟨1, _⟩ => show ((b.val * 2048 + s.val) * 1024 + d.val) / 1024 % 2048 = s.val; omega
  | ⟨2, _⟩ => show ((b.val * 2048 + s.val) * 1024 + d.val) / 64 % 16 = d.val / 64; omega
  | ⟨3, _⟩ => show ((b.val * 2048 + s.val) * 1024 + d.val) % 64 = d.val % 64; omega

/-- The attention output laid out by model coordinates. -/
private theorem merged_read (b : Fin 2) (s : Fin 2048) (d : Fin 1024) :
    val_main_v33 (F := Ideal) x0 x1 x2 x3 x4 x5 x7 (ix3 b s d)
      = attBefore (maskedScores x0 x1 x3 x4 x7) (proj (act3 x2) (wt2 x5)) b (headOf d) s (withinHead d) := by
  rw [val_main_v33_apply, split_head, val_main_v32_apply, swap_back, att_read]

private theorem merged_row (b : Fin 2) (s : Fin 2048) (n k : Fin 1024) :
    lidx_main_v34 (ix3 b s n) k = ix3 b s k :=
  funext fun a => Fin.ext (by match a with | ⟨0, _⟩ => rfl | ⟨1, _⟩ => rfl | ⟨2, _⟩ => rfl)

private theorem out_col (b : Fin 2) (s : Fin 2048) (n k : Fin 1024) :
    ridx_main_v34 (ix3 b s n) k = ix2 k n :=
  funext fun a => Fin.ext (by match a with | ⟨0, _⟩ => rfl | ⟨1, _⟩ => rfl)

/-- The output projection as one sum over the model coordinates. -/
private theorem out_read (b : Fin 2) (s : Fin 2048) (n : Fin 1024) :
    val_main_v34 (F := Ideal) x0 x1 x2 x3 x4 x5 x6 x7 (ix3 b s n)
      = outFlat (attBefore (maskedScores x0 x1 x3 x4 x7) (proj (act3 x2) (wt2 x5))) (wt2 x6) b s n := by
  rw [val_main_v34_apply]
  show (∑ k : Fin 1024, _) = ∑ d : Fin 1024, _
  refine Finset.sum_congr rfl fun k _ => ?_
  rw [merged_row, out_col, merged_read]
  rfl

end

/-- The reference program, as a function of its arguments, is the second arrangement of the attention. -/
theorem ref_is_attnDiv
    (x0 x1 x2 : (⟨Cert.ReferenceIdeal.S2x2048x1024, .f32⟩ : BufTy).Contents (Elt Ideal))
    (x3 x4 x5 x6 : (⟨Cert.ReferenceIdeal.S1024x1024, .f32⟩ : BufTy).Contents (Elt Ideal))
    (x7 : (⟨Cert.ReferenceIdeal.S2, .i32⟩ : BufTy).Contents (Elt Ideal)) :
    Cert.ReferenceIdeal.Read.val_main_v34 (F := Ideal) x0 x1 x2 x3 x4 x5 x6 x7
      = Cert.Spec.toArr (Cert.Spec.attnDiv (Cert.Spec.act3 x0) (Cert.Spec.act3 x1) (Cert.Spec.act3 x2)
          (Cert.Spec.wt2 x3) (Cert.Spec.wt2 x4) (Cert.Spec.wt2 x5) (Cert.Spec.wt2 x6) (Cert.Spec.lens1 x7)) := by
  funext i
  obtain ⟨b, s, n, rfl⟩ : ∃ b s n, i = ix3 b s n := ⟨i 0, i 1, i 2, eq_ix3 i⟩
  rw [out_read]
  rfl

end Cert.RefSide

end
-- ==== Proof.SpecLaw.lean ====
/-
  The two arrangements of masked multi-head attention agree when the query and key inputs are real numbers.

  Four facts, each about one place where the arrangements differ or about what keeps the arithmetic honest:

  * scaling by 1/8 is division by sqrt 64, for every extended real;
  * dividing a contraction by a positive real L afterwards is dividing each term by L beforehand, because
    multiplication by the nonnegative real 1/L distributes over every finite sum of extended reals;
  * a row of real scores has a real maximum, so every exponential in the row is a positive real and the row sum
    is a positive real; real inputs give real projections, real inner products and real masked scores;
  * a sum over the 1024 model coordinates is a sum over the 16 heads of sums over the 64 head coordinates,
    through d = 64 h + e.
-/
import proofs.«418068_j5952824673153_2_alg».proof.Proof.Spec
import Mathlib.Data.EReal.Basic
import Mathlib.Data.EReal.Operations
import Mathlib.Data.Finset.Fold
import Mathlib.Data.Fintype.BigOperators
import Mathlib.Algebra.BigOperators.Group.Finset.Defs
import Mathlib.Algebra.BigOperators.Group.Finset.Basic
import Mathlib.Algebra.Order.BigOperators.Group.Finset
import Mathlib.Analysis.Real.Sqrt
import Mathlib.Analysis.Complex.Exponential

noncomputable section

open scoped BigOperators

namespace Cert.Spec

open Idealize.ShloMosaic

/-! ## The scale: 1/8 against sqrt 64 -/

/-- The scale word is the real 1/8. -/
theorem eighth_eq : eighth = ((1 / 8 : ℝ) : EReal) := by
  unfold eighth; simp [Ideal.ofBits, Ideal.ieee, -EReal.coe_mul]; norm_num

/-- The word under the root is the real 64. -/
theorem sixtyFour_eq : sixtyFour = ((64 : ℝ) : EReal) := by
  unfold sixtyFour; simp [Ideal.ofBits, Ideal.ieee, -EReal.coe_mul]; norm_num

/-- The masking constant is the real -10^6. -/
theorem negBig_eq : negBig = ((-1000000 : ℝ) : EReal) := by
  unfold negBig; simp [Ideal.ofBits, Ideal.ieee, -EReal.coe_mul]; norm_num

/-- sqrt 64 = 8. -/
theorem sqrt_sixtyFour : Ideal.sqrt sixtyFour = ((8 : ℝ) : EReal) := by
  rw [sixtyFour_eq, Ideal.sqrt_coe, if_neg (by norm_num)]
  rw [show (64 : ℝ) = 8 * 8 by norm_num, Real.sqrt_mul_self (by norm_num)]

/-- Scaling by 1/8 is dividing by sqrt 64, at the infinities too. -/
theorem mul_eighth_eq_div_sqrt (x : EReal) : x * eighth = Ideal.div x (Ideal.sqrt sixtyFour) := by
  rw [sqrt_sixtyFour, Ideal.div_coe (by norm_num) x, eighth_eq]

/-- The two maskings agree on every score array. -/
theorem maskMul_eq_maskDiv (vl : Lens) (d : Scores) : maskMul vl d = maskDiv vl d := by
  funext b h i j
  simp only [maskMul, maskDiv, mul_eighth_eq_div_sqrt]

/-! ## Dividing after or before the contraction -/

/-- Multiplication by a nonnegative finite factor distributes over a finite sum of extended reals. -/
theorem sum_mul_of_nonneg_of_ne_top {ι : Type} (s : Finset ι) (f : ι → EReal) {c : EReal} (hc : 0 ≤ c)
    (hc' : c ≠ ⊤) : (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top hc hc', ih]

/-- With positive real row sums, dividing the contraction is contracting the quotients. -/
theorem attAfter_eq_attBefore (s : Scores) (v : Heads)
    (hs : ∀ b h i, ∃ L : ℝ, 0 < L ∧ denom s b h i = (L : EReal)) : attAfter s v = attBefore s v := by
  funext b h i e
  obtain ⟨L, hL, hd⟩ := hs b h i
  have hL0 : L ≠ 0 := ne_of_gt hL
  have hc : (0 : EReal) ≤ ((1 / L : ℝ) : EReal) := by
    exact_mod_cast (le_of_lt (one_div_pos.mpr hL))
  have hc' : ((1 / L : ℝ) : EReal) ≠ ⊤ := EReal.coe_ne_top _
  simp only [attAfter, attBefore, hd, Ideal.div_coe hL0]
  rw [sum_mul_of_nonneg_of_ne_top _ _ hc hc']
  exact Finset.sum_congr rfl fun j _ => mul_right_comm _ _ _

/-! ## Real numbers among the extended reals -/

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type} (s : Finset ι) (f : ι → EReal) (hf : ∀ j ∈ s, IsReal (f j)) :
    IsReal (∑ j ∈ s, f j) := by
  classical
  induction s using Finset.induction_on with
  | empty => exact ⟨0, by simp⟩
  | insert a s ha ih =>
    rw [Finset.sum_insert ha]
    exact (hf a (Finset.mem_insert_self a s)).add (ih fun j hj => hf j (Finset.mem_insert_of_mem hj))

/-- A finite sum of casts of reals is the cast of the sum. -/
theorem sum_coe {ι : Type} (s : Finset ι) (g : ι → ℝ) :
    (∑ j ∈ s, ((g j : ℝ) : EReal)) = ((∑ j ∈ s, g j : ℝ) : EReal) := by
  classical
  induction s using Finset.induction_on with
  | empty => simp
  | insert a s ha ih => rw [Finset.sum_insert ha, Finset.sum_insert ha, ih, EReal.coe_add]

/-- A nonempty finite sum of positive reals is a positive real. -/
theorem sum_pos_real {ι : Type} (s : Finset ι) (hne : s.Nonempty) (f : ι → EReal)
    (hf : ∀ j, ∃ r : ℝ, 0 < r ∧ f j = (r : EReal)) : ∃ L : ℝ, 0 < L ∧ ∑ j ∈ s, f j = (L : EReal) := by
  choose g hg0 hg using hf
  refine ⟨∑ j ∈ s, g j, Finset.sum_pos (fun j _ => hg0 j) hne, ?_⟩
  rw [← sum_coe]
  exact Finset.sum_congr rfl fun j _ => hg j

/-- The maximum of a nonempty finite family of reals, folded from the bottom element, is a real. -/
theorem fold_max_isReal {ι : Type} (s : Finset ι) (hne : s.Nonempty) (f : ι → EReal)
    (hf : ∀ j, IsReal (f j)) : IsReal (s.fold max ⊥ f) := by
  have htop : s.fold max ⊥ f ≠ ⊤ := by
    apply ne_of_lt
    rw [Finset.fold_max_lt]
    refine ⟨bot_lt_top, fun j _ => ?_⟩
    obtain ⟨r, hr⟩ := hf j
    rw [hr]; exact EReal.coe_lt_top r
  have hbot : s.fold max ⊥ f ≠ ⊥ := by
    apply ne_of_gt
    rw [Finset.lt_fold_max]
    obtain ⟨j, hj⟩ := hne
    refine Or.inr ⟨j, hj, ?_⟩
    obtain ⟨r, hr⟩ := hf j
    rw [hr]; exact EReal.bot_lt_coe r
  exact ⟨(s.fold max ⊥ f).toReal, (EReal.coe_toReal htop hbot).symm⟩

/-! ## Real inputs give positive real row sums -/

/-- A projection of real activations through real weights is real. -/
theorem proj_isReal (X : Act) (W : Wt) (hX : ∀ b s d, IsReal (X b s d)) (hW : ∀ i j, IsReal (W i j))
    (b : Fin 2) (h : Fin 16) (s : Fin 2048) (e : Fin 64) : IsReal (proj X W b h s e) :=
  IsReal.sum _ _ fun d _ => (hX b s d).mul (hW d (hd h e))

/-- Inner products of real rows are real. -/
theorem dots_isReal (q k : Heads) (hq : ∀ b h s e, IsReal (q b h s e)) (hk : ∀ b h s e, IsReal (k b h s e))
    (b : Fin 2) (h : Fin 16) (i j : Fin 2048) : IsReal (dots q k b h i j) :=
  IsReal.sum _ _ fun e _ => (hq b h i e).mul (hk b h j e)

/-- Masking real scores, scaled by 1/8, leaves real scores: a kept score is a product of reals and a dropped one
    is the real -10^6. -/
theorem maskMul_isReal (vl : Lens) (d : Scores) (hd' : ∀ b h i j, IsReal (d b h i j))
    (b : Fin 2) (h : Fin 16) (i j : Fin 2048) : IsReal (maskMul vl d b h i j) := by
  unfold maskMul Scalar.select
  split
  · exact (hd' b h i j).mul ⟨_, eighth_eq⟩
  · exact ⟨_, negBig_eq⟩

/-- A row of real scores has a real maximum. -/
theorem rowMax_isReal (s : Scores) (hs : ∀ b h i j, IsReal (s b h i j)) (b : Fin 2) (h : Fin 16)
    (i : Fin 2048) : IsReal (rowMax s b h i) :=
  fold_max_isReal _ ⟨0, Finset.mem_univ _⟩ _ fun j => hs b h i j

/-- Each exponential in a row of real scores is a positive real. -/
theorem expo_pos (s : Scores) (hs : ∀ b h i j, IsReal (s b h i j)) (b : Fin 2) (h : Fin 16)
    (i j : Fin 2048) : ∃ r : ℝ, 0 < r ∧ expo s b h i j = (r : EReal) := by
  obtain ⟨x, hx⟩ := hs b h i j
  obtain ⟨m, hm⟩ := rowMax_isReal s hs b h i
  refine ⟨Real.exp (x - m), Real.exp_pos _, ?_⟩
  unfold expo
  rw [hx, hm, ← EReal.coe_sub, Ideal.exp_coe]

/-- The sum of a row of exponentials of real scores is a positive real. -/
theorem denom_pos (s : Scores) (hs : ∀ b h i j, IsReal (s b h i j)) (b : Fin 2) (h : Fin 16)
    (i : Fin 2048) : ∃ L : ℝ, 0 < L ∧ denom s b h i = (L : EReal) :=
  sum_pos_real _ ⟨0, Finset.mem_univ _⟩ _ fun j => expo_pos s hs b h i j

/-! ## One sum over 1024 coordinates, or sixteen sums over 64 -/

/-- The pair (head, head coordinate) of a model coordinate, and back. -/
def hdEquiv : Fin 16 × Fin 64 ≃ Fin 1024 where
  toFun p := hd p.1 p.2
  invFun d := (⟨d.val / 64, by have := d.isLt; omega⟩, ⟨d.val % 64, Nat.mod_lt _ (by decide)⟩)
  left_inv p := by
    obtain ⟨h, e⟩ := p
    have := h.isLt; have := e.isLt
    apply Prod.ext <;> apply Fin.ext <;> simp only [hd] <;> omega
  right_inv d := by
    apply Fin.ext; simp only [hd]; omega

/-- A sum over the model coordinates, taken head by head. -/
theorem sum_model_eq_sum_heads (F : Fin 1024 → EReal) :
    ∑ d : Fin 1024, F d = ∑ h : Fin 16, ∑ e : Fin 64, F (hd h e) := by
  rw [← Equiv.sum_comp hdEquiv F, Fintype.sum_prod_type]
  rfl

/-- The two output projections agree on every head-major array. -/
theorem outHeads_eq_outFlat (a : Heads) (Wo : Wt) : outHeads a Wo = outFlat a Wo := by
  funext b s n
  unfold outHeads outFlat
  rw [sum_model_eq_sum_heads]
  refine Finset.sum_congr rfl fun h _ => Finset.sum_congr rfl fun e _ => ?_
  have h1 : (⟨(hd h e).val / 64, by have := (hd h e).isLt; omega⟩ : Fin 16) = h := by
    apply Fin.ext; have := e.isLt; simp only [hd]; omega
  have h2 : (⟨(hd h e).val % 64, Nat.mod_lt _ (by decide)⟩ : Fin 64) = e := by
    apply Fin.ext; have := e.isLt; simp only [hd]; omega
  rw [h1, h2]

/-! ## The two arrangements -/

/-- On real query and key inputs the two arrangements of the attention are the same array. -/
theorem attnMul_eq_attnDiv (Xq Xk Xv : Act) (Wq Wk Wv Wo : Wt) (vl : Lens)
    (hXq : ∀ b s d, IsReal (Xq b s d)) (hXk : ∀ b s d, IsReal (Xk b s d))
    (hWq : ∀ i j, IsReal (Wq i j)) (hWk : ∀ i j, IsReal (Wk i j)) :
    attnMul Xq Xk Xv Wq Wk Wv Wo vl = attnDiv Xq Xk Xv Wq Wk Wv Wo vl := by
  have hreal : ∀ b h i j, IsReal (maskMul vl (dots (proj Xq Wq) (proj Xk Wk)) b h i j) :=
    maskMul_isReal vl _ (dots_isReal _ _ (proj_isReal Xq Wq hXq hWq) (proj_isReal Xk Wk hXk hWk))
  unfold attnMul attnDiv
  rw [outHeads_eq_outFlat, attAfter_eq_attBefore _ _ (denom_pos _ hreal), maskMul_eq_maskDiv]

end Cert.Spec

end
-- ==== Proof.Finite.lean ====
/-
  Finite inputs are real inputs.

  The precondition compares, for each of the seven float arrays, the absolute value of every entry with plus
  infinity, takes the conjunction over all the entries of the array, and then the conjunction over the seven
  arrays. Over the extended reals the absolute value of x is max x (-x), which is plus infinity exactly at the
  two infinite elements; so a conjunction that comes out true says that every entry of every array is a real number.
-/
import proofs.«418068_j5952824673153_2_alg».proof.Defs
import proofs.«418068_j5952824673153_2_alg».proof.Proof.Gen.Pre_finite_inputs
import proofs.«418068_j5952824673153_2_alg».proof.Proof.Spec
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- The shape of a single number has exactly one index. -/
local instance scalarIdxSubsingleton : Subsingleton (⟨0, ![]⟩ : Shape).Idx := ⟨fun a b => funext fun d => d.elim0⟩

/-- The float word with all exponent bits set and no fraction bit is plus infinity. -/
theorem infWord_eq_top : Ideal.ofBits .f32 0x7F800000#32 = (⊤ : EReal) := by simp [Ideal.ofBits, Ideal.ieee]

/-- An extended real whose absolute value max x (-x) lies strictly below plus infinity is a real number: at either
infinite element the absolute value is plus infinity itself. -/
theorem real_of_abs_lt_inf (x : EReal)
    (h : Ideal.cmp .olt (max x (-x)) (Ideal.ofBits .f32 0x7F800000#32) = 1#1) : Cert.Spec.IsReal x := by
  rw [infWord_eq_top] at h
  induction x using EReal.rec with
  | bot => simp [Ideal.cmp] at h
  | coe r => exact ⟨r, rfl⟩
  | top => simp [Ideal.cmp] at h

/-- The conjunction of two arrays of bits, read at an index, is the conjunction of the two bits there. -/
theorem andi_at {s : Shape} {w : Nat} (p q : IVec s w) (i : s.Idx) : andi p q i = IntOp.andi (p i) (q i) := rfl

/-- One array: when the conjunction over all its entries of "|x| < +inf" is true, every entry is a real number. -/
theorem real_of_all_abs_lt_inf {S : Shape} {axes : List (Fin S.rank)}
    (hb : (⟨0, ![]⟩ : Shape).BroadcastsInDim S (![] : Fin 0 → Fin S.rank)) (hr : S.ReducesTo axes (⟨0, ![]⟩ : Shape))
    (hu : 0 < (⟨0, ![]⟩ : Shape).numel) (x : FVec Ideal S .f32)
    (h : Host.reduce IntOp.andi
        (cmpf .olt (Host.absf x) (broadcastInDim S ![] hb (constant (⟨0, ![]⟩ : Shape) .f32 0x7F800000#32)))
        (constantI (⟨0, ![]⟩ : Shape) 1 1#1) hr hu ix0 = 1#1) :
    ∀ i, Cert.Spec.IsReal (x i) := by
  intro i
  have e := Host.reduce_andi_all _ _ hr hu ix0 h i
  exact real_of_abs_lt_inf (x i) e

/-- All seven float arguments of the precondition: when it holds, each entry of each of them is a real number. -/
theorem entries_real
    (a0 a1 a2 : FVec Ideal Cert.Pre_finite_inputs.S2x2048x1024 .f32) (a3 a4 a5 a6 : FVec Ideal Cert.Pre_finite_inputs.S1024x1024 .f32)
    (a7 : IVec Cert.Pre_finite_inputs.S2 32)
    (h : Cert.Pre_finite_inputs.fn (F := Ideal) a0 a1 a2 a3 a4 a5 a6 a7 = fun _ => 1#1) :
    (∀ i, Cert.Spec.IsReal (a0 i)) ∧ (∀ i, Cert.Spec.IsReal (a1 i)) ∧ (∀ i, Cert.Spec.IsReal (a2 i)) ∧ (∀ i, Cert.Spec.IsReal (a3 i))
      ∧ (∀ i, Cert.Spec.IsReal (a4 i)) ∧ (∀ i, Cert.Spec.IsReal (a5 i)) ∧ (∀ i, Cert.Spec.IsReal (a6 i)) := by
  have h0 := congrFun h ix0
  unfold Cert.Pre_finite_inputs.fn Cert.Pre_finite_inputs.fn_part1 at h0
  dsimp only at h0
  simp only [andi_at, IntOp.andi_eq_one] at h0
  obtain ⟨⟨⟨⟨⟨⟨e0, e1⟩, e2⟩, e3⟩, e4⟩, e5⟩, e6⟩ := h0
  exact ⟨real_of_all_abs_lt_inf _ _ _ a0 e0, real_of_all_abs_lt_inf _ _ _ a1 e1, real_of_all_abs_lt_inf _ _ _ a2 e2,
    real_of_all_abs_lt_inf _ _ _ a3 e3, real_of_all_abs_lt_inf _ _ _ a4 e4, real_of_all_abs_lt_inf _ _ _ a5 e5,
    real_of_all_abs_lt_inf _ _ _ a6 e6⟩

end Cert.Finite

end
-- ==== Proof.lean ====
/-
  The certificate of the multi-head attention kernel against its reference.

  The kernel program runs three projection launches (queries, keys, values to head-major layout), an attention launch
  that reads each batch's valid key length from a table, and an output-projection launch that accumulates over the
  heads; around them host operations re-lay the weights, flatten and un-flatten the activations, and repeat the valid
  lengths per head. The reference is one straight line of host operations.

  Frames: each kernel program's run is assembled from one segment record per launch over the valuations of the
  unscoped buffers between the program's items; the reference's frame is its run with the result dropped.
  The idealization rewrote nothing, so it preserves the kernel trivially.
  Equivalence over the extended reals: the kernel's result buffer holds the arrangement "scale the scores by 1/8,
  divide by the row sum after contracting with the values, sum over heads", the reference's the arrangement "divide
  the scores by sqrt 64, divide before contracting, one flat sum over the model coordinates". The two agree whenever
  the queries, keys and their two weights are finite: then every row sum of exponentials is a positive real, so
  dividing commutes with the finite sum; 1/8 is the reciprocal of sqrt 64; and the flat sum re-indexes by heads.
  Finiteness of the inputs is the certificate's precondition.
-/
import proofs.«418068_j5952824673153_2_alg».proof.Defs
import proofs.«418068_j5952824673153_2_alg».proof.Proof.Gen.Kernel
import proofs.«418068_j5952824673153_2_alg».proof.Proof.Gen.KernelIdeal
import proofs.«418068_j5952824673153_2_alg».proof.Proof.Gen.ReferenceIdeal
import proofs.«418068_j5952824673153_2_alg».proof.Proof.Gen.ReferenceIdeal.Run
import proofs.«418068_j5952824673153_2_alg».proof.Proof.Gen.ReferenceIdeal.Read
import proofs.«418068_j5952824673153_2_alg».proof.Proof.Gen.Pre_finite_inputs
import proofs.«418068_j5952824673153_2_alg».proof.Proof.WordRun
import proofs.«418068_j5952824673153_2_alg».proof.Proof.KernelValue
import proofs.«418068_j5952824673153_2_alg».proof.Proof.RefIsSpec
import proofs.«418068_j5952824673153_2_alg».proof.Proof.SpecLaw
import proofs.«418068_j5952824673153_2_alg».proof.Proof.Finite

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Region.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Region.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under finite inputs, both idealized programs end with the same result:
    the kernel's arrangement of the attention computation equals the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.toArr (Cert.Spec.attnMul (Cert.KernelIdeal.Region.argQ m c) (Cert.KernelIdeal.Region.argK m c)
      (Cert.KernelIdeal.Region.argV m c) (Cert.KernelIdeal.Region.argWq m c) (Cert.KernelIdeal.Region.argWk m c)
      (Cert.KernelIdeal.Region.argWv m c) (Cert.KernelIdeal.Region.argWo m c) (Cert.KernelIdeal.Region.argLens m c)), ?_, ?_⟩
  · exact (θ_run Cert.KernelIdeal.defs _ _).mono
      (fun _ h c => ⟨(h c).1.trans (Cert.KernelIdeal.Region.kernel_value m c), (h c).2⟩)
      (Cert.KernelIdeal.Region.run_main (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7⟩ := hagree c
    obtain ⟨r0, r1, -, r3, r4, -, -⟩ := Cert.Finite.entries_real _ _ _ _ _ _ _ _ (hpre c)
    rw [(h c).1, Cert.ReferenceIdeal.Read.val_main_v34_eq, h0, h1, h2, h3, h4, h5, h6, h7, Cert.RefSide.ref_is_attnDiv]
    refine congrArg Cert.Spec.toArr (Cert.Spec.attnMul_eq_attnDiv _ _ _ _ _ _ _ _ ?_ ?_ ?_ ?_).symm
    · exact fun b s d => r0 _
    · exact fun b s d => r1 _
    · exact fun i j => r3 _
    · exact fun i j => r4 _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
